-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S1024x256 : Shape := ⟨2, ![1024, 256]⟩
abbrev S8192x256 : Shape := ⟨2, ![8192, 256]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8192x32000 .f32) (main_arg1 : FVec F S1024x256 .f32) (main_arg2 : FVec F S8192x256 .f32) (main_arg3 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x32000 : Shape := ⟨2, ![8192, 32000]⟩
abbrev S1024x256 : Shape := ⟨2, ![1024, 256]⟩
abbrev S8192x256 : Shape := ⟨2, ![8192, 256]⟩
abbrev S8192 : Shape := ⟨1, ![8192]⟩
abbrev S8192x1 : Shape := ⟨2, ![8192, 1]⟩
abbrev S512x6400 : Shape := ⟨2, ![512, 6400]⟩
abbrev S512x1 : Shape := ⟨2, ![512, 1]⟩
abbrev S512x1280 : Shape := ⟨2, ![512, 1280]⟩
abbrev S512 : Shape := ⟨1, ![512]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S1024 : Shape := ⟨1, ![1024]⟩
abbrev S1x1024 : Shape := ⟨2, ![1, 1024]⟩
abbrev S1024x1 : Shape := ⟨2, ![1024, 1]⟩
abbrev S256x1024 : Shape := ⟨2, ![256, 1024]⟩
abbrev S1024x1024 : Shape := ⟨2, ![1024, 1024]⟩

abbrev nBuf : Space → Nat
  | .hbm => 47
  | .vmem => 12
  | .smem => 0
  | _ => 0

abbrev bufTy : (tb : Table) → Fin (tcTables nBuf tb) → BufTy
  | .hbm, ⟨0, _⟩ => ⟨S8192x32000, .f32⟩
  | .hbm, ⟨1, _⟩ => ⟨S1024x256, .f32⟩
  | .hbm, ⟨2, _⟩ => ⟨S8192x256, .f32⟩
  | .hbm, ⟨3, _⟩ => ⟨S8192, .i32⟩
  | .hbm, ⟨4, _⟩ => ⟨S8192x1, .f32⟩
  | .hbm, ⟨5, _⟩ => ⟨S8192x1, .i32⟩
  | .hbm, ⟨6, _⟩ => ⟨S_, .i32⟩
  | .hbm, ⟨7, _⟩ => ⟨S8192x1, .i32⟩
  | .hbm, ⟨8, _⟩ => ⟨S8192x1, .i1⟩
  | .hbm, ⟨9, _⟩ => ⟨S_, .i32⟩
  | .hbm, ⟨10, _⟩ => ⟨S8192x1, .i32⟩
  | .hbm, ⟨11, _⟩ => ⟨S8192x1, .i32⟩
  | .hbm, ⟨12, _⟩ => ⟨S8192x1, .i32⟩
  | .hbm, ⟨13, _⟩ => ⟨S8192x1x1, .i32⟩
  | .hbm, ⟨14, _⟩ => ⟨S1, .i32⟩
  | .hbm, ⟨15, _⟩ => ⟨S_, .i32⟩
  | .hbm, ⟨16, _⟩ => ⟨S8192x1x1, .i32⟩
  | .hbm, ⟨17, _⟩ => ⟨S8192x1x1, .i1⟩
  | .hbm, ⟨18, _⟩ => ⟨S1x1x1, .i32⟩
  | .hbm, ⟨19, _⟩ => ⟨S8192x1x1, .i32⟩
  | .hbm, ⟨20, _⟩ => ⟨S8192x1x1, .i1⟩
  | .hbm, ⟨21, _⟩ => ⟨S8192x1x1, .i1⟩
  | .hbm, ⟨22, _⟩ => ⟨S_, .i1⟩
  | .hbm, ⟨23, _⟩ => ⟨S8192x1, .i1⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1024x256, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S512x6400, .f32⟩
  | .local _ .vmem, ⟨1, _⟩ => ⟨S512x6400, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1x1024, .f32⟩
  | .local _ .vmem, ⟨10, _⟩ => ⟨S1024x1, .f32⟩
  | .local _ .vmem, ⟨11, _⟩ => ⟨S1024x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_cst_3 : Ref sig .tc := ⟨.hbm, 40, rfl⟩
abbrev main_v11 : Ref sig .tc := ⟨.hbm, 41, rfl⟩
abbrev main_cst_4 : Ref sig .tc := ⟨.hbm, 42, rfl⟩
abbrev main_v12 : Ref sig .tc := ⟨.hbm, 43, rfl⟩
abbrev main_cst_5 : Ref sig .tc := ⟨.hbm, 44, rfl⟩
abbrev main_v13 : Ref sig .tc := ⟨.hbm, 45, rfl⟩
abbrev main_v14 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨2, ![16, 5], ![false, false]⟩

def k0_mult1 : BitVec 32 :=
  let c0_i32_4 : BitVec 32 := 0#32
  let c1280_i32 : BitVec 32 := 1280#32
  let v5 : BitVec 32 := Scalar.muli c0_i32_4 c1280_i32
  v5
def k0_off1 (c0_i32_4 : BitVec 32) : Fin 2 → Nat :=
  let c0_5 : Index := 0#32
  let c1280_i32 : BitVec 32 := 1280#32
  let v5 : BitVec 32 := Scalar.muli c0_i32_4 c1280_i32
  let v6 : BitVec 32 := v5
  let v7 : Index := Scalar.indexCast v6
  ![0, v7.toNat]
def k0_mult2 : BitVec 32 :=
  let c1_i32 : BitVec 32 := 1#32
  let c1280_i32_7 : BitVec 32 := 1280#32
  let v21 : BitVec 32 := Scalar.muli c1_i32 c1280_i32_7
  v21
def k0_mult3 : BitVec 32 :=
  let c2_i32 : BitVec 32 := 2#32
  let c1280_i32_11 : BitVec 32 := 1280#32
  let v37 : BitVec 32 := Scalar.muli c2_i32 c1280_i32_11
  v37
def k0_mult4 : BitVec 32 :=
  let c3_i32 : BitVec 32 := 3#32
  let c1280_i32_15 : BitVec 32 := 1280#32
  let v53 : BitVec 32 := Scalar.muli c3_i32 c1280_i32_15
  v53
def k0_mult5 : BitVec 32 :=
  let c4_i32 : BitVec 32 := 4#32
  let c1280_i32_19 : BitVec 32 := 1280#32
  let v69 : BitVec 32 := Scalar.muli c4_i32 c1280_i32_19
  v69
def k0_cond2 (i : grid0.Coords) : BitVec 1 :=
  let arg1 : BitVec 32 := BitVec.ofNat 32 (i 1).val
  let c4_i32_27 : BitVec 32 := 4#32
  let v91 : BitVec 1 := Scalar.cmpi .eq arg1 c4_i32_27
  let v92 : BitVec 32 := Scalar.extui v91
  let c0_i32_28 : BitVec 32 := 0#32
  let v93 : BitVec 1 := Scalar.cmpi .ne v92 c0_i32_28
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S512x1280 : 0 < S512x1280.numel
  reduces_S512x1280_S512 : S512x1280.Reduces [1] S512
  shapeCasts_S512_S512x1 : S512.ShapeCasts S512x1
  broadcasts_S512x1_S512x1280 : S512x1.Broadcasts S512x1280
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  reducesTo_S8192x1_S_d0_1 : S8192x1.ReducesTo [0, 1] S_
  reducesTo_S1024x256_S1024_d1 : S1024x256.ReducesTo [1] S1024
  bcast_S1024_S1x1024_1 : S1024.BroadcastsInDim S1x1024 (![1] : Fin 1 → Fin S1x1024.rank)
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  transposes_S1024x256_p1_0_S256x1024 : S1024x256.Transposes [1, 0] S256x1024
  reduces_S1024x256_S1024 : S1024x256.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  reduces_S1024x1024_S1024 : S1024x1024.Reduces [1] S1024
  inb_S1024x1_S1024x1_0_0 : ∀ a, (![0, 0] : Fin 2 → Nat) a + S1024x1.size a ≤ S1024x1.size a
  h_S1024x1 : 0 < S1024x1.numel
  gather_S8192x32000_S8192x1x1_S8192x1_n_1_0_0_1_2_11_wf : GatherDims.WF S8192x32000 S8192x1x1 S8192x1 [] [1] [0] [1] [0] 2 ![1, 1]
  dot_S1024x256_S256x1024_S1024x1024_1_0_0_1_n_n_wf : DotDims.WF S1024x256 S256x1024 S1024x1024 [1] [0] [0] [1] [] []
  hrank0 : 0 < grid0.rank
  k0_mult1_dvd : 128 ∣ k0_mult1.toNat
  k0_off1_inb : ∀ (r : Fin 5), ∀ a, (k0_off1 (BitVec.ofNat 32 r.val)) a + S512x1280.size a ≤ S512x6400.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S8192x32000.size a
  hwx0_0 : ∀ i : grid0.Coords, EltTy.bits .f32 = 32 ∨ (Rect.block (s := S8192x32000) S512x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x32000 : Shape := ⟨2, ![8192, 32000]⟩
abbrev S1024x256 : Shape := ⟨2, ![1024, 256]⟩
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S1024x256, .f32⟩
  | .hbm, ⟨2, _⟩ => ⟨S8192x256, .f32⟩
  | .hbm, ⟨3, _⟩ => ⟨S8192, .i32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x32000, .f32⟩
  | .hbm, ⟨11, _⟩ => ⟨S8192x32000, .f32⟩
  | .hbm, ⟨12, _⟩ => ⟨S8192x32000, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S8192x32000, .f32⟩
  | .hbm, ⟨18, _⟩ => ⟨S8192x32000, .f32⟩
  | .hbm, ⟨19, _⟩ => ⟨S8192x1, .i32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S_, .i32⟩
  | .hbm, ⟨24, _⟩ => ⟨S8192x1, .i32⟩
  | .hbm, ⟨25, _⟩ => ⟨S8192x1, .i32⟩
  | .hbm, ⟨26, _⟩ => ⟨S8192x1, .i32⟩
  | .hbm, ⟨27, _⟩ => ⟨S8192x1x1, .i32⟩
  | .hbm, ⟨28, _⟩ => ⟨S1, .i32⟩
  | .hbm, ⟨29, _⟩ => ⟨S_, .i32⟩
  | .hbm, ⟨30, _⟩ => ⟨S8192x1x1, .i32⟩
  | .hbm, ⟨31, _⟩ => ⟨S8192x1x1, .i1⟩
  | .hbm, ⟨32, _⟩ => ⟨S1x1x1, .i32⟩
  | .hbm, ⟨33, _⟩ => ⟨S8192x1x1, .i32⟩
  | .hbm, ⟨34, _⟩ => ⟨S8192x1x1, .i1⟩
  | .hbm, ⟨35, _⟩ => ⟨S8192x1x1, .i1⟩
  | .hbm, ⟨36, _⟩ => ⟨S_, .i1⟩
  | .hbm, ⟨37, _⟩ => ⟨S8192x1, .i1⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192x256, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S1024x256, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S256x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_cst : Ref sig .tc := ⟨.hbm, 42, rfl⟩
abbrev main_v3 : Ref sig .tc := ⟨.hbm, 43, rfl⟩
abbrev main_cst_0 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst_1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_2 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_3 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_4 : Ref sig .tc := ⟨.hbm, 66, rfl⟩
abbrev main_v22 : Ref sig .tc := ⟨.hbm, 67, rfl⟩
abbrev main_v23 : Ref sig .tc := ⟨.hbm, 68, rfl⟩
abbrev main_cst_5 : Ref sig .tc := ⟨.hbm, 69, rfl⟩
abbrev main_v24 : Ref sig .tc := ⟨.hbm, 70, rfl⟩
abbrev main_cst_6 : Ref sig .tc := ⟨.hbm, 71, rfl⟩
abbrev main_v25 : Ref sig .tc := ⟨.hbm, 72, rfl⟩
abbrev main_v26 : Ref sig .tc := ⟨.hbm, 73, rfl⟩
abbrev main_cst_7 : Ref sig .tc := ⟨.hbm, 74, rfl⟩
abbrev main_v27 : Ref sig .tc := ⟨.hbm, 75, rfl⟩
abbrev main_cst_8 : Ref sig .tc := ⟨.hbm, 76, rfl⟩
abbrev main_v28 : Ref sig .tc := ⟨.hbm, 77, rfl⟩
abbrev main_v29 : Ref sig .tc := ⟨.hbm, 78, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  reducesTo_S8192x256_S8192_d1 : S8192x256.ReducesTo [1] S8192
  reducesTo_S1024x256_S1024_d1 : S1024x256.ReducesTo [1] S1024
  bcast_S1024_S1x1024_1 : S1024.BroadcastsInDim S1x1024 (![1] : Fin 1 → Fin S1x1024.rank)
  bcast_S8192x1_S8192x1024_0_1 : S8192x1.BroadcastsInDim S8192x1024 (![0, 1] : Fin 2 → Fin S8192x1024.rank)
  bcast_S1x1024_S8192x1024_0_1 : S1x1024.BroadcastsInDim S8192x1024 (![0, 1] : Fin 2 → Fin S8192x1024.rank)
  transposes_S1024x256_S256x1024_1_0 : S1024x256.Transposes [1, 0] S256x1024
  bcast_S_S8192x1024 : S_.BroadcastsInDim S8192x1024 (![] : Fin 0 → Fin S8192x1024.rank)
  reducesTo_S8192x1024_S8192_d1 : S8192x1024.ReducesTo [1] S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]
  dot_S8192x256_S256x1024_S8192x1024_1_0_0_1_n_n_wf : DotDims.WF S8192x256 S256x1024 S8192x1024 [1] [0] [0] [1] [] []

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf

class Facts : Prop extends Facts₀ where

variable [Facts]
-- ==== Proof.KbR0Runs.lean ====
/-
  The first region (the streamed log-sum-exp over a 16 × 5 grid of 512 × 6400 blocks of the logits): what its three
  control cases share. Grid point t is row block t / 5 and column block t % 5. At column block 0 the two running
  columns (the running maximum and the running sum of exponentials, each 512 × 1, kept in scratch between points) are
  reset; at every point they are updated from the point's block; at column block 4 the row block's 512 results are
  stored. Here: a window's block read off the array the region finds, the two conditions in closed form over the grid,
  where the output window is idle, and the names of the staging and scratch memory the case runs are stated over.
-/
import proofs.«406017_j9732395892833_3_alg».proof.Proof.Gen.Kernel.Launch
import proofs.«406017_j9732395892833_3_alg».proof.Proof.Gen.Kernel.Skeleton
import proofs.«406017_j9732395892833_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Entry
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits window's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The two conditions of the body, over the grid -/

/-- "This is the row block's first column block": the reset of the running columns is under it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the row block's last column block": the store of the result is under it. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memory the runs are stated over -/

/-- One staging buffer of the output window, through which its contents are stated. -/
abbrev VO0_1 : View sig .tc .vmem S512x1 .f32 := (Memref.whole cc0_stg1_0 : Memref sig .tc .vmem S512x1 .f32).view
abbrev ms0_0 (t : Fin cfg0.N) : Memref sig .tc .vmem S512x6400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
/-- The running maximum's and the running sum's scratch buffers, whole. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

/-! ## The region's invariant, spelt out -/

/-- The scoped buffers that are neither this region's staging buffers nor its two scratch buffers (the second
    region's staging buffers), each whole at some contents: they ride through this region untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Between points the region holds the two scratch buffers, the other scoped buffers and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS (F := F) c) ∗ (∃ r, prngReg c r)) := by
  unfold Pipeline.ΦA restS; rw [scopedRest0_eq]; simp only [scM0_0, scM0_1, owns_whole]; try rfl

end Cert.Kernel.Fr

end
-- ==== Proof.KbR0RunA.lean ====
/-
  The first region's body at a point where a row block starts (column block 0, not the last): the two running columns are reset, then updated from the point's five 512 × 1280 chunks; nothing is stored into the output window. The pieces each scratch buffer ends with are found by running the body.
-/
import proofs.«406017_j9732395892833_3_alg».proof.Proof.KbR0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs at a row block's first point: the input block at `x0`, the idle output handed back as found,
    the two scratch buffers at anything; it ends with each scratch buffer's pieces written. -/
noncomputable def kernelRun0_A (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) :
    Σ' (L1 : List (View.Piece (Elt F) S512x1 .f32)) (LS0 : List (View.Piece (Elt F) S512x1 .f32)), { LS1 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__ce_kernel i arg2 harg2 arg3 harg3 arg4 harg4 arg5 harg5) K } := by
  refine ⟨[], ?_, ?_, fun xi1 E K => ?run⟩
  case run =>
    simp only [cc0__ce_kernel_eq_skeleton]; unfold cc0__ce_kernel_skel
    simp only [k0_part1_eq_skeleton, k0_part2_eq_skeleton]
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Fr

end
-- ==== Proof.KbR0RunB.lean ====
/-
  The first region's body at a point in the middle of a row block (column blocks 1 to 3): the two running columns, found as the point before left them, are updated from the point's five chunks; nothing is stored into the output window.
-/
import proofs.«406017_j9732395892833_3_alg».proof.Proof.KbR0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs at a middle point: the input block at `x0`, the idle output handed back as found, the two
    scratch buffers at what the point before left (`xs0`, `xs1`); it ends with each scratch buffer's pieces written. -/
noncomputable def kernelRun0_B (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) :
    Σ' (L1 : List (View.Piece (Elt F) S512x1 .f32)) (LS0 : List (View.Piece (Elt F) S512x1 .f32)), { LS1 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__ce_kernel i arg2 harg2 arg3 harg3 arg4 harg4 arg5 harg5) K } := by
  refine ⟨[], ?_, ?_, fun xi1 E K => ?run⟩
  case run =>
    simp only [cc0__ce_kernel_eq_skeleton]; unfold cc0__ce_kernel_skel
    simp only [k0_part1_eq_skeleton, k0_part2_eq_skeleton]
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Fr

end
-- ==== Proof.KbR0RunC.lean ====
/-
  The first region's body at a row block's last point (column block 4): the two running columns are updated from the point's five chunks, and the row block's results, the running maximum plus the logarithm of the running sum, are stored into the output window.
-/
import proofs.«406017_j9732395892833_3_alg».proof.Proof.KbR0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs at a row block's last point: the input block at `x0`, the output at anything, the two scratch
    buffers at what the point before left; it ends with the output's and each scratch buffer's pieces written. -/
noncomputable def kernelRun0_C (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) :
    Σ' (L1 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__ce_kernel i arg2 harg2 arg3 harg3 arg4 harg4 arg5 harg5) K } := by
  refine ⟨?_, ?_, ?_, fun E K => ?run⟩
  case run =>
    simp only [cc0__ce_kernel_eq_skeleton]; unfold cc0__ce_kernel_skel
    simp only [k0_part1_eq_skeleton, k0_part2_eq_skeleton]
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [HS0]; · iexists _; iexact HS0
    iexists _; iexact HS1

end Cert.Kernel.Fr

end
-- ==== Proof.KbR0Frame.lean ====
/-
  The first region, assembled. What each of the three control cases leaves in the output's staging buffer and in the two
  scratch buffers (the pieces its run found, read back); what those buffers hold after every grid point, by recursion on
  the point: at a row block's first point the columns are reset and updated, at a later point they are updated from what
  the point before left; the region's invariant, which carries the two scratch buffers at exactly those contents from
  one point to the next; the proof data; and the body obligation at every point, by cases on the point's position in
  its row block.
-/
import proofs.«406017_j9732395892833_3_alg».proof.Proof.KbR0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output's staging buffer: its pieces read back (none: the window is idle there and nothing consults this). -/
def out0_A_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) : Vec F S512x1 .f32 :=
  VO0_1.read (Elt F) (VO0_1.writes (Elt F) VO0_1.junk (kernelRun0_A c i arg2 harg2 arg3 harg3 arg4 harg4 arg5 harg5 hc0 hc1 x0).1)

/-- Case A's pieces for the running maximum's buffer cover it. -/
theorem scover0_A_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) (y : S512x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S512x1.size (by sl_kernel_rfl) y

/-- What case A leaves in the running maximum's buffer. -/
def sout0_A_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) : Vec F S512x1 .f32 :=
  VS0_0.read (Elt F) (VS0_0.writes (Elt F) VS0_0.junk (kernelRun0_A c i arg2 harg2 arg3 harg3 arg4 harg4 arg5 harg5 hc0 hc1 x0).2.1)

/-- Case A's pieces for the running sum's buffer cover it. -/
theorem scover0_A_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) (y : S512x1.Idx) :
    ∃ pc ∈ (kernelRun0_A c i arg2 harg2 arg3 harg3 arg4 harg4 arg5 harg5 hc0 hc1 x0).2.2.1, y ∈ pc.1.set :=
  View.cover_of_tiledL (kernelRun0_A c i arg2 harg2 arg3 harg3 arg4 harg4 arg5 harg5 hc0 hc1 x0).2.2.1 S512x1.size (by sl_kernel_rfl) y

/-- What case A leaves in the running sum's buffer. -/
def sout0_A_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) : Vec F S512x1 .f32 :=
  VS0_1.read (Elt F) (VS0_1.writes (Elt F) VS0_1.junk (kernelRun0_A c i arg2 harg2 arg3 harg3 arg4 harg4 arg5 harg5 hc0 hc1 x0).2.2.1)

/-- What case B leaves in the output's staging buffer: its pieces read back (none: the window is idle there and nothing consults this). -/
def out0_B_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) : Vec F S512x1 .f32 :=
  VO0_1.read (Elt F) (VO0_1.writes (Elt F) VO0_1.junk (kernelRun0_B c i arg2 harg2 arg3 harg3 arg4 harg4 arg5 harg5 hc0 hc1 x0 xs0 xs1).1)

/-- Case B's pieces for the running maximum's buffer cover it. -/
theorem scover0_B_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) (y : S512x1.Idx) :
    ∃ pc ∈ (kernelRun0_B c i arg2 harg2 arg3 harg3 arg4 harg4 arg5 harg5 hc0 hc1 x0 xs0 xs1).2.1, y ∈ pc.1.set :=
  View.cover_of_tiledL (kernelRun0_B c i arg2 harg2 arg3 harg3 arg4 harg4 arg5 harg5 hc0 hc1 x0 xs0 xs1).2.1 S512x1.size (by sl_kernel_rfl) y

/-- What case B leaves in the running maximum's buffer. -/
def sout0_B_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) : Vec F S512x1 .f32 :=
  VS0_0.read (Elt F) (VS0_0.writes (Elt F) VS0_0.junk (kernelRun0_B c i arg2 harg2 arg3 harg3 arg4 harg4 arg5 harg5 hc0 hc1 x0 xs0 xs1).2.1)

/-- Case B's pieces for the running sum's buffer cover it. -/
theorem scover0_B_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) (y : S512x1.Idx) :
    ∃ pc ∈ (kernelRun0_B c i arg2 harg2 arg3 harg3 arg4 harg4 arg5 harg5 hc0 hc1 x0 xs0 xs1).2.2.1, y ∈ pc.1.set :=
  View.cover_of_tiledL (kernelRun0_B c i arg2 harg2 arg3 harg3 arg4 harg4 arg5 harg5 hc0 hc1 x0 xs0 xs1).2.2.1 S512x1.size (by sl_kernel_rfl) y

/-- What case B leaves in the running sum's buffer. -/
def sout0_B_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) : Vec F S512x1 .f32 :=
  VS0_1.read (Elt F) (VS0_1.writes (Elt F) VS0_1.junk (kernelRun0_B c i arg2 harg2 arg3 harg3 arg4 harg4 arg5 harg5 hc0 hc1 x0 xs0 xs1).2.2.1)

/-- At a row block's last point the output's pieces cover its block. -/
theorem cover0_C_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).1, y ∈ pc.1.set :=
  View.cover_of_tiledL (kernelRun0_C c i arg2 harg2 arg3 harg3 arg4 harg4 arg5 harg5 hc0 hc1 x0 xs0 xs1).1 S512x1.size (by sl_kernel_rfl) y

/-- What case C leaves in the output's staging buffer: its pieces read back. -/
def out0_C_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) : Vec F S512x1 .f32 :=
  VO0_1.read (Elt F) (VO0_1.writes (Elt F) VO0_1.junk (kernelRun0_C c i arg2 harg2 arg3 harg3 arg4 harg4 arg5 harg5 hc0 hc1 x0 xs0 xs1).1)

/-- Case C's pieces for the running maximum's buffer cover it. -/
theorem scover0_C_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).2.1, y ∈ pc.1.set :=
  View.cover_of_tiledL (kernelRun0_C c i arg2 harg2 arg3 harg3 arg4 harg4 arg5 harg5 hc0 hc1 x0 xs0 xs1).2.1 S512x1.size (by sl_kernel_rfl) y

/-- What case C leaves in the running maximum's buffer. -/
def sout0_C_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) : Vec F S512x1 .f32 :=
  VS0_0.read (Elt F) (VS0_0.writes (Elt F) VS0_0.junk (kernelRun0_C c i arg2 harg2 arg3 harg3 arg4 harg4 arg5 harg5 hc0 hc1 x0 xs0 xs1).2.1)

/-- Case C's pieces for the running sum's buffer cover it. -/
theorem scover0_C_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).2.2.1, y ∈ pc.1.set :=
  View.cover_of_tiledL (kernelRun0_C c i arg2 harg2 arg3 harg3 arg4 harg4 arg5 harg5 hc0 hc1 x0 xs0 xs1).2.2.1 S512x1.size (by sl_kernel_rfl) y

/-- What case C leaves in the running sum's buffer. -/
def sout0_C_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) : Vec F S512x1 .f32 :=
  VS0_1.read (Elt F) (VS0_1.writes (Elt F) VS0_1.junk (kernelRun0_C c i arg2 harg2 arg3 harg3 arg4 harg4 arg5 harg5 hc0 hc1 x0 xs0 xs1).2.2.1)

section Entry
variable (V : (c : Dev nD) → (b : Ref sig .tc) → Buf (Elt F) ((c : Thread nD τ).loc b))

/-! ## What the buffers hold after each point -/

/-- After the body at position `n`: the output's staging buffer, the running maximum's buffer, the running sum's buffer. -/
def outsAt0 (c : Dev nD) : (n : ℕ) → n < cfg0.N → Vec F S512x1 .f32 × Vec F S512x1 .f32 × Vec F S512x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 5 = 0 then
      if h1 : (n + 1) % 5 = 4 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 5 = 4 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.1 (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.1 (outsAt0 c n (Nat.lt_of_succ_lt hn)).2.2)

theorem outsAt0_A (c : Dev nD) (t : Fin cfg0.N) (h0 : t.val % 5 = 0) (h1 : ¬t.val % 5 = 4) :
    outsAt0 V c t.val t.isLt = (out0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = (out0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = (out0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start what the launch hands the region; afterwards the two scratch buffers at what the
    point before left in them, the other scoped buffers and the generator register riding along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ restS (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 8000000 in
/-- The body at any point. The input's buffer holds its block; the point's position in its row block says which case it
    is; the invariant hands the body the two scratch buffers at what the point before left (at anything before the very
    first point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 80 := lt_of_lt_of_eq t.isLt (show cfg0.N = 80 from N_0)
  by_cases h0 : t.val % 5 = 0
  · by_cases h1 : t.val % 5 = 4
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩⟩
        iapply ((kernelRun0_A c (grid0.coords t) _ _ _ _ _ _ _ _ ((hcond0_0 t).mpr h0) (fun h => h1 ((hcond0_1 t).mp h)) (iblk0 V c 0 t)).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _)
            iexact HR
          iexact Hg
        isplitl [Ho]; · iexact Ho
        isplitl [H0]; · iexact H0
        iexists _; iexact H1
      · rw [PhiS_castSucc V c t, PhiS_pos V c _ _ hz]
        iintro ⟨⟨⟨HS0, HS1, HR⟩, Hg⟩, Ho, ⟨%d0, H0⟩, ⟨%d1, H1⟩⟩
        iapply ((kernelRun0_A c (grid0.coords t) _ _ _ _ _ _ _ _ ((hcond0_0 t).mpr h0) (fun h => h1 ((hcond0_1 t).mp h)) (iblk0 V c 0 t)).2.2.2 _ Set.univ _)
        isplitl [H0]; · iexact H0
        isplitl [H1]; · iexact H1
        isplitl [HS0]; · iexists _; iexact HS0
        isplitl [HS1]; · iexists _; iexact HS1
        iintro ⟨H0, H1, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _)
            iexact HR
          iexact Hg
        isplitl [Ho]; · iexact Ho
        isplitl [H0]; · iexact H0
        iexists _; iexact H1
  · by_cases h1 : t.val % 5 = 4
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩⟩
        iapply ((kernelRun0_C c (grid0.coords t) _ _ _ _ _ _ _ _ (fun h => h0 ((hcond0_0 t).mp h)) ((hcond0_1 t).mpr h1) (iblk0 V c 0 t) _ _).2.2.2 Set.univ _)
        isplitl [H0]; · iexact H0
        isplitl [H1]; · iexists _; iexact H1
        isplitl [HS0]; · iexact HS0
        isplitl [HS1]; · iexact HS1
        iintro ⟨H0, ⟨%e1, H1⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩⟩
        iapply ((kernelRun0_B c (grid0.coords t) _ _ _ _ _ _ _ _ (fun h => h0 ((hcond0_0 t).mp h)) (fun h => h1 ((hcond0_1 t).mp h)) (iblk0 V c 0 t) _ _).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _)
            iexact HR
          iexact Hg
        isplitl [Ho]; · iexact Ho
        isplitl [H0]; · iexact H0
        iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: the scratch buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 80 := N_0; omega)

end Entry

end Cert.Kernel.Fr

end
-- ==== Proof.KbR1Frame.lean ====
/-
  The second region (the prototype term over a grid of 8 row blocks of 1024 feature rows): the body loads the row
  block of the features, the whole prototype table and the row of squared prototype norms, and stores the block's
  1024 results in one store. Here: what each window's staging buffer holds when the body is called (its block of the
  array the region finds; the table and the norms are fetched once and stay), the body's run, the region's proof data
  (after the body the inputs' buffers unchanged, the output's at the stored value of the three input blocks), and the
  body obligation at every point.
-/
import proofs.«406017_j9732395892833_3_alg».proof.Proof.Gen.Kernel.Launch
import proofs.«406017_j9732395892833_3_alg».proof.Proof.Gen.Kernel.Skeleton
import proofs.«406017_j9732395892833_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output's buffer -/

abbrev r1_0 : Rect S1024x256 := Rect.unit (s := S1024x256) ![0, 0] S1024x256.size inb_S1024x256_S1024x256_0_0
abbrev r1_2 : Rect S1x1024 := Rect.unit (s := S1x1024) ![0, 0] S1x1024.size inb_S1x1024_S1x1024_0_0
abbrev r1_3 : Rect S1024x1 := Rect.unit (s := S1024x1) ![0, 0] S1024x1.size inb_S1024x1_S1024x1_0_0

/-- The output's staging buffer after the body: its one store, of the body's value of the three loaded blocks. -/
def out1_3 (x0 : Vec F S1024x256 .f32) (x1 : Vec F S1024x256 .f32) (x2 : Vec F S1x1024 .f32) : Vec F S1024x1 .f32 :=
  View.canon [⟨r1_3, k1_pay1 (View.ld x0 r1_0) (View.ld x1 r1_0) (View.ld x2 r1_2)⟩]

/-- The store is of the whole buffer. -/
theorem cover1_3 (p0 : Vec F S1024x1 .f32) (y : S1024x1.Idx) :
    ∃ pc ∈ ([⟨r1_3, p0⟩] : List (View.Piece (Elt F) S1024x1 .f32)), y ∈ pc.1.set :=
  View.cover_of_tiled [⟨r1_3, p0⟩] S1024x1.size (by rfl) y

/-! ## The body's run -/

set_option maxHeartbeats 4000000 in
theorem sound_kernel1 (c : Dev nD) (E : Set ℕ) (i : grid1.Coords) (arg1 : Memref sig .tc .vmem S1024x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1 .f32) (harg4 : arg4.IsWhole)
    (x0 : Vec F S1024x256 .f32) (x1 : Vec F S1024x256 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__proto_kernel i arg1 harg1 arg2 harg2 arg3 harg3 arg4 harg4) K := by
  simp only [cc1__proto_kernel_eq_skeleton]; unfold cc1__proto_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Entry

end Cert.Kernel.Fr

end
-- ==== Proof.KbRun.lean ====
/-
  The kernel's whole program run from its launch: the first region, three stretches of host operations (the targets
  as a column; the gather of each row's target logit; the per-row difference, its mean, and the row of squared
  prototype norms), the second region, and the last stretch (the second mean and the weighted total). The contents of
  every buffer of the core are followed from one item to the next: a stretch of host operations applies its operations;
  a region leaves its output window's array at what its write-backs assemble and every other buffer as it found it. Each
  region enters the launch theorem as a record of its layout, its body obligation and the four entailments around the
  state "every buffer at the current contents, the generator register at some state, nothing owed". The conclusion:
  every weakly fair execution terminates, and in the final memory every buffer holds the last contents of that chain;
  the argument arrays, which nothing writes, hold their launch contents.
-/
import proofs.«406017_j9732395892833_3_alg».proof.Proof.KbR0Frame
import proofs.«406017_j9732395892833_3_alg».proof.Proof.KbR1Frame
import proofs.«406017_j9732395892833_3_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first region's entry). -/
abbrev W0 : Dev nD → Valuation τ sig (Elt F) := fun c b => m (c, b)
abbrev VE0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (VE0 m) c).arrAt w cfg0.N
theorem W1_arr (c : Dev nD) (w : Fin cfg0.W) :
    W1 m c (Proc.devRef .tc (Pipeline.arrRef spec0 w)) = (dat0 (VE0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VE1 : (c : Dev nD) → (b : Ref sig .tc) → Buf (Elt F) ((c : Thread nD τ).loc b) := fun c b => W1 m c b
theorem hF0 (c : Dev nD) (w : Fin cfg0.W) : (dat0 (VE0 m) c).arrAt w cfg0.N = VE1 m c (Pipeline.arrRef spec0 w) :=
  (W1_arr m c w).symm
theorem hrest0 (c : Dev nD) : ∀ b, b ∉ Finset.univ.image (Pipeline.arrRef spec0) → VE1 m c b = VE0 m c b :=
  fun b hb => W1_of_ne m c b fun w e => hb (Finset.mem_image.mpr ⟨w, Finset.mem_univ _, e⟩)

/-- After the three stretches of host operations (the second region's entry). -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev VE4 : (c : Dev nD) → (b : Ref sig .tc) → Buf (Elt F) ((c : Thread nD τ).loc b) := fun c b => W4 m c b
/-- At the second region's exit. -/
def W5 (c : Dev nD) : Valuation τ sig (Elt F) :=
  Pipeline.withArrays spec1 c (W4 m c) fun w => (dat1 (VE4 m) c).arrAt w cfg1.N
theorem W5_arr (c : Dev nD) (w : Fin cfg1.W) :
    W5 m c (Proc.devRef .tc (Pipeline.arrRef spec1 w)) = (dat1 (VE4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev VE5 : (c : Dev nD) → (b : Ref sig .tc) → Buf (Elt F) ((c : Thread nD τ).loc b) := fun c b => W5 m c b
theorem hF1 (c : Dev nD) (w : Fin cfg1.W) : (dat1 (VE4 m) c).arrAt w cfg1.N = VE5 m c (Pipeline.arrRef spec1 w) :=
  (W5_arr m c w).symm
theorem hrest1 (c : Dev nD) : ∀ b, b ∉ Finset.univ.image (Pipeline.arrRef spec1) → VE5 m c b = VE4 m c b :=
  fun b hb => W5_of_ne m c b fun w e => hb (Finset.mem_image.mpr ⟨w, Finset.mem_univ _, e⟩)
/-- After the last stretch: the final contents. -/
abbrev W6 : Dev nD → Valuation τ sig (Elt F) := fun c => StableHlo.after hostOps2 (W5 m c)

/-! ## A stretch of host operations changes only what it writes -/

theorem W2_of (c : Dev nD) (r : Ref sig .tc) (h : r ∉ hostOps1_W) : W2 m c (Proc.devRef .tc r) = W1 m c (Proc.devRef .tc r) :=
  StableHlo.after_of_writes_sub hostOps1 _ hostOps1_writes h
theorem W3_of (c : Dev nD) (r : Ref sig .tc) (h : r ∉ hostOps1_1_W) : W3 m c (Proc.devRef .tc r) = W2 m c (Proc.devRef .tc r) :=
  StableHlo.after_of_writes_sub hostOps1_1 _ hostOps1_1_writes h
theorem W4_of (c : Dev nD) (r : Ref sig .tc) (h : r ∉ hostOps1_2_W) : W4 m c (Proc.devRef .tc r) = W3 m c (Proc.devRef .tc r) :=
  StableHlo.after_of_writes_sub hostOps1_2 _ hostOps1_2_writes h
theorem W6_of (c : Dev nD) (r : Ref sig .tc) (h : r ∉ hostOps2_W) : W6 m c (Proc.devRef .tc r) = W5 m c (Proc.devRef .tc r) :=
  StableHlo.after_of_writes_sub hostOps2 _ hostOps2_writes h

/-- A buffer no stretch before the second region writes, and that is no array of the first region, enters the second
    region as launched. -/
theorem W4_launch (c : Dev nD) (r : Ref sig .tc) (h1 : r ∉ hostOps1_W) (h2 : r ∉ hostOps1_1_W) (h3 : r ∉ hostOps1_2_W)
    (h0 : ∀ w, Pipeline.arrRef spec0 w ≠ r) : W4 m c (Proc.devRef .tc r) = m ((c : Thread nD τ).loc r) :=
  (W4_of m c r h3).trans <| (W3_of m c r h2).trans <| (W2_of m c r h1).trans <| (W1_of_ne m c r h0).trans rfl

/-! ## The arguments end as launched -/

theorem W6_main_arg0 (c : Dev nD) : W6 m c (Proc.devRef .tc main_arg0) = m ((c : Thread nD τ).loc main_arg0) :=
  (W6_of m c main_arg0 (by decide)).trans <| (W5_of_ne m c main_arg0 (by decide)).trans <| (W4_of m c main_arg0 (by decide)).trans <|
    (W3_of m c main_arg0 (by decide)).trans <| (W2_of m c main_arg0 (by decide)).trans <|
    (W1_arr m c 0).trans (((dat0 (VE0 m) c).arrAt_in 0 rfl _).trans (A_eq0 (VE0 m) c 0))
theorem W6_main_arg1 (c : Dev nD) : W6 m c (Proc.devRef .tc main_arg1) = m ((c : Thread nD τ).loc main_arg1) :=
  (W6_of m c main_arg1 (by decide)).trans <| (W5_arr m c 1).trans <| ((dat1 (VE4 m) c).arrAt_in 1 rfl _).trans <| (A_eq1 (VE4 m) c 1).trans <|
    W4_launch m c main_arg1 (by decide) (by decide) (by decide) (by decide)
theorem W6_main_arg2 (c : Dev nD) : W6 m c (Proc.devRef .tc main_arg2) = m ((c : Thread nD τ).loc main_arg2) :=
  (W6_of m c main_arg2 (by decide)).trans <| (W5_arr m c 0).trans <| ((dat1 (VE4 m) c).arrAt_in 0 rfl _).trans <| (A_eq1 (VE4 m) c 0).trans <|
    W4_launch m c main_arg2 (by decide) (by decide) (by decide) (by decide)
theorem W6_main_arg3 (c : Dev nD) : W6 m c (Proc.devRef .tc main_arg3) = m ((c : Thread nD τ).loc main_arg3) :=
  (W6_of m c main_arg3 (by decide)).trans <| (W5_of_ne m c main_arg3 (by decide)).trans <|
    W4_launch m c main_arg3 (by decide) (by decide) (by decide) (by decide)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE4 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hback : (pdats m 0 c).Φ (Fin.last _) ⊢ Pipeline.ΦA spec0 c := hout0 (VE0 m) c
    unfold Pipeline.ΦA at hback
    iintro H
    ihave H' := hback $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VE1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (VE4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE4 m c) (VE5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)) ]

set_option backward.isDefEq.respectTransparency.types false in
/-- THE RUN. From any memory with zero counters every weakly fair execution of @main terminates, nothing faulting, and in
    the final memory every buffer of every core holds the last contents of the chain above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c.tc : Thread nD τ) (0 : CellTallies nD τ sig Unit) W)
      iintro ⟨Ha, Hb, Hc⟩
      isplitl [Ha Hb]
      · isplitl [Ha]; · iexact Ha
        iexact Hb
      iexact Hc⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.Kernel.Fr

end
-- ==== Proof.KiR0Runs.lean ====
/-
  The first region (the streamed log-sum-exp over a 16 × 5 grid of 512 × 6400 blocks of the logits): what its three
  control cases share. Grid point t is row block t / 5 and column block t % 5. At column block 0 the two running
  columns (the running maximum and the running sum of exponentials, each 512 × 1, kept in scratch between points) are
  reset; at every point they are updated from the point's block; at column block 4 the row block's 512 results are
  stored. Here: a window's block read off the array the region finds, the two conditions in closed form over the grid,
  where the output window is idle, and the names of the staging and scratch memory the case runs are stated over.
-/
import proofs.«406017_j9732395892833_3_alg».proof.Proof.Gen.KernelIdeal.Launch
import proofs.«406017_j9732395892833_3_alg».proof.Proof.Gen.KernelIdeal.Skeleton
import proofs.«406017_j9732395892833_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits window's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The two conditions of the body, over the grid -/

/-- "This is the row block's first column block": the reset of the running columns is under it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the row block's last column block": the store of the result is under it. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memory the runs are stated over -/

/-- One staging buffer of the output window, through which its contents are stated. -/
abbrev VO0_1 : View sig .tc .vmem S512x1 .f32 := (Memref.whole cc0_stg1_0 : Memref sig .tc .vmem S512x1 .f32).view
abbrev ms0_0 (t : Fin cfg0.N) : Memref sig .tc .vmem S512x6400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
/-- The running maximum's and the running sum's scratch buffers, whole. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

/-! ## The region's invariant, spelt out -/

/-- The scoped buffers that are neither this region's staging buffers nor its two scratch buffers (the second
    region's staging buffers), each whole at some contents: they ride through this region untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Between points the region holds the two scratch buffers, the other scoped buffers and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS (F := F) c) ∗ (∃ r, prngReg c r)) := by
  unfold Pipeline.ΦA restS; rw [scopedRest0_eq]; simp only [scM0_0, scM0_1, owns_whole]; try rfl

end Cert.KernelIdeal.Fr

end
-- ==== Proof.KiR0RunA.lean ====
/-
  The first region's body at a point where a row block starts (column block 0, not the last): the two running columns are reset, then updated from the point's five 512 × 1280 chunks; nothing is stored into the output window. The pieces each scratch buffer ends with are found by running the body.
-/
import proofs.«406017_j9732395892833_3_alg».proof.Proof.KiR0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs at a row block's first point: the input block at `x0`, the idle output handed back as found,
    the two scratch buffers at anything; it ends with each scratch buffer's pieces written. -/
noncomputable def kernelRun0_A (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) :
    Σ' (L1 : List (View.Piece (Elt F) S512x1 .f32)) (LS0 : List (View.Piece (Elt F) S512x1 .f32)), { LS1 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__ce_kernel i arg2 harg2 arg3 harg3 arg4 harg4 arg5 harg5) K } := by
  refine ⟨[], ?_, ?_, fun xi1 E K => ?run⟩
  case run =>
    simp only [cc0__ce_kernel_eq_skeleton]; unfold cc0__ce_kernel_skel
    simp only [k0_part1_eq_skeleton, k0_part2_eq_skeleton]
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Fr

end
-- ==== Proof.KiR0RunB.lean ====
/-
  The first region's body at a point in the middle of a row block (column blocks 1 to 3): the two running columns, found as the point before left them, are updated from the point's five chunks; nothing is stored into the output window.
-/
import proofs.«406017_j9732395892833_3_alg».proof.Proof.KiR0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs at a middle point: the input block at `x0`, the idle output handed back as found, the two
    scratch buffers at what the point before left (`xs0`, `xs1`); it ends with each scratch buffer's pieces written. -/
noncomputable def kernelRun0_B (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) :
    Σ' (L1 : List (View.Piece (Elt F) S512x1 .f32)) (LS0 : List (View.Piece (Elt F) S512x1 .f32)), { LS1 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__ce_kernel i arg2 harg2 arg3 harg3 arg4 harg4 arg5 harg5) K } := by
  refine ⟨[], ?_, ?_, fun xi1 E K => ?run⟩
  case run =>
    simp only [cc0__ce_kernel_eq_skeleton]; unfold cc0__ce_kernel_skel
    simp only [k0_part1_eq_skeleton, k0_part2_eq_skeleton]
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Fr

end
-- ==== Proof.KiR0RunC.lean ====
/-
  The first region's body at a row block's last point (column block 4): the two running columns are updated from the point's five chunks, and the row block's results, the running maximum plus the logarithm of the running sum, are stored into the output window.
-/
import proofs.«406017_j9732395892833_3_alg».proof.Proof.KiR0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs at a row block's last point: the input block at `x0`, the output at anything, the two scratch
    buffers at what the point before left; it ends with the output's and each scratch buffer's pieces written. -/
noncomputable def kernelRun0_C (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) :
    Σ' (L1 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__ce_kernel i arg2 harg2 arg3 harg3 arg4 harg4 arg5 harg5) K } := by
  refine ⟨?_, ?_, ?_, fun E K => ?run⟩
  case run =>
    simp only [cc0__ce_kernel_eq_skeleton]; unfold cc0__ce_kernel_skel
    simp only [k0_part1_eq_skeleton, k0_part2_eq_skeleton]
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [HS0]; · iexists _; iexact HS0
    iexists _; iexact HS1

end Cert.KernelIdeal.Fr

end
-- ==== Proof.KiR0Frame.lean ====
/-
  The first region, assembled. What each of the three control cases leaves in the output's staging buffer and in the two
  scratch buffers (the pieces its run found, read back); what those buffers hold after every grid point, by recursion on
  the point: at a row block's first point the columns are reset and updated, at a later point they are updated from what
  the point before left; the region's invariant, which carries the two scratch buffers at exactly those contents from
  one point to the next; the proof data; and the body obligation at every point, by cases on the point's position in
  its row block.
-/
import proofs.«406017_j9732395892833_3_alg».proof.Proof.KiR0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output's staging buffer: its pieces read back (none: the window is idle there and nothing consults this). -/
def out0_A_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) : Vec F S512x1 .f32 :=
  VO0_1.read (Elt F) (VO0_1.writes (Elt F) VO0_1.junk (kernelRun0_A c i arg2 harg2 arg3 harg3 arg4 harg4 arg5 harg5 hc0 hc1 x0).1)

/-- Case A's pieces for the running maximum's buffer cover it. -/
theorem scover0_A_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) (y : S512x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S512x1.size (by sl_kernel_rfl) y

/-- What case A leaves in the running maximum's buffer. -/
def sout0_A_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) : Vec F S512x1 .f32 :=
  VS0_0.read (Elt F) (VS0_0.writes (Elt F) VS0_0.junk (kernelRun0_A c i arg2 harg2 arg3 harg3 arg4 harg4 arg5 harg5 hc0 hc1 x0).2.1)

/-- Case A's pieces for the running sum's buffer cover it. -/
theorem scover0_A_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) (y : S512x1.Idx) :
    ∃ pc ∈ (kernelRun0_A c i arg2 harg2 arg3 harg3 arg4 harg4 arg5 harg5 hc0 hc1 x0).2.2.1, y ∈ pc.1.set :=
  View.cover_of_tiledL (kernelRun0_A c i arg2 harg2 arg3 harg3 arg4 harg4 arg5 harg5 hc0 hc1 x0).2.2.1 S512x1.size (by sl_kernel_rfl) y

/-- What case A leaves in the running sum's buffer. -/
def sout0_A_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x6400 .f32) : Vec F S512x1 .f32 :=
  VS0_1.read (Elt F) (VS0_1.writes (Elt F) VS0_1.junk (kernelRun0_A c i arg2 harg2 arg3 harg3 arg4 harg4 arg5 harg5 hc0 hc1 x0).2.2.1)

/-- What case B leaves in the output's staging buffer: its pieces read back (none: the window is idle there and nothing consults this). -/
def out0_B_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) : Vec F S512x1 .f32 :=
  VO0_1.read (Elt F) (VO0_1.writes (Elt F) VO0_1.junk (kernelRun0_B c i arg2 harg2 arg3 harg3 arg4 harg4 arg5 harg5 hc0 hc1 x0 xs0 xs1).1)

/-- Case B's pieces for the running maximum's buffer cover it. -/
theorem scover0_B_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) (y : S512x1.Idx) :
    ∃ pc ∈ (kernelRun0_B c i arg2 harg2 arg3 harg3 arg4 harg4 arg5 harg5 hc0 hc1 x0 xs0 xs1).2.1, y ∈ pc.1.set :=
  View.cover_of_tiledL (kernelRun0_B c i arg2 harg2 arg3 harg3 arg4 harg4 arg5 harg5 hc0 hc1 x0 xs0 xs1).2.1 S512x1.size (by sl_kernel_rfl) y

/-- What case B leaves in the running maximum's buffer. -/
def sout0_B_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) : Vec F S512x1 .f32 :=
  VS0_0.read (Elt F) (VS0_0.writes (Elt F) VS0_0.junk (kernelRun0_B c i arg2 harg2 arg3 harg3 arg4 harg4 arg5 harg5 hc0 hc1 x0 xs0 xs1).2.1)

/-- Case B's pieces for the running sum's buffer cover it. -/
theorem scover0_B_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) (y : S512x1.Idx) :
    ∃ pc ∈ (kernelRun0_B c i arg2 harg2 arg3 harg3 arg4 harg4 arg5 harg5 hc0 hc1 x0 xs0 xs1).2.2.1, y ∈ pc.1.set :=
  View.cover_of_tiledL (kernelRun0_B c i arg2 harg2 arg3 harg3 arg4 harg4 arg5 harg5 hc0 hc1 x0 xs0 xs1).2.2.1 S512x1.size (by sl_kernel_rfl) y

/-- What case B leaves in the running sum's buffer. -/
def sout0_B_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x6400 .f32) (xs0 : Vec F S512x1 .f32) (xs1 : Vec F S512x1 .f32) : Vec F S512x1 .f32 :=
  VS0_1.read (Elt F) (VS0_1.writes (Elt F) VS0_1.junk (kernelRun0_B c i arg2 harg2 arg3 harg3 arg4 harg4 arg5 harg5 hc0 hc1 x0 xs0 xs1).2.2.1)

/-- At a row block's last point the output's pieces cover its block. -/
theorem cover0_C_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).1, y ∈ pc.1.set :=
  View.cover_of_tiledL (kernelRun0_C c i arg2 harg2 arg3 harg3 arg4 harg4 arg5 harg5 hc0 hc1 x0 xs0 xs1).1 S512x1.size (by sl_kernel_rfl) y

/-- What case C leaves in the output's staging buffer: its pieces read back. -/
def out0_C_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) : Vec F S512x1 .f32 :=
  VO0_1.read (Elt F) (VO0_1.writes (Elt F) VO0_1.junk (kernelRun0_C c i arg2 harg2 arg3 harg3 arg4 harg4 arg5 harg5 hc0 hc1 x0 xs0 xs1).1)

/-- Case C's pieces for the running maximum's buffer cover it. -/
theorem scover0_C_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).2.1, y ∈ pc.1.set :=
  View.cover_of_tiledL (kernelRun0_C c i arg2 harg2 arg3 harg3 arg4 harg4 arg5 harg5 hc0 hc1 x0 xs0 xs1).2.1 S512x1.size (by sl_kernel_rfl) y

/-- What case C leaves in the running maximum's buffer. -/
def sout0_C_0 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) : Vec F S512x1 .f32 :=
  VS0_0.read (Elt F) (VS0_0.writes (Elt F) VS0_0.junk (kernelRun0_C c i arg2 harg2 arg3 harg3 arg4 harg4 arg5 harg5 hc0 hc1 x0 xs0 xs1).2.1)

/-- Case C's pieces for the running sum's buffer cover it. -/
theorem scover0_C_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).2.2.1, y ∈ pc.1.set :=
  View.cover_of_tiledL (kernelRun0_C c i arg2 harg2 arg3 harg3 arg4 harg4 arg5 harg5 hc0 hc1 x0 xs0 xs1).2.2.1 S512x1.size (by sl_kernel_rfl) y

/-- What case C leaves in the running sum's buffer. -/
def sout0_C_1 (c : Dev nD) (i : grid0.Coords) (arg2 : Memref sig .tc .vmem S512x6400 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x6400 .f32) (xs0 : Vec F S512x1 .f32) (xs1 : Vec F S512x1 .f32) : Vec F S512x1 .f32 :=
  VS0_1.read (Elt F) (VS0_1.writes (Elt F) VS0_1.junk (kernelRun0_C c i arg2 harg2 arg3 harg3 arg4 harg4 arg5 harg5 hc0 hc1 x0 xs0 xs1).2.2.1)

section Entry
variable (V : (c : Dev nD) → (b : Ref sig .tc) → Buf (Elt F) ((c : Thread nD τ).loc b))

/-! ## What the buffers hold after each point -/

/-- After the body at position `n`: the output's staging buffer, the running maximum's buffer, the running sum's buffer. -/
def outsAt0 (c : Dev nD) : (n : ℕ) → n < cfg0.N → Vec F S512x1 .f32 × Vec F S512x1 .f32 × Vec F S512x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 5 = 0 then
      if h1 : (n + 1) % 5 = 4 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 5 = 4 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.1 (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.1 (outsAt0 c n (Nat.lt_of_succ_lt hn)).2.2)

theorem outsAt0_A (c : Dev nD) (t : Fin cfg0.N) (h0 : t.val % 5 = 0) (h1 : ¬t.val % 5 = 4) :
    outsAt0 V c t.val t.isLt = (out0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = (out0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = (out0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start what the launch hands the region; afterwards the two scratch buffers at what the
    point before left in them, the other scoped buffers and the generator register riding along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ restS (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 8000000 in
/-- The body at any point. The input's buffer holds its block; the point's position in its row block says which case it
    is; the invariant hands the body the two scratch buffers at what the point before left (at anything before the very
    first point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 80 := lt_of_lt_of_eq t.isLt (show cfg0.N = 80 from N_0)
  by_cases h0 : t.val % 5 = 0
  · by_cases h1 : t.val % 5 = 4
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩⟩
        iapply ((kernelRun0_A c (grid0.coords t) _ _ _ _ _ _ _ _ ((hcond0_0 t).mpr h0) (fun h => h1 ((hcond0_1 t).mp h)) (iblk0 V c 0 t)).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _)
            iexact HR
          iexact Hg
        isplitl [Ho]; · iexact Ho
        isplitl [H0]; · iexact H0
        iexists _; iexact H1
      · rw [PhiS_castSucc V c t, PhiS_pos V c _ _ hz]
        iintro ⟨⟨⟨HS0, HS1, HR⟩, Hg⟩, Ho, ⟨%d0, H0⟩, ⟨%d1, H1⟩⟩
        iapply ((kernelRun0_A c (grid0.coords t) _ _ _ _ _ _ _ _ ((hcond0_0 t).mpr h0) (fun h => h1 ((hcond0_1 t).mp h)) (iblk0 V c 0 t)).2.2.2 _ Set.univ _)
        isplitl [H0]; · iexact H0
        isplitl [H1]; · iexact H1
        isplitl [HS0]; · iexists _; iexact HS0
        isplitl [HS1]; · iexists _; iexact HS1
        iintro ⟨H0, H1, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _)
            iexact HR
          iexact Hg
        isplitl [Ho]; · iexact Ho
        isplitl [H0]; · iexact H0
        iexists _; iexact H1
  · by_cases h1 : t.val % 5 = 4
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩⟩
        iapply ((kernelRun0_C c (grid0.coords t) _ _ _ _ _ _ _ _ (fun h => h0 ((hcond0_0 t).mp h)) ((hcond0_1 t).mpr h1) (iblk0 V c 0 t) _ _).2.2.2 Set.univ _)
        isplitl [H0]; · iexact H0
        isplitl [H1]; · iexists _; iexact H1
        isplitl [HS0]; · iexact HS0
        isplitl [HS1]; · iexact HS1
        iintro ⟨H0, ⟨%e1, H1⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩⟩
        iapply ((kernelRun0_B c (grid0.coords t) _ _ _ _ _ _ _ _ (fun h => h0 ((hcond0_0 t).mp h)) (fun h => h1 ((hcond0_1 t).mp h)) (iblk0 V c 0 t) _ _).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _)
            iexact HR
          iexact Hg
        isplitl [Ho]; · iexact Ho
        isplitl [H0]; · iexact H0
        iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: the scratch buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 80 := N_0; omega)

end Entry

end Cert.KernelIdeal.Fr

end
-- ==== Proof.KiR1Frame.lean ====
/-
  The second region (the prototype term over a grid of 8 row blocks of 1024 feature rows): the body loads the row
  block of the features, the whole prototype table and the row of squared prototype norms, and stores the block's
  1024 results in one store. Here: what each window's staging buffer holds when the body is called (its block of the
  array the region finds; the table and the norms are fetched once and stay), the body's run, the region's proof data
  (after the body the inputs' buffers unchanged, the output's at the stored value of the three input blocks), and the
  body obligation at every point.
-/
import proofs.«406017_j9732395892833_3_alg».proof.Proof.Gen.KernelIdeal.Launch
import proofs.«406017_j9732395892833_3_alg».proof.Proof.Gen.KernelIdeal.Skeleton
import proofs.«406017_j9732395892833_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output's buffer -/

abbrev r1_0 : Rect S1024x256 := Rect.unit (s := S1024x256) ![0, 0] S1024x256.size inb_S1024x256_S1024x256_0_0
abbrev r1_2 : Rect S1x1024 := Rect.unit (s := S1x1024) ![0, 0] S1x1024.size inb_S1x1024_S1x1024_0_0
abbrev r1_3 : Rect S1024x1 := Rect.unit (s := S1024x1) ![0, 0] S1024x1.size inb_S1024x1_S1024x1_0_0

/-- The output's staging buffer after the body: its one store, of the body's value of the three loaded blocks. -/
def out1_3 (x0 : Vec F S1024x256 .f32) (x1 : Vec F S1024x256 .f32) (x2 : Vec F S1x1024 .f32) : Vec F S1024x1 .f32 :=
  View.canon [⟨r1_3, k1_pay1 (View.ld x0 r1_0) (View.ld x1 r1_0) (View.ld x2 r1_2)⟩]

/-- The store is of the whole buffer. -/
theorem cover1_3 (p0 : Vec F S1024x1 .f32) (y : S1024x1.Idx) :
    ∃ pc ∈ ([⟨r1_3, p0⟩] : List (View.Piece (Elt F) S1024x1 .f32)), y ∈ pc.1.set :=
  View.cover_of_tiled [⟨r1_3, p0⟩] S1024x1.size (by rfl) y

/-! ## The body's run -/

set_option maxHeartbeats 4000000 in
theorem sound_kernel1 (c : Dev nD) (E : Set ℕ) (i : grid1.Coords) (arg1 : Memref sig .tc .vmem S1024x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1 .f32) (harg4 : arg4.IsWhole)
    (x0 : Vec F S1024x256 .f32) (x1 : Vec F S1024x256 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__proto_kernel i arg1 harg1 arg2 harg2 arg3 harg3 arg4 harg4) K := by
  simp only [cc1__proto_kernel_eq_skeleton]; unfold cc1__proto_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Entry

end Cert.KernelIdeal.Fr

end
-- ==== Proof.KiRun.lean ====
/-
  The kernel's whole program run from its launch: the first region, three stretches of host operations (the targets
  as a column; the gather of each row's target logit; the per-row difference, its mean, and the row of squared
  prototype norms), the second region, and the last stretch (the second mean and the weighted total). The contents of
  every buffer of the core are followed from one item to the next: a stretch of host operations applies its operations;
  a region leaves its output window's array at what its write-backs assemble and every other buffer as it found it. Each
  region enters the launch theorem as a record of its layout, its body obligation and the four entailments around the
  state "every buffer at the current contents, the generator register at some state, nothing owed". The conclusion:
  every weakly fair execution terminates, and in the final memory every buffer holds the last contents of that chain;
  the argument arrays, which nothing writes, hold their launch contents.
-/
import proofs.«406017_j9732395892833_3_alg».proof.Proof.KiR0Frame
import proofs.«406017_j9732395892833_3_alg».proof.Proof.KiR1Frame
import proofs.«406017_j9732395892833_3_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first region's entry). -/
abbrev W0 : Dev nD → Valuation τ sig (Elt F) := fun c b => m (c, b)
abbrev VE0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (VE0 m) c).arrAt w cfg0.N
theorem W1_arr (c : Dev nD) (w : Fin cfg0.W) :
    W1 m c (Proc.devRef .tc (Pipeline.arrRef spec0 w)) = (dat0 (VE0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VE1 : (c : Dev nD) → (b : Ref sig .tc) → Buf (Elt F) ((c : Thread nD τ).loc b) := fun c b => W1 m c b
theorem hF0 (c : Dev nD) (w : Fin cfg0.W) : (dat0 (VE0 m) c).arrAt w cfg0.N = VE1 m c (Pipeline.arrRef spec0 w) :=
  (W1_arr m c w).symm
theorem hrest0 (c : Dev nD) : ∀ b, b ∉ Finset.univ.image (Pipeline.arrRef spec0) → VE1 m c b = VE0 m c b :=
  fun b hb => W1_of_ne m c b fun w e => hb (Finset.mem_image.mpr ⟨w, Finset.mem_univ _, e⟩)

/-- After the three stretches of host operations (the second region's entry). -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev VE4 : (c : Dev nD) → (b : Ref sig .tc) → Buf (Elt F) ((c : Thread nD τ).loc b) := fun c b => W4 m c b
/-- At the second region's exit. -/
def W5 (c : Dev nD) : Valuation τ sig (Elt F) :=
  Pipeline.withArrays spec1 c (W4 m c) fun w => (dat1 (VE4 m) c).arrAt w cfg1.N
theorem W5_arr (c : Dev nD) (w : Fin cfg1.W) :
    W5 m c (Proc.devRef .tc (Pipeline.arrRef spec1 w)) = (dat1 (VE4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev VE5 : (c : Dev nD) → (b : Ref sig .tc) → Buf (Elt F) ((c : Thread nD τ).loc b) := fun c b => W5 m c b
theorem hF1 (c : Dev nD) (w : Fin cfg1.W) : (dat1 (VE4 m) c).arrAt w cfg1.N = VE5 m c (Pipeline.arrRef spec1 w) :=
  (W5_arr m c w).symm
theorem hrest1 (c : Dev nD) : ∀ b, b ∉ Finset.univ.image (Pipeline.arrRef spec1) → VE5 m c b = VE4 m c b :=
  fun b hb => W5_of_ne m c b fun w e => hb (Finset.mem_image.mpr ⟨w, Finset.mem_univ _, e⟩)
/-- After the last stretch: the final contents. -/
abbrev W6 : Dev nD → Valuation τ sig (Elt F) := fun c => StableHlo.after hostOps2 (W5 m c)

/-! ## A stretch of host operations changes only what it writes -/

theorem W2_of (c : Dev nD) (r : Ref sig .tc) (h : r ∉ hostOps1_W) : W2 m c (Proc.devRef .tc r) = W1 m c (Proc.devRef .tc r) :=
  StableHlo.after_of_writes_sub hostOps1 _ hostOps1_writes h
theorem W3_of (c : Dev nD) (r : Ref sig .tc) (h : r ∉ hostOps1_1_W) : W3 m c (Proc.devRef .tc r) = W2 m c (Proc.devRef .tc r) :=
  StableHlo.after_of_writes_sub hostOps1_1 _ hostOps1_1_writes h
theorem W4_of (c : Dev nD) (r : Ref sig .tc) (h : r ∉ hostOps1_2_W) : W4 m c (Proc.devRef .tc r) = W3 m c (Proc.devRef .tc r) :=
  StableHlo.after_of_writes_sub hostOps1_2 _ hostOps1_2_writes h
theorem W6_of (c : Dev nD) (r : Ref sig .tc) (h : r ∉ hostOps2_W) : W6 m c (Proc.devRef .tc r) = W5 m c (Proc.devRef .tc r) :=
  StableHlo.after_of_writes_sub hostOps2 _ hostOps2_writes h

/-- A buffer no stretch before the second region writes, and that is no array of the first region, enters the second
    region as launched. -/
theorem W4_launch (c : Dev nD) (r : Ref sig .tc) (h1 : r ∉ hostOps1_W) (h2 : r ∉ hostOps1_1_W) (h3 : r ∉ hostOps1_2_W)
    (h0 : ∀ w, Pipeline.arrRef spec0 w ≠ r) : W4 m c (Proc.devRef .tc r) = m ((c : Thread nD τ).loc r) :=
  (W4_of m c r h3).trans <| (W3_of m c r h2).trans <| (W2_of m c r h1).trans <| (W1_of_ne m c r h0).trans rfl

/-! ## The arguments end as launched -/

theorem W6_main_arg0 (c : Dev nD) : W6 m c (Proc.devRef .tc main_arg0) = m ((c : Thread nD τ).loc main_arg0) :=
  (W6_of m c main_arg0 (by decide)).trans <| (W5_of_ne m c main_arg0 (by decide)).trans <| (W4_of m c main_arg0 (by decide)).trans <|
    (W3_of m c main_arg0 (by decide)).trans <| (W2_of m c main_arg0 (by decide)).trans <|
    (W1_arr m c 0).trans (((dat0 (VE0 m) c).arrAt_in 0 rfl _).trans (A_eq0 (VE0 m) c 0))
theorem W6_main_arg1 (c : Dev nD) : W6 m c (Proc.devRef .tc main_arg1) = m ((c : Thread nD τ).loc main_arg1) :=
  (W6_of m c main_arg1 (by decide)).trans <| (W5_arr m c 1).trans <| ((dat1 (VE4 m) c).arrAt_in 1 rfl _).trans <| (A_eq1 (VE4 m) c 1).trans <|
    W4_launch m c main_arg1 (by decide) (by decide) (by decide) (by decide)
theorem W6_main_arg2 (c : Dev nD) : W6 m c (Proc.devRef .tc main_arg2) = m ((c : Thread nD τ).loc main_arg2) :=
  (W6_of m c main_arg2 (by decide)).trans <| (W5_arr m c 0).trans <| ((dat1 (VE4 m) c).arrAt_in 0 rfl _).trans <| (A_eq1 (VE4 m) c 0).trans <|
    W4_launch m c main_arg2 (by decide) (by decide) (by decide) (by decide)
theorem W6_main_arg3 (c : Dev nD) : W6 m c (Proc.devRef .tc main_arg3) = m ((c : Thread nD τ).loc main_arg3) :=
  (W6_of m c main_arg3 (by decide)).trans <| (W5_of_ne m c main_arg3 (by decide)).trans <|
    W4_launch m c main_arg3 (by decide) (by decide) (by decide) (by decide)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE4 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hback : (pdats m 0 c).Φ (Fin.last _) ⊢ Pipeline.ΦA spec0 c := hout0 (VE0 m) c
    unfold Pipeline.ΦA at hback
    iintro H
    ihave H' := hback $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VE1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (VE4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE4 m c) (VE5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)) ]

set_option backward.isDefEq.respectTransparency.types false in
/-- THE RUN. From any memory with zero counters every weakly fair execution of @main terminates, nothing faulting, and in
    the final memory every buffer of every core holds the last contents of the chain above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c.tc : Thread nD τ) (0 : CellTallies nD τ sig Unit) W)
      iintro ⟨Ha, Hb, Hc⟩
      isplitl [Ha Hb]
      · isplitl [Ha]; · iexact Ha
        iexact Hb
      iexact Hc⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.KernelIdeal.Fr

end
-- ==== Proof.KiR0ValueA.lean ====
/-
  The first region's three control cases, read: what each leaves in the two running columns (the shift and the sum of
  exponentials, each 512 × 1) and, at a row block's last point, in the output block, as the point's arithmetic of its
  512 × 6400 block and of the columns it found. A point walks its block in five 512 × 1280 chunks; per chunk the shift
  becomes the larger of itself and the chunk's row maxima, and the sum is rescaled to the new shift and takes the chunk's
  exponentials.
-/
import proofs.«406017_j9732395892833_3_alg».proof.Proof.KiR0Frame
import Idealize.ShloMosaic.Lib.Pipeline.Value
import Idealize.ShloMosaic.Lib.ValueIdx

set_option maxRecDepth 16384

noncomputable section

namespace Cert.KernelIdeal.Fr.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The point's arithmetic, named -/

theorem hz : (![0, 0] : Fin 2 → Nat) = fun _ => 0 := funext fun a => by fin_cases a <;> rfl

/-- Columns `o … o + 1279` of a 512 × 6400 block lie inside it when `o ≤ 5120`. -/
theorem chunk_inb (o : ℕ) (ho : o ≤ 5120) : ∀ a, (![0, o] : Fin 2 → Nat) a + S512x1280.size a ≤ S512x6400.size a := by
  intro a
  match a with
  | ⟨0, _⟩ => show 0 + 512 ≤ 512; omega
  | ⟨1, _⟩ => show o + 1280 ≤ 6400; omega

/-- The 512 × 1280 chunk of a 512 × 6400 block that starts at column `o`. -/
abbrev chunkAt (x0 : Vec F S512x6400 .f32) (o : ℕ) (ho : o ≤ 5120) : Vec F S512x1280 .f32 :=
  View.ld x0 (Rect.unit ![0, o] S512x1280.size (chunk_inb o ho))

/-- The running shift after a point's five chunks, from the shift `m` the point starts with. -/
def ptM (x0 : Vec F S512x6400 .f32) (m : Vec F S512x1 .f32) : Vec F S512x1 .f32 :=
  k0_pay11 (k0_pay7 m (chunkAt x0 0 (by omega)) (chunkAt x0 1280 (by omega))) (chunkAt x0 2560 (by omega)) (chunkAt x0 3840 (by omega)) (chunkAt x0 5120 (by omega))

/-- The running sum after a point's five chunks, from the shift `m` and the sum `l` the point starts with. -/
def ptL (x0 : Vec F S512x6400 .f32) (m l : Vec F S512x1 .f32) : Vec F S512x1 .f32 :=
  k0_pay12 (k0_pay7 m (chunkAt x0 0 (by omega)) (chunkAt x0 1280 (by omega))) (k0_pay8 m l (chunkAt x0 0 (by omega)) (chunkAt x0 1280 (by omega))) (chunkAt x0 2560 (by omega)) (chunkAt x0 3840 (by omega)) (chunkAt x0 5120 (by omega))

/-- The column of `-∞` the reset stores as the running shift. -/
abbrev resetM : Vec F S512x1 .f32 := broadcast S512x1 (Scalar.ofBits .f32 0xFF800000#32)
/-- The column of zeros the reset stores as the running sum. -/
abbrev resetL : Vec F S512x1 .f32 := broadcast S512x1 (Scalar.ofBits .f32 0x00000000#32)

/-! ## What each case leaves, as that arithmetic of the point's block and of what it found -/

theorem soutB0_eq (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (hc0 : ¬cond0_0 i) (hc1 : ¬cond0_1 i)
    (x0 : Vec F S512x6400 .f32) (xs0 xs1 : Vec F S512x1 .f32) :
    sout0_B_0 c i a2 h2 a3 h3 a4 h4 a5 h5 hc0 hc1 x0 xs0 xs1 = ptM x0 xs0 := by
  unfold sout0_B_0
  rw [View.read_writes_eq_canon _ _ _ (scover0_B_0 c i a2 h2 a3 h3 a4 h4 a5 h5 hc0 hc1 x0 xs0 xs1)]
  unfold kernelRun0_B
  dsimp only
  sl_unfold_words
  rw [View.canon_unit_zero hz]
  unfold k0_pay1 ptM
  simp only [View.readAt_eq_ld, h2.read_unread, h4.read_unread, h5.read_unread, View.ld_unit_zero (S := S512x1) hz, shapeCast_self]

theorem soutB1_eq (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (hc0 : ¬cond0_0 i) (hc1 : ¬cond0_1 i)
    (x0 : Vec F S512x6400 .f32) (xs0 xs1 : Vec F S512x1 .f32) :
    sout0_B_1 c i a2 h2 a3 h3 a4 h4 a5 h5 hc0 hc1 x0 xs0 xs1 = ptL x0 xs0 xs1 := by
  unfold sout0_B_1
  rw [View.read_writes_eq_canon _ _ _ (scover0_B_1 c i a2 h2 a3 h3 a4 h4 a5 h5 hc0 hc1 x0 xs0 xs1)]
  unfold kernelRun0_B
  dsimp only
  sl_unfold_words
  rw [View.canon_unit_zero hz]
  unfold k0_pay2 ptL
  simp only [View.readAt_eq_ld, h2.read_unread, h4.read_unread, h5.read_unread, View.ld_unit_zero (S := S512x1) hz, shapeCast_self]

theorem soutC0_eq (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (hc0 : ¬cond0_0 i) (hc1 : cond0_1 i)
    (x0 : Vec F S512x6400 .f32) (xs0 xs1 : Vec F S512x1 .f32) :
    sout0_C_0 c i a2 h2 a3 h3 a4 h4 a5 h5 hc0 hc1 x0 xs0 xs1 = ptM x0 xs0 := by
  unfold sout0_C_0
  rw [View.read_writes_eq_canon _ _ _ (scover0_C_0 c i a2 h2 a3 h3 a4 h4 a5 h5 hc0 hc1 x0 xs0 xs1)]
  unfold kernelRun0_C
  dsimp only
  sl_unfold_words
  rw [View.canon_unit_zero hz]
  unfold k0_pay1 ptM
  simp only [View.readAt_eq_ld, h2.read_unread, h4.read_unread, h5.read_unread, View.ld_unit_zero (S := S512x1) hz, shapeCast_self]

theorem soutC1_eq (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (hc0 : ¬cond0_0 i) (hc1 : cond0_1 i)
    (x0 : Vec F S512x6400 .f32) (xs0 xs1 : Vec F S512x1 .f32) :
    sout0_C_1 c i a2 h2 a3 h3 a4 h4 a5 h5 hc0 hc1 x0 xs0 xs1 = ptL x0 xs0 xs1 := by
  unfold sout0_C_1
  rw [View.read_writes_eq_canon _ _ _ (scover0_C_1 c i a2 h2 a3 h3 a4 h4 a5 h5 hc0 hc1 x0 xs0 xs1)]
  unfold kernelRun0_C
  dsimp only
  sl_unfold_words
  rw [View.canon_unit_zero hz]
  unfold k0_pay2 ptL
  simp only [View.readAt_eq_ld, h2.read_unread, h4.read_unread, h5.read_unread, View.ld_unit_zero (S := S512x1) hz, shapeCast_self]

/-- At a row block's last point the stored result is the final shift plus the logarithm of the final sum. -/
theorem outC_eq (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (hc0 : ¬cond0_0 i) (hc1 : cond0_1 i)
    (x0 : Vec F S512x6400 .f32) (xs0 xs1 : Vec F S512x1 .f32) :
    out0_C_1 c i a2 h2 a3 h3 a4 h4 a5 h5 hc0 hc1 x0 xs0 xs1 = addf (ptM x0 xs0) (log (ptL x0 xs0 xs1)) := by
  unfold out0_C_1
  rw [View.read_writes_eq_canon _ _ _ (cover0_C_1 c i a2 h2 a3 h3 a4 h4 a5 h5 hc0 hc1 x0 xs0 xs1)]
  unfold kernelRun0_C
  dsimp only
  sl_unfold_words
  rw [View.canon_unit_zero hz]
  unfold k0_pay3 ptM ptL
  simp only [View.readAt_eq_ld, h2.read_unread, h4.read_unread, h5.read_unread, View.ld_unit_zero (S := S512x1) hz, View.readCov_unit_zero (S := S512x1) _ hz, shapeCast_self, k0_pay1, k0_pay2]

/-- At a row block's first point the shift restarts from `-∞`. -/
theorem soutA0_eq (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (hc0 : cond0_0 i) (hc1 : ¬cond0_1 i)
    (x0 : Vec F S512x6400 .f32) :
    sout0_A_0 c i a2 h2 a3 h3 a4 h4 a5 h5 hc0 hc1 x0 = ptM x0 resetM := by
  unfold sout0_A_0
  rw [View.read_writes_eq_canon _ _ _ (scover0_A_0 c i a2 h2 a3 h3 a4 h4 a5 h5 hc0 hc1 x0)]
  unfold kernelRun0_A
  dsimp only
  sl_unfold_words
  rw [View.canon_cons_unit_zero (S := S512x1) hz]
  unfold k0_pay1 ptM
  simp only [View.readAt_eq_ld, h2.read_unread, View.ld_unit_zero (S := S512x1) hz, View.readCov_unit_zero (S := S512x1) _ hz, shapeCast_self, k0_pay4]

/-- At a row block's first point the sum restarts from zero. -/
theorem soutA1_eq (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (hc0 : cond0_0 i) (hc1 : ¬cond0_1 i)
    (x0 : Vec F S512x6400 .f32) :
    sout0_A_1 c i a2 h2 a3 h3 a4 h4 a5 h5 hc0 hc1 x0 = ptL x0 resetM resetL := by
  unfold sout0_A_1
  rw [View.read_writes_eq_canon _ _ _ (scover0_A_1 c i a2 h2 a3 h3 a4 h4 a5 h5 hc0 hc1 x0)]
  unfold kernelRun0_A
  dsimp only
  sl_unfold_words
  rw [View.canon_cons_unit_zero (S := S512x1) hz]
  unfold k0_pay2 ptL
  simp only [View.readAt_eq_ld, h2.read_unread, View.ld_unit_zero (S := S512x1) hz, View.readCov_unit_zero (S := S512x1) _ hz, shapeCast_self, k0_pay4, k0_pay5]

end Cert.KernelIdeal.Fr.R0

end
-- ==== Proof.LibLogSumExp.lean ====
/-
  Log-sum-exp under a shift, and its online form over blocks.

  For reals `x j`, a shift `a` cancels: `(y - a) - log ∑ j, exp (x j - a) = y - log ∑ j, exp (x j)`. A streaming
  evaluation keeps a shift `a` and the sum `∑ exp (x - a)` over the blocks seen so far; moving to a new shift `b`
  multiplies the kept sum by `exp (a - b)` and adds the new block's terms: the result is the sum over all blocks seen, at
  shift `b`. No property of the shifts is used (they need not be maxima). The last part restates these on the
  extended reals, where a finite value is the coercion of a real and `exp`, `log` are the real functions on finite values.
-/
import Idealize.ShloMosaic.PureOps.Ideal
import Mathlib.Analysis.SpecialFunctions.Log.Basic
import Mathlib.Data.Finset.Fold

noncomputable section

namespace Cert.LibLogSumExp

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On a finite value the extended exponential is the real one. -/
theorem exp_coe (r : ℝ) : Ideal.exp (r : EReal) = ((Real.exp r : ℝ) : EReal) := rfl

/-- On a positive finite value the extended logarithm is the real one. -/
theorem log_coe {r : ℝ} (h : 0 < r) : Ideal.log (r : EReal) = ((Real.log r : ℝ) : EReal) := by
  show (if r ≤ 0 then (⊥ : EReal) else ((Real.log r : ℝ) : EReal)) = _
  rw [if_neg (not_le.mpr h)]

/-- A shift cancels in `y - log-sum-exp`. -/
theorem sub_log_sum_exp_shift {ι : Type*} [Fintype ι] [Nonempty ι] (x : ι → ℝ) (y a : ℝ) :
    (y - a) - Real.log (∑ j, Real.exp (x j - a)) = y - Real.log (∑ j, Real.exp (x j)) := by
  have hpos : 0 < ∑ j, Real.exp (x j) := Finset.sum_pos (fun j _ => Real.exp_pos _) Finset.univ_nonempty
  have h1 : ∑ j, Real.exp (x j - a) = Real.exp (-a) * ∑ j, Real.exp (x j) := by
    rw [Finset.mul_sum]
    refine Finset.sum_congr rfl fun j _ => ?_
    rw [← Real.exp_add]; congr 1; ring
  rw [h1, Real.log_mul (Real.exp_pos _).ne' hpos.ne', Real.log_exp]; ring

/-- One step of the online sum: the sum over the first `n` blocks at shift `a`, rescaled to shift `b`, plus block `n`'s
    terms at shift `b`, is the sum over the first `n + 1` blocks at shift `b`. -/
theorem online_step {κ : Type*} [Fintype κ] (x : ℕ → κ → ℝ) (a b : ℝ) (n : ℕ) :
    Real.exp (a - b) * (∑ c ∈ Finset.range n, ∑ q, Real.exp (x c q - a)) + ∑ q, Real.exp (x n q - b)
      = ∑ c ∈ Finset.range (n + 1), ∑ q, Real.exp (x c q - b) := by
  rw [Finset.sum_range_succ, Finset.mul_sum]
  congr 1
  refine Finset.sum_congr rfl fun c _ => ?_
  rw [Finset.mul_sum]
  refine Finset.sum_congr rfl fun q _ => ?_
  rw [← Real.exp_add]; congr 1; ring

/-- A sum of exponentials over a nonempty range of nonempty blocks is positive. -/
theorem sum_exp_pos {κ : Type*} [Fintype κ] [Nonempty κ] (x : ℕ → κ → ℝ) (a : ℝ) (n : ℕ) :
    0 < ∑ c ∈ Finset.range (n + 1), ∑ q, Real.exp (x c q - a) :=
  Finset.sum_pos (fun _ _ => Finset.sum_pos (fun _ _ => Real.exp_pos _) Finset.univ_nonempty)
    (Finset.nonempty_range_add_one)

/-- The fold of `max` from the bottom over a nonempty family of finite values is finite. -/
theorem fold_max_bot_real {κ : Type*} [Fintype κ] [Nonempty κ] (f : κ → EReal) (hf : ∀ k, ∃ r : ℝ, f k = (r : EReal)) :
    ∃ r : ℝ, (Finset.univ : Finset κ).fold max (⊥ : EReal) f = (r : EReal) := by
  have hlt : (Finset.univ : Finset κ).fold max (⊥ : EReal) f < ⊤ :=
    (Finset.fold_max_lt ⊤).mpr ⟨bot_lt_top, fun k _ => by obtain ⟨r, hr⟩ := hf k; rw [hr]; exact EReal.coe_lt_top r⟩
  have hgt : (⊥ : EReal) < (Finset.univ : Finset κ).fold max (⊥ : EReal) f := by
    obtain ⟨k⟩ := ‹Nonempty κ›
    exact (Finset.lt_fold_max ⊥).mpr (Or.inr ⟨k, Finset.mem_univ k, by obtain ⟨r, hr⟩ := hf k; rw [hr]; exact EReal.bot_lt_coe r⟩)
  exact ⟨_, (EReal.coe_toReal hlt.ne hgt.ne').symm⟩

/-- The larger of two finite values is finite. -/
theorem max_coe (a b : ℝ) : max (a : EReal) (b : EReal) = ((max a b : ℝ) : EReal) :=
  (EReal.coe_strictMono.monotone.map_max (a := a) (b := b)).symm

/-- The online step on the extended reals, every operand finite: what the running sum becomes. -/
theorem estep {κ : Type*} [Fintype κ] (x : κ → ℝ) (a b L : ℝ) :
    Ideal.exp ((a : EReal) - (b : EReal)) * (L : EReal) + ∑ q, Ideal.exp ((x q : EReal) - (b : EReal))
      = ((Real.exp (a - b) * L + ∑ q, Real.exp (x q - b) : ℝ) : EReal) := by
  simp only [← EReal.coe_sub, exp_coe, ← coe_sum, ← EReal.coe_mul, ← EReal.coe_add]

/-- The label's log-probability on the extended reals through a finite shift `a` and the sum at that shift: it is the
    unshifted real log-probability. `z` is the zero the kernel subtracts from. -/
theorem logp_shifted {ι : Type*} [Fintype ι] [Nonempty ι] (x : ι → ℝ) (y a : ℝ) :
    ((y : EReal) - (a : EReal)) - Ideal.log ((∑ j, Real.exp (x j - a) : ℝ) : EReal)
      = ((y - Real.log (∑ j, Real.exp (x j)) : ℝ) : EReal) := by
  have hpos : 0 < ∑ j, Real.exp (x j - a) := Finset.sum_pos (fun j _ => Real.exp_pos _) Finset.univ_nonempty
  rw [log_coe hpos, ← EReal.coe_sub, ← EReal.coe_sub, sub_log_sum_exp_shift]

end Cert.LibLogSumExp

end
-- ==== Proof.LibTileSum.lean ====
/-
  A sum over all positions of a tiled range, taken tile by tile.
-/
import Mathlib.Algebra.BigOperators.Fin
import Mathlib.Logic.Equiv.Fin.Basic

namespace Cert.LibTileSum

/-- Position `r` of tile `i`, of `a` tiles of `b` positions each, among all `a * b` positions. -/
def pos {a b : ℕ} (i : Fin a) (r : Fin b) : Fin (a * b) :=
  ⟨b * i.val + r.val, by
    have hi := i.isLt; have hr := r.isLt
    have h1 : b * i.val + b ≤ b * a := by
      have : b * (i.val + 1) ≤ b * a := Nat.mul_le_mul_left _ hi
      rwa [Nat.mul_succ] at this
    rw [Nat.mul_comm a b]; omega⟩

theorem pos_val {a b : ℕ} (i : Fin a) (r : Fin b) : (pos i r).val = b * i.val + r.val := rfl

/-- Summing tile by tile, and within a tile position by position, is summing over all positions. -/
theorem sum_tiles {M : Type*} [AddCommMonoid M] {a b : ℕ} (f : Fin (a * b) → M) :
    ∑ i : Fin a, ∑ r : Fin b, f (pos i r) = ∑ n : Fin (a * b), f n := by
  rw [← Finset.sum_product' (f := fun i r => f (pos i r)), Finset.univ_product_univ]
  refine Fintype.sum_equiv (finProdFinEquiv (m := a) (n := b)) _ _ fun p => ?_
  congr 1
  apply Fin.ext
  simp [pos_val, finProdFinEquiv, Nat.add_comm]

end Cert.LibTileSum
-- ==== Proof.KiR0ValueM.lean ====
/-
  The streamed log-sum-exp of one row, as a state carried chunk by chunk. The row's entries arrive in chunks
  `x 0, x 1, …` (each a finite family of reals). The state is a shift `m` and a sum `l`: before any chunk `m = -∞` and
  `l = 0`; after `n ≥ 1` chunks `m` is some real `a` and `l = ∑_{c < n} ∑_q exp (x c q - a)`. A chunk moves the shift to
  the larger of itself and the chunk's maximum, rescales the sum to the new shift and adds the chunk's exponentials at it.
  Which real the shift is never matters. After the last chunk `m + log l` is the logarithm of the sum of all the
  exponentials, unshifted.
-/
import proofs.«406017_j9732395892833_3_alg».proof.Proof.LibLogSumExp
import proofs.«406017_j9732395892833_3_alg».proof.Proof.LibTileSum
import Mathlib.Algebra.BigOperators.Intervals
import Mathlib.Algebra.BigOperators.Fin

noncomputable section

namespace Cert.KernelIdeal.Online

open Idealize.ShloMosaic Cert.LibLogSumExp

variable {κ : Type*} [Fintype κ]

/-- The carried state after `n` chunks. -/
def Inv (x : ℕ → κ → ℝ) (n : ℕ) (m l : EReal) : Prop :=
  (n = 0 ∧ m = ⊥ ∧ l = 0) ∨
    ∃ a : ℝ, m = (a : EReal) ∧ l = ((∑ c ∈ Finset.range n, ∑ q, Real.exp (x c q - a) : ℝ) : EReal)

/-- The reset state. -/
theorem inv_zero (x : ℕ → κ → ℝ) : Inv x 0 ⊥ 0 := Or.inl ⟨rfl, rfl, rfl⟩

/-- The exponentials of a finite chunk at a finite shift, summed on the extended reals, are the real sum. -/
theorem sum_exp_coe (y : κ → ℝ) (b : ℝ) :
    ∑ q, Ideal.exp ((y q : EReal) - (b : EReal)) = ((∑ q, Real.exp (y q - b) : ℝ) : EReal) := by
  simp only [← EReal.coe_sub, exp_coe, ← coe_sum]

/-- One chunk: the new shift is the larger of the old one and the chunk's maximum (a fold of `max` from `-∞`); the new
    sum is the old one times `exp (old shift - new shift)` plus the chunk's exponentials at the new shift. -/
theorem inv_step [Nonempty κ] (x : ℕ → κ → ℝ) (n : ℕ) (m l : EReal) (h : Inv x n m l) (ch : κ → EReal)
    (hch : ∀ q, ch q = (x n q : EReal)) (m' : EReal) (hm' : m' = max m ((Finset.univ : Finset κ).fold max ⊥ ch)) :
    Inv x (n + 1) m' (l * Ideal.exp (m - m') + ∑ q, Ideal.exp (ch q - m')) := by
  obtain ⟨b, hb⟩ := fold_max_bot_real ch fun q => ⟨x n q, hch q⟩
  have hch' : ch = fun q => (x n q : EReal) := funext hch
  rw [hb] at hm'
  rcases h with ⟨hn, hm, hl⟩ | ⟨a, hm, hl⟩
  · subst hn hm hl
    refine Or.inr ⟨b, by rw [hm', max_eq_right bot_le], ?_⟩
    rw [zero_mul, zero_add, hm', max_eq_right bot_le, hch', sum_exp_coe, Finset.sum_range_one]
  · subst hm hl
    rw [max_coe] at hm'
    refine Or.inr ⟨max a b, hm', ?_⟩
    rw [hm', hch', mul_comm, estep (fun q => x n q) a (max a b), mul_comm (Real.exp _), ← online_step x a (max a b) n,
      mul_comm]

/-- After at least one chunk, the shift plus the logarithm of the sum is the unshifted log-sum-exp. -/
theorem inv_result [Nonempty κ] (x : ℕ → κ → ℝ) (n : ℕ) (m l : EReal) (h : Inv x (n + 1) m l) :
    m + Ideal.log l = ((Real.log (∑ c ∈ Finset.range (n + 1), ∑ q, Real.exp (x c q)) : ℝ) : EReal) := by
  rcases h with ⟨hn, -, -⟩ | ⟨a, hm, hl⟩
  · exact absurd hn (Nat.succ_ne_zero n)
  · subst hm hl
    have hpos : 0 < ∑ c ∈ Finset.range (n + 1), ∑ q, Real.exp (x c q) :=
      Finset.sum_pos (fun _ _ => Finset.sum_pos (fun _ _ => Real.exp_pos _) Finset.univ_nonempty) Finset.nonempty_range_add_one
    have h1 : ∑ c ∈ Finset.range (n + 1), ∑ q, Real.exp (x c q - a)
        = Real.exp (-a) * ∑ c ∈ Finset.range (n + 1), ∑ q, Real.exp (x c q) := by
      rw [Finset.mul_sum]
      refine Finset.sum_congr rfl fun c _ => ?_
      rw [Finset.mul_sum]
      refine Finset.sum_congr rfl fun q _ => ?_
      rw [← Real.exp_add]; congr 1; ring
    rw [log_coe (sum_exp_pos x a n), ← EReal.coe_add, h1, Real.log_mul (Real.exp_pos _).ne' hpos.ne', Real.log_exp]
    congr 1; ring

/-- A row of `a * b` reals cut into `a` chunks of `b`: the sum over the chunks, chunk by chunk, is the sum over the row. -/
theorem sum_chunks {a b : ℕ} (f : Fin (a * b) → ℝ) (x : ℕ → Fin b → ℝ)
    (hx : ∀ (c : Fin a) (q : Fin b), x c.val q = f (LibTileSum.pos c q)) :
    ∑ c ∈ Finset.range a, ∑ q, x c q = ∑ j, f j := by
  rw [Finset.sum_range, ← LibTileSum.sum_tiles f]
  exact Finset.sum_congr rfl fun c _ => Finset.sum_congr rfl fun q _ => hx c q

end Cert.KernelIdeal.Online

end
-- ==== Proof.LibKeepdims.lean ====
/-
  Two layout readings used by every reduction that keeps its reduced axis as a unit axis (a row statistic kept as a
  column): a vector [a] viewed as a column [a, 1], and a column [a, 1] spread over the b entries of each row.
-/
import Idealize.ShloMosaic.Lib.Pipeline.Value
import Idealize.ShloMosaic.Lib.ValueIdx

namespace Cert.LibKeepdims

open Idealize.ShloMosaic Idealize.ShloMosaic.ValueIdx

variable {α : Type}

/-- A vector [a] cast to a column [a, 1] reads, at (i, u), the vector's entry i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KiR0ValueB.lean ====
/-
  The first region's two running columns at every grid point, and what they mean at the ideal values. A point's update
  of the columns is five chunk updates (the shift to the larger of itself and the chunk's row maxima; the sum rescaled
  to the new shift plus the chunk's exponentials at it); after grid point `n` the columns are that arithmetic of the
  point's block and of what the point before left, restarting from `-∞` and `0` at a row block's first point. Over
  finite logits, entry by entry, row `r` of the columns after point `n` is the state of the streamed log-sum-exp of row
  `512 (n / 5) + r` of the logits after its first `5 (n % 5) + 5` chunks of 1280 entries: by induction on the point.
-/
import proofs.«406017_j9732395892833_3_alg».proof.Proof.KiR0ValueA
import proofs.«406017_j9732395892833_3_alg».proof.Proof.KiR0ValueM
import proofs.«406017_j9732395892833_3_alg».proof.Proof.LibKeepdims
import Idealize.ShloMosaic.PureOps.Ideal.Laws
import Idealize.ShloMosaic.Lib.Pipeline.Value
import Idealize.ShloMosaic.Lib.ValueIdx

set_option maxRecDepth 16384

noncomputable section

namespace Cert.KernelIdeal.Fr.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## One chunk's update of the two running columns, and a point as five of them -/

/-- The shift after a chunk: the larger of the shift before and the chunk's row maxima. -/
def stM (m : Vec F S512x1 .f32) (ch : Vec F S512x1280 .f32) : Vec F S512x1 .f32 :=
  maximumf m (shapeCast S512x1 (multiReduction .maximumf [1] S512 ch 0xFF800000#32 reduces_S512x1280_S512 (.inl rfl) rfl) shapeCasts_S512_S512x1)

/-- The sum after a chunk: the sum before, rescaled from the old shift `m` to the new one `m'`, plus the row sums of the
    chunk's exponentials at the new shift. -/
def stL (m m' l : Vec F S512x1 .f32) (ch : Vec F S512x1280 .f32) : Vec F S512x1 .f32 :=
  addf (mulf l (exp (subf m m')))
    (shapeCast S512x1 (multiReduction .add [1] S512 (exp (subf ch (broadcastTo S512x1280 m' broadcasts_S512x1_S512x1280))) 0x00000000#32 reduces_S512x1280_S512 (.inl rfl) rfl) shapeCasts_S512_S512x1)

/-- A point's shift is five chunk updates. -/
theorem ptM_eq (x0 : Vec F S512x6400 .f32) (m : Vec F S512x1 .f32) :
    ptM x0 m = stM (stM (stM (stM (stM m (chunkAt x0 0 (by omega))) (chunkAt x0 1280 (by omega))) (chunkAt x0 2560 (by omega))) (chunkAt x0 3840 (by omega))) (chunkAt x0 5120 (by omega)) := rfl

/-- A point's sum is five chunk updates, each at the shifts before and after its chunk. -/
theorem ptL_eq (x0 : Vec F S512x6400 .f32) (m l : Vec F S512x1 .f32) :
    ptL x0 m l
      = stL (stM (stM (stM (stM m (chunkAt x0 0 (by omega))) (chunkAt x0 1280 (by omega))) (chunkAt x0 2560 (by omega))) (chunkAt x0 3840 (by omega)))
          (stM (stM (stM (stM (stM m (chunkAt x0 0 (by omega))) (chunkAt x0 1280 (by omega))) (chunkAt x0 2560 (by omega))) (chunkAt x0 3840 (by omega))) (chunkAt x0 5120 (by omega)))
          (stL (stM (stM (stM m (chunkAt x0 0 (by omega))) (chunkAt x0 1280 (by omega))) (chunkAt x0 2560 (by omega)))
            (stM (stM (stM (stM m (chunkAt x0 0 (by omega))) (chunkAt x0 1280 (by omega))) (chunkAt x0 2560 (by omega))) (chunkAt x0 3840 (by omega)))
            (stL (stM (stM m (chunkAt x0 0 (by omega))) (chunkAt x0 1280 (by omega)))
              (stM (stM (stM m (chunkAt x0 0 (by omega))) (chunkAt x0 1280 (by omega))) (chunkAt x0 2560 (by omega)))
              (stL (stM m (chunkAt x0 0 (by omega)))
                (stM (stM m (chunkAt x0 0 (by omega))) (chunkAt x0 1280 (by omega)))
                (stL m (stM m (chunkAt x0 0 (by omega))) l (chunkAt x0 0 (by omega)))
                (chunkAt x0 1280 (by omega)))
              (chunkAt x0 2560 (by omega)))
            (chunkAt x0 3840 (by omega)))
          (chunkAt x0 5120 (by omega)) := rfl

/-! ## The same at the ideal values, entry by entry -/

/-- A chunk's entry is the block's entry `o` columns to the right. -/
theorem chunkAt_apply (x0 : Vec Ideal S512x6400 .f32) (o : ℕ) (ho : o ≤ 5120) (r : Fin 512) (q : Fin 1280) :
    chunkAt x0 o ho (ix2 r q) = x0 (ix2 r (⟨o + q.val, by omega⟩ : Fin 6400)) := by
  show x0 _ = x0 _
  congr 1
  funext a
  apply Fin.ext
  match a with
  | ⟨0, _⟩ => show 0 + 1 * r.val = r.val; omega
  | ⟨1, _⟩ => show o + 1 * q.val = o + q.val; omega

/-- The index of row `r`, column `q`, as the reduction over columns builds it. -/
theorem lift_row (r : Fin 512) (q : Fin 1280) : reduces_S512x1280_S512.lift (ix1 r) q = ix2 r q := by
  funext a
  apply Fin.ext
  match a with
  | ⟨0, _⟩ => rfl
  | ⟨1, _⟩ => rfl

/-- The row maxima of a chunk, kept as a column: at row `r` the fold of `max` from `-∞` over the row's 1280 entries. -/
theorem rowmax_apply (ch : Vec Ideal S512x1280 .f32) (r : Fin 512) (u : Fin 1) :
    shapeCast S512x1 (multiReduction (F := Ideal) .maximumf [1] S512 ch 0xFF800000#32 reduces_S512x1280_S512 (.inl rfl) rfl) shapeCasts_S512_S512x1 (ix2 r u)
      = (Finset.univ : Finset (Fin 1280)).fold max (⊥ : EReal) (fun q => ch (ix2 r q)) := by
  have h0 := Cert.LibKeepdims.shapeCast_a_a1_apply (multiReduction (F := Ideal) .maximumf [1] S512 ch 0xFF800000#32 reduces_S512x1280_S512 (.inl rfl) rfl) shapeCasts_S512_S512x1 r u
  have h1 := Ideal.multiReduction_maximumf_single ch 0xFF800000#32 reduces_S512x1280_S512 (.inl rfl) rfl (ix1 r)
  have hb : FloatOps.ofBits (F := Ideal) .f32 0xFF800000#32 = (⊥ : EReal) := by simp [Ideal.ofBits, Ideal.ieee]
  have hl : (ch ∘ reduces_S512x1280_S512.lift (ix1 r)) = fun q : Fin 1280 => ch (ix2 r q) :=
    funext fun q => congrArg ch (lift_row r q)
  rw [hb, hl] at h1
  exact h0.trans h1

/-- The row sums of a chunk-shaped array, kept as a column: at row `r` the sum of the row's 1280 entries. -/
theorem rowsum_apply (v : Vec Ideal S512x1280 .f32) (r : Fin 512) (u : Fin 1) :
    shapeCast S512x1 (multiReduction (F := Ideal) .add [1] S512 v 0x00000000#32 reduces_S512x1280_S512 (.inl rfl) rfl) shapeCasts_S512_S512x1 (ix2 r u)
      = ∑ q : Fin 1280, v (ix2 r q) := by
  have h0 := Cert.LibKeepdims.shapeCast_a_a1_apply (multiReduction (F := Ideal) .add [1] S512 v 0x00000000#32 reduces_S512x1280_S512 (.inl rfl) rfl) shapeCasts_S512_S512x1 r u
  have h1 := Ideal.multiReduction_add_single v 0x00000000#32 reduces_S512x1280_S512 (.inl rfl) rfl (ix1 r)
  refine (h0.trans h1).trans ?_
  show ∑ q : Fin 1280, v (reduces_S512x1280_S512.lift (ix1 r) q) = _
  exact Finset.sum_congr rfl fun q _ => congrArg v (lift_row r q)

/-- The new shift at row `r`. -/
theorem stM_apply (m : Vec Ideal S512x1 .f32) (ch : Vec Ideal S512x1280 .f32) (r : Fin 512) :
    stM m ch (ix2 r (0 : Fin 1)) = max (m (ix2 r (0 : Fin 1))) ((Finset.univ : Finset (Fin 1280)).fold max (⊥ : EReal) (fun q => ch (ix2 r q))) := by
  unfold stM
  exact congrArg (max (m (ix2 r (0 : Fin 1)))) (rowmax_apply ch r 0)

/-- The new sum at row `r`. -/
theorem stL_apply (m m' l : Vec Ideal S512x1 .f32) (ch : Vec Ideal S512x1280 .f32) (r : Fin 512) :
    stL m m' l ch (ix2 r (0 : Fin 1))
      = l (ix2 r (0 : Fin 1)) * Ideal.exp (m (ix2 r (0 : Fin 1)) - m' (ix2 r (0 : Fin 1)))
        + ∑ q : Fin 1280, Ideal.exp (ch (ix2 r q) - m' (ix2 r (0 : Fin 1))) := by
  unfold stL
  refine (congrArg (fun z => l (ix2 r (0 : Fin 1)) * Ideal.exp (m (ix2 r (0 : Fin 1)) - m' (ix2 r (0 : Fin 1))) + z) (rowsum_apply _ r 0)).trans ?_
  congr 1
  refine Finset.sum_congr rfl fun q _ => ?_
  show Ideal.exp (ch (ix2 r q) - broadcastTo S512x1280 m' broadcasts_S512x1_S512x1280 (ix2 r q)) = _
  rw [Cert.LibKeepdims.broadcastTo_a1_ab_apply]

/-- One chunk carries the state of the streamed log-sum-exp of row `r` from `n` chunks to `n + 1`. -/
theorem chunk_step (x : ℕ → Fin 1280 → ℝ) (n : ℕ) (m l : Vec Ideal S512x1 .f32) (ch : Vec Ideal S512x1280 .f32) (r : Fin 512)
    (h : Online.Inv x n (m (ix2 r (0 : Fin 1))) (l (ix2 r (0 : Fin 1)))) (hch : ∀ q : Fin 1280, ch (ix2 r q) = (x n q : EReal)) :
    Online.Inv x (n + 1) (stM m ch (ix2 r (0 : Fin 1))) (stL m (stM m ch) l ch (ix2 r (0 : Fin 1))) := by
  rw [stL_apply]
  exact Online.inv_step x n _ _ h (fun q => ch (ix2 r q)) hch _ (stM_apply m ch r)

/-- A point carries it five chunks on. `x` lists the row's chunks; the point's block holds chunks `n … n + 4`. -/
theorem point_inv (x : ℕ → Fin 1280 → ℝ) (n : ℕ) (x0 : Vec Ideal S512x6400 .f32) (m l : Vec Ideal S512x1 .f32) (r : Fin 512)
    (h : Online.Inv x n (m (ix2 r (0 : Fin 1))) (l (ix2 r (0 : Fin 1))))
    (hx : ∀ (k : ℕ) (hk : k < 5) (q : Fin 1280), x0 (ix2 r (⟨1280 * k + q.val, by omega⟩ : Fin 6400)) = (x (n + k) q : EReal)) :
    Online.Inv x (n + 5) (ptM x0 m (ix2 r (0 : Fin 1))) (ptL x0 m l (ix2 r (0 : Fin 1))) := by
  rw [ptM_eq, ptL_eq]
  have h1 := chunk_step x n m l (chunkAt x0 0 (by omega)) r h fun q => (chunkAt_apply x0 0 (by omega) r q).trans (hx 0 (by omega) q)
  have h2 := chunk_step x (n + 1) _ _ (chunkAt x0 1280 (by omega)) r h1 fun q => (chunkAt_apply x0 1280 (by omega) r q).trans (hx 1 (by omega) q)
  have h3 := chunk_step x (n + 1 + 1) _ _ (chunkAt x0 2560 (by omega)) r h2 fun q => (chunkAt_apply x0 2560 (by omega) r q).trans (hx 2 (by omega) q)
  have h4 := chunk_step x (n + 1 + 1 + 1) _ _ (chunkAt x0 3840 (by omega)) r h3 fun q => (chunkAt_apply x0 3840 (by omega) r q).trans (hx 3 (by omega) q)
  exact chunk_step x (n + 1 + 1 + 1 + 1) _ _ (chunkAt x0 5120 (by omega)) r h4 fun q => (chunkAt_apply x0 5120 (by omega) r q).trans (hx 4 (by omega) q)

/-- The reset shift is `-∞` … -/
theorem resetM_apply (j : S512x1.Idx) : (resetM (F := Ideal)) j = (⊥ : EReal) := by
  show Ideal.ofBits .f32 0xFF800000#32 = ⊥
  simp [Ideal.ofBits, Ideal.ieee]

/-- … and the reset sum is zero. -/
theorem resetL_apply (j : S512x1.Idx) : (resetL (F := Ideal)) j = (0 : EReal) := by
  show Ideal.ofBits .f32 0x00000000#32 = 0
  simp [Ideal.ofBits, Ideal.ieee]

/-! ## The two running columns after every grid point, as that arithmetic -/

section Entry
variable (V : (c : Dev nD) → (b : Ref sig .tc) → Buf (Elt F) ((c : Thread nD τ).loc b))

/-- The logits array as the region finds it, and its block at point `t`, at their literal types. -/
abbrev xarr (c : Dev nD) : Vec F S8192x32000 .f32 := V c main_arg0
abbrev xblk (c : Dev nD) (t : Fin cfg0.N) : Vec F S512x6400 .f32 := iblk0 V c 0 t
/-- The shift and the sum the point before `t` left. -/
abbrev prevM (c : Dev nD) (t : Fin cfg0.N) : Vec F S512x1 .f32 := (outsAt0 V c (t.val - 1) (Nat.lt_of_le_of_lt (Nat.sub_le _ _) t.isLt)).2.1
abbrev prevL (c : Dev nD) (t : Fin cfg0.N) : Vec F S512x1 .f32 := (outsAt0 V c (t.val - 1) (Nat.lt_of_le_of_lt (Nat.sub_le _ _) t.isLt)).2.2

/-- At a row block's first point the columns restart from the reset values. -/
theorem carried_first (c : Dev nD) (t : Fin cfg0.N) (h0 : t.val % 5 = 0) :
    (outsAt0 V c t.val t.isLt).2.1 = ptM (xblk V c t) resetM ∧ (outsAt0 V c t.val t.isLt).2.2 = ptL (xblk V c t) resetM resetL := by
  have h1 : ¬t.val % 5 = 4 := by omega
  rw [outsAt0_A V c t h0 h1]
  dsimp only
  exact ⟨soutA0_eq c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (xblk V c t),
    soutA1_eq c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (xblk V c t)⟩

/-- At a later point of a row block they continue from what the point before left. -/
theorem carried_later (c : Dev nD) (t : Fin cfg0.N) (h0 : ¬t.val % 5 = 0) :
    (outsAt0 V c t.val t.isLt).2.1 = ptM (xblk V c t) (prevM V c t)
      ∧ (outsAt0 V c t.val t.isLt).2.2 = ptL (xblk V c t) (prevM V c t) (prevL V c t) := by
  by_cases h1 : t.val % 5 = 4
  · rw [outsAt0_C V c t h0 h1]
    dsimp only
    exact ⟨soutC0_eq c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk V c t) (prevM V c t) (prevL V c t),
      soutC1_eq c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk V c t) (prevM V c t) (prevL V c t)⟩
  · rw [outsAt0_B V c t h0 h1]
    dsimp only
    exact ⟨soutB0_eq c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (xblk V c t) (prevM V c t) (prevL V c t),
      soutB1_eq c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (xblk V c t) (prevM V c t) (prevL V c t)⟩

/-- At a row block's last point the output block is the final shift plus the logarithm of the final sum. -/
theorem stored_last (c : Dev nD) (t : Fin cfg0.N) (h1 : t.val % 5 = 4) :
    (outsAt0 V c t.val t.isLt).1 = addf (ptM (xblk V c t) (prevM V c t)) (log (ptL (xblk V c t) (prevM V c t) (prevL V c t))) := by
  have h0 : ¬t.val % 5 = 0 := by omega
  rw [outsAt0_C V c t h0 h1]
  dsimp only
  exact outC_eq c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk V c t) (prevM V c t) (prevL V c t)

/-- Point `t` is row block `t / 5`, column block `t % 5`: the logits window's block indices, decided over the grid. -/
theorem idx_facts0 : ∀ t : Fin cfg0.N, win0_0.index t (0 : Fin 2) = t.val / 5 ∧ win0_0.index t (1 : Fin 2) = t.val % 5 :=
  (by decide +kernel : ∀ t : Fin grid0.N, _)

theorem lt_N0 (t : Fin cfg0.N) : t.val < 80 := lt_of_lt_of_eq t.isLt (show cfg0.N = 80 from N_0)

/-- An entry of the block at point `t` is the array's entry 512 (t / 5) rows down and 6400 (t % 5) columns right. -/
theorem xblk_apply (c : Dev nD) (t : Fin cfg0.N) (r : Fin 512) (j : Fin 6400) :
    xblk V c t (ix2 r j)
      = xarr V c (ix2 (⟨512 * (t.val / 5) + r.val, by have := lt_N0 t; omega⟩ : Fin 8192) (⟨6400 * (t.val % 5) + j.val, by omega⟩ : Fin 32000)) := by
  obtain ⟨e0, e1⟩ := idx_facts0 t
  show V c main_arg0 (((cfg0.win 0).blk t).view.emb (ix2 r j)) = V c main_arg0 _
  congr 1
  funext a
  apply Fin.ext
  match a with
  | ⟨0, _⟩ => show win0_0.index t (0 : Fin 2) * 512 + 1 * r.val = 512 * (t.val / 5) + r.val; rw [e0]; omega
  | ⟨1, _⟩ => show win0_0.index t (1 : Fin 2) * 6400 + 1 * j.val = 6400 * (t.val % 5) + j.val; rw [e1]; omega

end Entry

/-! ## At the ideal values: the columns carry each row's streamed log-sum-exp -/

/-- Row `n` of the logits as the list of its chunks of 1280 reals (zero outside the array). -/
def xrow (X : S8192x32000.Idx → EReal) (n : ℕ) : ℕ → Fin 1280 → ℝ := fun cc q =>
  if h : n < 8192 ∧ 1280 * cc + q.val < 32000 then
    (X (ix2 (⟨n, h.1⟩ : Fin 8192) (⟨1280 * cc + q.val, h.2⟩ : Fin 32000))).toReal
  else 0

/-- A finite entry is the coercion of its real part. -/
theorem coe_toReal_of (X : S8192x32000.Idx → EReal) (hX : ∀ i, ∃ r : ℝ, X i = (r : EReal)) (i : S8192x32000.Idx) :
    (((X i).toReal : ℝ) : EReal) = X i := by
  obtain ⟨y, hy⟩ := hX i
  rw [hy, EReal.toReal_coe]

section AtIdeal
variable (V : (c : Dev nD) → (b : Ref sig .tc) → Buf (Elt Ideal) ((c : Thread nD τ).loc b))

/-- The block at point `t` holds, in row `r`, chunks `5 (t % 5) … 5 (t % 5) + 4` of row `512 (t / 5) + r` of the logits. -/
theorem blk_rows (c : Dev nD) (hX : ∀ i : S8192x32000.Idx, ∃ r : ℝ, (xarr V c : S8192x32000.Idx → EReal) i = (r : EReal))
    (t : Fin cfg0.N) (r : Fin 512) (k : ℕ) (hk : k < 5) (q : Fin 1280) :
    (xblk V c t : S512x6400.Idx → EReal) (ix2 r (⟨1280 * k + q.val, by omega⟩ : Fin 6400))
      = ((xrow (xarr V c) (512 * (t.val / 5) + r.val) (5 * (t.val % 5) + k) q : ℝ) : EReal) := by
  have hN := lt_N0 t
  rw [xblk_apply]
  unfold xrow
  rw [dif_pos ⟨by omega, by omega⟩, coe_toReal_of (xarr V c) hX]
  congr 1
  funext a
  apply Fin.ext
  match a with
  | ⟨0, _⟩ => rfl
  | ⟨1, _⟩ => show 6400 * (t.val % 5) + (1280 * k + q.val) = 1280 * (5 * (t.val % 5) + k) + q.val; omega

/-- One point: from the state the point before left (none needed at a row block's first point) to this point's. -/
theorem carried_step (c : Dev nD) (hX : ∀ i : S8192x32000.Idx, ∃ r : ℝ, (xarr V c : S8192x32000.Idx → EReal) i = (r : EReal))
    (t : Fin cfg0.N) (r : Fin 512)
    (ih : ¬t.val % 5 = 0 → Online.Inv (xrow (xarr V c) (512 * (t.val / 5) + r.val)) (5 * (t.val % 5))
      ((prevM V c t : S512x1.Idx → EReal) (ix2 r (0 : Fin 1))) ((prevL V c t : S512x1.Idx → EReal) (ix2 r (0 : Fin 1)))) :
    Online.Inv (xrow (xarr V c) (512 * (t.val / 5) + r.val)) (5 * (t.val % 5) + 5)
      (((outsAt0 V c t.val t.isLt).2.1 : S512x1.Idx → EReal) (ix2 r (0 : Fin 1)))
      (((outsAt0 V c t.val t.isLt).2.2 : S512x1.Idx → EReal) (ix2 r (0 : Fin 1))) := by
  by_cases h0 : t.val % 5 = 0
  · obtain ⟨eM, eL⟩ := carried_first V c t h0
    rw [eM, eL]
    refine point_inv _ (5 * (t.val % 5)) (xblk V c t) resetM resetL r ?_ (blk_rows V c hX t r)
    rw [resetM_apply, resetL_apply, show 5 * (t.val % 5) = 0 by omega]
    exact Online.inv_zero _
  · obtain ⟨eM, eL⟩ := carried_later V c t h0
    rw [eM, eL]
    exact point_inv _ (5 * (t.val % 5)) (xblk V c t) (prevM V c t) (prevL V c t) r (ih h0) (blk_rows V c hX t r)

/-- After point `n` the two columns hold, in row `r`, the state of row `512 (n / 5) + r` after `5 (n % 5) + 5` chunks. -/
theorem carried_inv (c : Dev nD) (hX : ∀ i : S8192x32000.Idx, ∃ r : ℝ, (xarr V c : S8192x32000.Idx → EReal) i = (r : EReal)) :
    ∀ (n : ℕ) (hn : n < cfg0.N) (r : Fin 512),
      Online.Inv (xrow (xarr V c) (512 * (n / 5) + r.val)) (5 * (n % 5) + 5)
        (((outsAt0 V c n hn).2.1 : S512x1.Idx → EReal) (ix2 r (0 : Fin 1)))
        (((outsAt0 V c n hn).2.2 : S512x1.Idx → EReal) (ix2 r (0 : Fin 1)))
  | 0, hn, r => carried_step V c hX ⟨0, hn⟩ r fun h => absurd (Nat.zero_mod 5) h
  | n + 1, hn, r => by
    refine carried_step V c hX ⟨n + 1, hn⟩ r fun h => ?_
    have ih := carried_inv c hX n (Nat.lt_of_succ_lt hn) r
    have h' : ¬(n + 1) % 5 = 0 := h
    have e1 : (n + 1) / 5 = n / 5 := by omega
    have e2 : 5 * ((n + 1) % 5) = 5 * (n % 5) + 5 := by omega
    show Online.Inv (xrow (xarr V c) (512 * ((n + 1) / 5) + r.val)) (5 * ((n + 1) % 5))
      (((outsAt0 V c n (Nat.lt_of_succ_lt hn)).2.1 : S512x1.Idx → EReal) (ix2 r (0 : Fin 1)))
      (((outsAt0 V c n (Nat.lt_of_succ_lt hn)).2.2 : S512x1.Idx → EReal) (ix2 r (0 : Fin 1)))
    rw [e1, e2]
    exact ih

end AtIdeal

end Cert.KernelIdeal.Fr.R0

end
-- ==== Proof.KiR0Value.lean ====
/-
  The first region's result. At a row block's last point the stored block is, row by row, the final shift plus the
  logarithm of the final sum: after all 25 chunks of a row that is the logarithm of the sum of the row's 32000
  exponentials. The output window is written back at those points only, each writing its row block's 512 rows; row `n`
  of the array is covered by point `5 (n / 512) + 4`. So the array ends holding every row's log-sum-exp.
-/
import proofs.«406017_j9732395892833_3_alg».proof.Proof.KiR0Frame
import proofs.«406017_j9732395892833_3_alg».proof.Proof.KiR0ValueB
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-- Row `n`'s log-sum-exp over the reals. -/
def lseRow (x : S8192x32000.Idx → EReal) (n : Fin 8192) : ℝ :=
  Real.log (∑ j : Fin 32000, Real.exp (x (ix2 n j)).toReal)

namespace R0

/-- The row's 25 chunks of 1280 exponentials, summed chunk by chunk, are the row's 32000 exponentials summed. -/
theorem row_sum (X : S8192x32000.Idx → EReal) (n : Fin 8192) :
    ∑ cc ∈ Finset.range 25, ∑ q : Fin 1280, Real.exp (xrow X n.val cc q) = ∑ j : Fin 32000, Real.exp (X (ix2 n j)).toReal := by
  refine Online.sum_chunks (a := 25) (b := 1280) (fun j => Real.exp (X (ix2 n j)).toReal) (fun cc q => Real.exp (xrow X n.val cc q)) ?_
  intro cc q
  show Real.exp (xrow X n.val cc.val q) = Real.exp (X (ix2 n (Cert.LibTileSum.pos cc q))).toReal
  unfold xrow
  rw [dif_pos ⟨n.isLt, by have := cc.isLt; have := q.isLt; omega⟩]
  rfl

section AtIdeal
variable (V : (c : Dev nD) → (b : Ref sig .tc) → Buf (Elt Ideal) ((c : Thread nD τ).loc b))

/-- What a row block's last point stores, row by row: the log-sum-exp of the logits' row. -/
theorem stored_apply (c : Dev nD) (hX : ∀ i : S8192x32000.Idx, ∃ r : ℝ, (xarr V c : S8192x32000.Idx → EReal) i = (r : EReal))
    (t : Fin cfg0.N) (h1 : t.val % 5 = 4) (r : Fin 512) :
    ((outsAt0 V c t.val t.isLt).1 : S512x1.Idx → EReal) (ix2 r (0 : Fin 1))
      = ((lseRow (xarr V c) (⟨512 * (t.val / 5) + r.val, by have := lt_N0 t; omega⟩ : Fin 8192) : ℝ) : EReal) := by
  have h0 : ¬t.val % 5 = 0 := by omega
  have hI := carried_inv V c hX t.val t.isLt r
  obtain ⟨eM, eL⟩ := carried_later V c t h0
  rw [eM, eL, show 5 * (t.val % 5) + 5 = 24 + 1 by omega] at hI
  rw [stored_last V c t h1]
  refine (Online.inv_result _ 24 _ _ hI).trans ?_
  unfold lseRow
  exact congrArg (fun z : ℝ => ((Real.log z : ℝ) : EReal)) (row_sum (xarr V c) (⟨512 * (t.val / 5) + r.val, by have := lt_N0 t; omega⟩ : Fin 8192))

/-- The output window's block indices, decided over the grid: row block `t / 5`, the one column block. -/
theorem idx_facts_out : ∀ t : Fin cfg0.N, win0_1.index t (0 : Fin 2) = t.val / 5 ∧ win0_1.index t (1 : Fin 2) = 0 :=
  (by decide +kernel : ∀ t : Fin grid0.N, _)

/-- The array the region's output ends as: each row's log-sum-exp. -/
abbrev lseArr (c : Dev nD) : S8192x1.Idx → EReal :=
  fun y => ((lseRow (xarr V c) ⟨(y 0).val, ValueIdx.idx2_lt0 y⟩ : ℝ) : EReal)

/-- What a row block's last point writes back is its block of that array. -/
theorem flushed_eq (c : Dev nD) (hX : ∀ i : S8192x32000.Idx, ∃ r : ℝ, (xarr V c : S8192x32000.Idx → EReal) i = (r : EReal))
    (t : Fin cfg0.N) (hf : (cfg0.win 1).flush t = true) :
    (dat0 V c).flushed 1 t = ((cfg0.win 1).blk t).view.read (Elt Ideal) (lseArr V c) := by
  have h1 : t.val % 5 = 4 := (flush0_1 t).mp hf
  have hN := lt_N0 t
  obtain ⟨e0, -⟩ := idx_facts_out t
  show (cfg0.win 1).cut (grid0.coords t) ((dat0 V c).after 1 t) = _
  rw [after0_1]
  have key : ((outsAt0 V c t.val t.isLt).1 : S512x1.Idx → EReal)
      = fun y => ((lseRow (xarr V c) (⟨512 * (t.val / 5) + (y 0).val, by have := ValueIdx.idx2_lt0 y; omega⟩ : Fin 8192) : ℝ) : EReal) := by
    funext y
    obtain ⟨r, u, rfl⟩ : ∃ (r : Fin 512) (u : Fin 1), y = ix2 r u := ⟨y 0, y 1, eq_ix2 y⟩
    obtain rfl : u = 0 := Subsingleton.elim _ _
    exact stored_apply V c hX t h1 r
  rw [key]
  funext j
  show ((lseRow (xarr V c) (⟨512 * (t.val / 5) + (j 0).val, _⟩ : Fin 8192) : ℝ) : EReal)
    = ((lseRow (xarr V c) (⟨((((cfg0.win 1).blk t).view.emb j) 0).val, _⟩ : Fin 8192) : ℝ) : EReal)
  congr 3
  show 512 * (t.val / 5) + (j 0).val = win0_1.index t (0 : Fin 2) * 512 + 1 * (j 0).val
  rw [e0]; omega

/-- An index of the output array is in point `t`'s block iff each coordinate is in the block's range on its axis. -/
theorem mem_blk_out (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Row `n` of the output is written back by the last point of its row block, point `5 (n / 512) + 4`. -/
theorem covered (i : S8192x1.Idx) : ∃ t : Fin cfg0.N, (cfg0.win 1).flush t = true ∧ i ∈ ((cfg0.win 1).blk t).view.set := by
  have hi0 : (i 0).val < 8192 := ValueIdx.idx2_lt0 i
  have hi1 : (i 1).val < 1 := ValueIdx.idx2_lt1 i
  have hN : cfg0.N = 80 := N_0
  refine ⟨⟨5 * ((i 0).val / 512) + 4, by rw [hN]; omega⟩, (flush0_1 _).mpr (by show (5 * ((i 0).val / 512) + 4) % 5 = 4; omega), ?_⟩
  rw [mem_blk_out]
  obtain ⟨e0, e1⟩ := idx_facts_out ⟨5 * ((i 0).val / 512) + 4, by rw [hN]; omega⟩
  intro a
  match a with
  | ⟨0, _⟩ =>
    show win0_1.index _ (0 : Fin 2) * 512 ≤ (i 0).val ∧ (i 0).val < win0_1.index _ (0 : Fin 2) * 512 + 512
    rw [e0]
    show (5 * ((i 0).val / 512) + 4) / 5 * 512 ≤ (i 0).val ∧ (i 0).val < (5 * ((i 0).val / 512) + 4) / 5 * 512 + 512
    omega
  | ⟨1, _⟩ =>
    show win0_1.index _ (1 : Fin 2) * 1 ≤ (i 1).val ∧ (i 1).val < win0_1.index _ (1 : Fin 2) * 1 + 1
    rw [e1]
    omega

end AtIdeal

end R0

/-- The output array after the region: every row's log-sum-exp. -/
theorem arrAt_main_v0 (V : (c : Dev nD) → (b : Ref sig .tc) → Buf (Elt Ideal) ((c : Thread nD τ).loc b)) (c : Dev nD)
    (hX : ∀ i : S8192x32000.Idx, ∃ r : ℝ, (V c main_arg0 : S8192x32000.Idx → EReal) i = (r : EReal)) :
    ((dat0 (F := Ideal) V c).arrAt 1 cfg0.N : S8192x1.Idx → EReal)
      = fun y => ((lseRow (V c main_arg0) ⟨(y 0).val, ValueIdx.idx2_lt0 y⟩ : ℝ) : EReal) :=
  (dat0 V c).arrAt_eq_of_cover 1 (R0.lseArr V c) (fun t hf => R0.flushed_eq V c hX t hf) R0.covered

end Cert.KernelIdeal.Fr

end
-- ==== Proof.KiHost.lean ====
/-
  What the host operations of the kernel's program compute, stretch by stretch, as functions of the buffers they read.
  The targets spread into a column; each row's target logit taken out of the logits (negative targets wrapped, the result
  kept only where the wrapped target is a valid column and set to the not-a-number word elsewhere); the per-row difference
  between the first region's column and that column, its sum and its quotient by 8192; the squared norms of the prototypes
  as a row; after the second region the sum of its column and its quotient by 8192, and the total 1.0 · first + 0.001 · second.
-/
import proofs.«406017_j9732395892833_3_alg».proof.Proof.KiRun

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

/-- Each row's element taken out of a two-dimensional operand `x` at the column its index `i` names (a column of 8192
    indices): the index wrapped when negative, the element gathered, kept where the wrapped index is in [0, 31999] and
    replaced by the not-a-number word elsewhere. -/
def takeK (x : FVec F S8192x32000 .f32) (i : IVec S8192x1 32) : FVec F S8192x1 .f32 :=
  select (Host.reduce IntOp.andi (andi (cmpi .sge (shapeCast _ (select (cmpi .slt i (broadcastInDim S8192x1 ![] bcast_S_S8192x1 (constantI S_ 32 0#32))) (addi i (broadcastInDim S8192x1 ![] bcast_S_S8192x1 (constantI S_ 32 32000#32))) i) shapeCasts_S8192x1_S8192x1x1) (broadcastInDim S8192x1x1 ![] bcast_S_S8192x1x1 (constantI S_ 32 0#32))) (cmpi .sle (shapeCast _ (select (cmpi .slt i (broadcastInDim S8192x1 ![] bcast_S_S8192x1 (constantI S_ 32 0#32))) (addi i (broadcastInDim S8192x1 ![] bcast_S_S8192x1 (constantI S_ 32 32000#32))) i) shapeCasts_S8192x1_S8192x1x1) (broadcastInDim S8192x1x1 ![0, 1, 2] bcast_S1x1x1_S8192x1x1_0_1_2 (broadcastInDim S1x1x1 ![2] bcast_S1_S1x1x1_2 (constantI S1 32 31999#32))))) (constantI S_ 1 1#1) reducesTo_S8192x1x1_S8192x1_d2 h_S_)
    (Host.gather gather_S8192x32000_S8192x1x1_S8192x1_n_1_0_0_1_2_11 x (shapeCast _ (select (cmpi .slt i (broadcastInDim S8192x1 ![] bcast_S_S8192x1 (constantI S_ 32 0#32))) (addi i (broadcastInDim S8192x1 ![] bcast_S_S8192x1 (constantI S_ 32 32000#32))) i) shapeCasts_S8192x1_S8192x1x1))
    (broadcastInDim S8192x1 ![] bcast_S_S8192x1 (constant S_ .f32 0x7FC00000#32))

/-! ## Before the second region -/

/-- The targets as a column. -/
theorem W2_main_v1 (c : Dev nD) :
    W2 m c (Proc.devRef .tc main_v1) = broadcastInDim S8192x1 ![0] bcast_S8192_S8192x1_0 (m ((c : Thread nD τ).loc main_arg3)) := by
  show StableHlo.after hostOps1 (W1 m c) (Proc.devRef .tc main_v1) = _
  after_results
  rw [W1_of_ne m c main_arg3 (by decide)]

/-- The logits are still the launch's when the targets' logits are taken. -/
theorem W2_main_arg0 (c : Dev nD) : W2 m c (Proc.devRef .tc main_arg0) = m ((c : Thread nD τ).loc main_arg0) :=
  (W2_of m c main_arg0 (by decide)).trans ((W1_arr m c 0).trans (((dat0 (VE0 m) c).arrAt_in 0 rfl _).trans (A_eq0 (VE0 m) c 0)))

set_option maxHeartbeats 4000000 in
/-- Each row's target logit. -/
theorem W3_main_v2 (c : Dev nD) :
    W3 m c (Proc.devRef .tc main_v2) = takeK (W2 m c (Proc.devRef .tc main_arg0)) (W2 m c (Proc.devRef .tc main_v1)) := by
  show StableHlo.after hostOps1_1 (W2 m c) (Proc.devRef .tc main_v2) = _
  after_results_simp
  rfl

/-- The first region's column is untouched by the two stretches after it. -/
theorem W3_main_v0 (c : Dev nD) : W3 m c (Proc.devRef .tc main_v0) = (dat0 (VE0 m) c).arrAt 1 cfg0.N :=
  (W3_of m c main_v0 (by decide)).trans ((W2_of m c main_v0 (by decide)).trans (W1_arr m c 1))

set_option maxHeartbeats 4000000 in
/-- The first loss: the mean over the rows of (first region's column − target logit). -/
theorem W4_main_v5 (c : Dev nD) :
    W4 m c (Proc.devRef .tc main_v5)
      = Host.divf (Host.reduceAdd (subf (W3 m c (Proc.devRef .tc main_v0)) (W3 m c (Proc.devRef .tc main_v2))) (constant S_ .f32 0x00000000#32) reducesTo_S8192x1_S_d0_1 h_S_) (constant S_ .f32 0x46000000#32) := by
  show StableHlo.after hostOps1_2 (W3 m c) (Proc.devRef .tc main_v5) = _
  after_results_simp

set_option maxHeartbeats 4000000 in
/-- The squared norms of the prototypes, as a row. -/
theorem W4_main_v8 (c : Dev nD) :
    W4 m c (Proc.devRef .tc main_v8)
      = broadcastInDim S1x1024 ![1] bcast_S1024_S1x1024_1 (Host.reduceAdd (mulf (W3 m c (Proc.devRef .tc main_arg1)) (W3 m c (Proc.devRef .tc main_arg1))) (constant S_ .f32 0x00000000#32) reducesTo_S1024x256_S1024_d1 h_S_) := by
  show StableHlo.after hostOps1_2 (W3 m c) (Proc.devRef .tc main_v8) = _
  after_results_simp

/-- The prototypes are still the launch's there. -/
theorem W3_main_arg1 (c : Dev nD) : W3 m c (Proc.devRef .tc main_arg1) = m ((c : Thread nD τ).loc main_arg1) :=
  (W3_of m c main_arg1 (by decide)).trans ((W2_of m c main_arg1 (by decide)).trans ((W1_of_ne m c main_arg1 (by decide)).trans rfl))

/-! ## After the second region -/

/-- The first loss rides through the second region and the last stretch. -/
theorem W6_main_v5 (c : Dev nD) : W6 m c (Proc.devRef .tc main_v5) = W4 m c (Proc.devRef .tc main_v5) :=
  (W6_of m c main_v5 (by decide)).trans (W5_of_ne m c main_v5 (by decide))

set_option maxHeartbeats 4000000 in
/-- The second loss: the mean of the second region's column. -/
theorem W6_main_v11 (c : Dev nD) :
    W6 m c (Proc.devRef .tc main_v11)
      = Host.divf (Host.reduceAdd (W5 m c (Proc.devRef .tc main_v9)) (constant S_ .f32 0x00000000#32) reducesTo_S8192x1_S_d0_1 h_S_) (constant S_ .f32 0x46000000#32) := by
  show StableHlo.after hostOps2 (W5 m c) (Proc.devRef .tc main_v11) = _
  after_results_simp

set_option maxHeartbeats 4000000 in
/-- The total: 1.0 · first loss + 0.001 · second loss. -/
theorem W6_main_v14 (c : Dev nD) :
    W6 m c (Proc.devRef .tc main_v14)
      = addf (mulf (constant S_ .f32 0x3F800000#32) (W5 m c (Proc.devRef .tc main_v5)))
          (mulf (constant S_ .f32 0x3A83126F#32) (Host.divf (Host.reduceAdd (W5 m c (Proc.devRef .tc main_v9)) (constant S_ .f32 0x00000000#32) reducesTo_S8192x1_S_d0_1 h_S_) (constant S_ .f32 0x46000000#32))) := by
  show StableHlo.after hostOps2 (W5 m c) (Proc.devRef .tc main_v14) = _
  after_results_simp

/-- The second region's column. -/
theorem W5_main_v9 (c : Dev nD) : W5 m c (Proc.devRef .tc main_v9) = (dat1 (VE4 m) c).arrAt 3 cfg1.N := W5_arr m c 3

/-- What the second region finds in its three input arrays. -/
theorem VE4_main_arg2 (c : Dev nD) : VE4 m c main_arg2 = m ((c : Thread nD τ).loc main_arg2) :=
  W4_launch m c main_arg2 (by decide) (by decide) (by decide) (by decide)
theorem VE4_main_arg1 (c : Dev nD) : VE4 m c main_arg1 = m ((c : Thread nD τ).loc main_arg1) :=
  W4_launch m c main_arg1 (by decide) (by decide) (by decide) (by decide)

end Cert.KernelIdeal.Fr

end
-- ==== Proof.KiCe.lean ====
/-
  The kernel's first loss, read at the extended reals: the sum over all 8192 rows, from zero, of (the first region's
  column − the column of target logits), divided by the word of 8192.0.
-/
import proofs.«406017_j9732395892833_3_alg».proof.Proof.KiHost
import Idealize.ShloMosaic.PureOps.Ideal.Laws
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- A host sum over every axis of a column, at the extended reals: the initial value plus the sum of all entries. -/
theorem reduceAdd_col_apply (y0 : FVec Ideal S8192x1 .f32) (z : FVec Ideal S_ .f32) (i : S_.Idx) :
    Host.reduceAdd y0 z reducesTo_S8192x1_S_d0_1 h_S_ i = z (Shape.Idx.first h_S_) + ∑ j : S8192x1.Idx, y0 j := by
  simp only [Host.reduceAdd, Ideal.hostReduceAdd_def]
  exact Ideal.hostReduceAdd_total reducesTo_S8192x1_S_d0_1 (fun b => b.elim0) y0 _ i

/-- The first region's output column and the second region's, each as a function on the literal shape [8192, 1]. -/
abbrev lseCol (c : Dev nD) : FVec Ideal S8192x1 .f32 := (dat0 (F := Ideal) (VE0 m) c).arrAt 1 cfg0.N
abbrev protoCol (c : Dev nD) : FVec Ideal S8192x1 .f32 := (dat1 (F := Ideal) (VE4 m) c).arrAt 3 cfg1.N
/-- The column of target logits: each row's entry of the logits at its target, or the fill word. -/
abbrev tgtCol (c : Dev nD) : FVec Ideal S8192x1 .f32 :=
  takeK (F := Ideal) (m ((c : Thread nD τ).loc main_arg0)) (broadcastInDim S8192x1 ![0] bcast_S8192_S8192x1_0 (m ((c : Thread nD τ).loc main_arg3)))

/-- The first loss as the kernel's program leaves it. -/
theorem ce_kernel_apply (c : Dev nD) (i : S_.Idx) :
    (W6 (F := Ideal) m c (Proc.devRef .tc main_v5) : FVec Ideal S_ .f32) i
      = Ideal.div (0 + ∑ y : S8192x1.Idx, (lseCol m c y - tgtCol m c y)) (Ideal.ofBits .f32 0x46000000#32) := by
  rw [W6_main_v5, W4_main_v5, W3_main_v0, W3_main_v2, W2_main_arg0, W2_main_v1]
  show FloatOps.hostDivf (Host.reduceAdd (subf _ _) (constant (F := Ideal) S_ .f32 0x00000000#32) reducesTo_S8192x1_S_d0_1 h_S_ i) (constant (F := Ideal) S_ .f32 0x46000000#32 i) = _
  rw [reduceAdd_col_apply]
  simp only [constant_apply, Ideal.ofBits_zero_f32, Ideal.hostDivf_def, subf_apply]

/-- The second loss as the kernel's program leaves it: the sum of the second region's column from zero, divided by the
    word of 8192.0. -/
theorem proto_kernel_apply (c : Dev nD) (i : S_.Idx) :
    (W6 (F := Ideal) m c (Proc.devRef .tc main_v11) : FVec Ideal S_ .f32) i
      = Ideal.div (0 + ∑ y : S8192x1.Idx, protoCol m c y) (Ideal.ofBits .f32 0x46000000#32) := by
  rw [W6_main_v11, W5_main_v9]
  show FloatOps.hostDivf (Host.reduceAdd _ (constant (F := Ideal) S_ .f32 0x00000000#32) reducesTo_S8192x1_S_d0_1 h_S_ i) (constant (F := Ideal) S_ .f32 0x46000000#32 i) = _
  rw [reduceAdd_col_apply]
  simp only [constant_apply, Ideal.ofBits_zero_f32, Ideal.hostDivf_def]

/-- The total as the kernel's program leaves it, from the two losses. -/
theorem total_kernel_apply (c : Dev nD) (i : S_.Idx) :
    (W6 (F := Ideal) m c (Proc.devRef .tc main_v14) : FVec Ideal S_ .f32) i
      = Ideal.ofBits .f32 0x3F800000#32 * (W6 (F := Ideal) m c (Proc.devRef .tc main_v5) : FVec Ideal S_ .f32) i
        + Ideal.ofBits .f32 0x3A83126F#32 * (W6 (F := Ideal) m c (Proc.devRef .tc main_v11) : FVec Ideal S_ .f32) i := by
  rw [W6_main_v14, W6_main_v11, W6_main_v5]
  rw [show W5 m c (Proc.devRef .tc main_v5) = W4 m c (Proc.devRef .tc main_v5) from W5_of_ne m c main_v5 (by decide)]
  rfl

end Cert.KernelIdeal.Fr

end
-- ==== Proof.LibGatherAlong.lean ====
/-
  Two general facts used by a mean of per-row picked entries.

  (1) A PER-ROW ELEMENT GATHER READS ITS OWN ROW. jnp's take_along_axis(x, idx[:, None], axis=-1) on a matrix
  x : [R, C] is a stablehlo.gather whose operand axis 0 is a batching axis paired with axis 0 of the start indices
  [R, 1, 1], whose operand axis 1 is collapsed and start-indexed, with no offset axes, the index vector on axis 2 and
  unit slices; the result is the column [R, 1]. Result entry (n, 0) is the operand's entry (n, j) where j is the start
  index idx[n, 0, 0] read as a signed integer and clamped into [0, C - 1]: the row is the result's own row, the column
  depends on the indices alone.

  (2) THE SUM OF NEGATED TERMS. On the extended reals -(x + y) = -x + -y fails only at ⊤ + ⊥; a finite family none of
  whose terms is ⊤ never meets that corner, so the sum of the negations is the negation of the sum, and with it the mean
  (the sum divided by a positive real) of negated rows is the negated mean.
-/
import Idealize.ShloMosaic.Lib.ValueIdx
import Idealize.ShloMosaic.PureOps.Ideal
import Mathlib.Data.EReal.Operations
import Mathlib.Algebra.BigOperators.Group.Finset.Basic

namespace Cert.LibGatherAlong

open Idealize.ShloMosaic Idealize.ShloMosaic.ValueIdx
open scoped BigOperators

/-! ## The per-row gather -/

section Gather

variable {R C w : ℕ}

/-- The operand index a per-row element gather reads for result entry (n, 0) lies in operand row n: axis 0 is a
    batching axis (no start, no offset there), and its batching coordinate is the result's coordinate on its first
    batch axis, which is n. -/
theorem operandIdx_row (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (idx : IVec ⟨3, ![R, 1, 1]⟩ w) (n : Fin R) :
    (d.operandIdx (ix2 n (0 : Fin 1)) idx 0).val = n.val := by
  cases d with
  | mk od cd ob sb sm iv ss wf =>
    dsimp only at hoff hcoll hob hsb hsim hivd
    subst hoff hcoll hob hsb hsim hivd
    show GatherDims.start _ _ idx 0 + GatherDims.batchCoord _ _ 0 + GatherDims.offCoord _ _ 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl

/-- The start-indices entry result row n reads: idx[n, 0, 0]. -/
abbrev rowIdx (n : Fin R) : (⟨3, ![R, 1, 1]⟩ : Shape).Idx := ix3 n (0 : Fin 1) (0 : Fin 1)

/-- The operand index a per-row element gather reads for result entry (n, 0) has, as its column, the start index
    idx[n, 0, 0] read signed and clamped into [0, C - 1]: axis 1 is collapsed (unit slice, no offset), not batching,
    and the one axis the start index map names. -/
theorem operandIdx_col (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (idx : IVec ⟨3, ![R, 1, 1]⟩ w) (n : Fin R) :
    (d.operandIdx (ix2 n (0 : Fin 1)) idx 1).val = min (idx (rowIdx n)).toInt.toNat (C - 1) := by
  have hsl : d.sliceSizes 1 = 1 := d.slice_collapsed 1 (by rw [hcoll]; exact List.mem_singleton.mpr rfl)
  cases d with
  | mk od cd ob sb sm iv ss wf =>
    dsimp only at hoff hcoll hob hsb hsim hivd hsl
    subst hoff hcoll hob hsb hsim hivd
    show GatherDims.start _ _ idx 1 + GatherDims.batchCoord _ _ 1 + GatherDims.offCoord _ _ 1 = _
    rw [GatherDims.batchCoord_eq_zero _ _ _ (show (1 : Fin 2) ∉ [0] by decide),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (C - ss 1) = _
    rw [hsl]
    congr 3
    congr 1
    funext b
    refine Fin.ext ?_
    match b with
    | ⟨0, _⟩ => rfl
    | ⟨1, _⟩ => rfl
    | ⟨2, _⟩ => rfl

/-- THE PER-ROW GATHER READS ITS OWN ROW: result entry (n, 0) is the operand's entry (n, j) for a column j that the
    start indices alone decide. The field equalities are the printed dimension numbers, each by rfl. -/
theorem gather_along_row (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (idx : IVec ⟨3, ![R, 1, 1]⟩ w) (n : Fin R) :
    ∃ j : Fin C, ∀ {α : Type} (x : (⟨2, ![R, C]⟩ : Shape).Idx → α),
      Host.gather d x idx (ix2 n (0 : Fin 1)) = x (ix2 n j) := by
  refine ⟨d.operandIdx (ix2 n (0 : Fin 1)) idx 1, fun {α} x => ?_⟩
  unfold Host.gather
  congr 1
  funext a
  match a with
  | ⟨0, _⟩ => exact Fin.ext (operandIdx_row d hoff hcoll hob hsb hsim hivd idx n)
  | ⟨1, _⟩ => rfl

/-- The per-row gather with its column named: result entry (n, 0) is the operand's entry in row n at the start index
    idx[n, 0, 0] read signed and clamped into [0, C - 1] (a negative index reads column 0, one past the end the last). -/
theorem gather_along_apply {α : Type} (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (hC : 0 < C) (x : (⟨2, ![R, C]⟩ : Shape).Idx → α) (idx : IVec ⟨3, ![R, 1, 1]⟩ w) (n : Fin R) :
    Host.gather d x idx (ix2 n (0 : Fin 1)) = x (ix2 n ⟨min (idx (rowIdx n)).toInt.toNat (C - 1), by omega⟩) := by
  unfold Host.gather
  congr 1
  funext a
  match a with
  | ⟨0, _⟩ => exact Fin.ext (operandIdx_row d hoff hcoll hob hsb hsim hivd idx n)
  | ⟨1, _⟩ => exact Fin.ext (operandIdx_col d hoff hcoll hob hsb hsim hivd idx n)

end Gather

/-! ## The sum and the mean of negated terms -/

section NegSum

/-- A finite sum of extended reals none of which is ⊤ is not ⊤. -/
theorem sum_ne_top {ι : Type*} (s : Finset ι) (b : ι → EReal) (hb : ∀ n ∈ s, b n ≠ ⊤) : ∑ n ∈ s, b n ≠ ⊤ := by
  classical
  induction s using Finset.induction_on with
  | empty => simp
  | insert a s ha ih =>
    rw [Finset.sum_insert ha]
    exact EReal.add_ne_top (hb a (Finset.mem_insert_self a s)) (ih fun n hn => hb n (Finset.mem_insert_of_mem hn))

/-- The sum of the negations is the negation of the sum, for terms none of which is ⊤: each partial sum is not ⊤,
    so -(x + y) = -x + -y applies at every step. -/
theorem neg_sum_of_ne_top {ι : Type*} (s : Finset ι) (b : ι → EReal) (hb : ∀ n ∈ s, b n ≠ ⊤) :
    ∑ n ∈ s, -(b n) = -(∑ n ∈ s, b n) := by
  classical
  induction s using Finset.induction_on with
  | empty => simp
  | insert a s ha ih =>
    have hs : ∀ n ∈ s, b n ≠ ⊤ := fun n hn => hb n (Finset.mem_insert_of_mem hn)
    rw [Finset.sum_insert ha, Finset.sum_insert ha, ih hs,
      EReal.neg_add (Or.inr (sum_ne_top s b hs)) (Or.inl (hb a (Finset.mem_insert_self a s))), sub_eq_add_neg]

/-- The mean (the sum from 0, divided by a positive real) of rows that are the negations of rows none of which is ⊤
    is the negated mean of those rows. -/
theorem mean_neg_rows {N : ℕ} (a b : Fin N → EReal) (hrow : ∀ n, a n = -(b n)) (hb : ∀ n, b n ≠ ⊤) (c : ℝ) (hc : 0 < c) :
    Ideal.div (0 + ∑ n, a n) (c : EReal) = -(Ideal.div (0 + ∑ n, b n) (c : EReal)) := by
  have hsum : ∑ n, a n = -(∑ n, b n) := by
    rw [← neg_sum_of_ne_top Finset.univ b fun n _ => hb n]
    exact Finset.sum_congr rfl fun n _ => hrow n
  rw [Ideal.div_coe hc.ne', Ideal.div_coe hc.ne', hsum, zero_add, zero_add, EReal.neg_mul]

end NegSum

end Cert.LibGatherAlong
-- ==== Proof.LibTakeAlong.lean ====
/-
  THE PER-ROW TAKE WITH A FILL. jnp's take_along_axis(x, idx[:, None], axis=-1) in mode "fill", on a matrix x : [R, C]
  and a column of 32-bit indices i : [R, 1], is one chain of host operations:
    the index wrapped where negative (i + C where i < 0, else i), as a column [R, 1];
    that column reshaped to the start indices [R, 1, 1];
    the mask "0 ≤ start index ≤ C - 1", an and-reduction over the index vector's axis, back to a column [R, 1] of bits;
    the per-row gather of x at the start indices;
    the gathered entry where the mask holds, the fill word (a not-a-number) elsewhere.
  The chain is stated once, for every float instance, with each side condition on the shapes an explicit hypothesis and
  the three literal words (the wrap C, the upper bound C - 1, the fill) explicit, so that a printed chain is an instance
  of it definitionally. Read at row n it either keeps the operand's entry in row n at some column, or yields the fill;
  which of the two, and which column, the indices alone decide.
-/
import Idealize.ShloMosaic.Lib.ValueIdx
import Idealize.ShloMosaic.PureOps.Ideal
import proofs.«406017_j9732395892833_3_alg».proof.Proof.LibGatherAlong

namespace Cert.LibTakeAlong

open Idealize.ShloMosaic Idealize.ShloMosaic.ValueIdx
open Cert.LibGatherAlong

section Chain

variable {R C : ℕ}

/-- The index column with its negative entries wrapped: i + wrapw where i < 0 (signed), else i. -/
def wrapIdx (hb0 : (⟨0, ![]⟩ : Shape).BroadcastsInDim ⟨2, ![R, 1]⟩ (![] : Fin 0 → Fin 2)) (wrapw : BitVec 32)
    (i : IVec ⟨2, ![R, 1]⟩ 32) : IVec ⟨2, ![R, 1]⟩ 32 :=
  select (cmpi .slt i (broadcastInDim ⟨2, ![R, 1]⟩ ![] hb0 (constantI ⟨0, ![]⟩ 32 0#32)))
    (addi i (broadcastInDim ⟨2, ![R, 1]⟩ ![] hb0 (constantI ⟨0, ![]⟩ 32 wrapw))) i

/-- The gather's start indices: the wrapped column reshaped to [R, 1, 1]. -/
def startIdx (hb0 : (⟨0, ![]⟩ : Shape).BroadcastsInDim ⟨2, ![R, 1]⟩ (![] : Fin 0 → Fin 2))
    (hsc : (⟨2, ![R, 1]⟩ : Shape).ShapeCasts ⟨3, ![R, 1, 1]⟩) (wrapw : BitVec 32)
    (i : IVec ⟨2, ![R, 1]⟩ 32) : IVec ⟨3, ![R, 1, 1]⟩ 32 :=
  shapeCast _ (wrapIdx hb0 wrapw i) hsc

/-- The mask column: the bit "0 ≤ start index ≤ hiw" (signed), and-reduced over the index vector's axis. -/
def inRange (hb0 : (⟨0, ![]⟩ : Shape).BroadcastsInDim ⟨2, ![R, 1]⟩ (![] : Fin 0 → Fin 2))
    (hsc : (⟨2, ![R, 1]⟩ : Shape).ShapeCasts ⟨3, ![R, 1, 1]⟩)
    (hb3 : (⟨0, ![]⟩ : Shape).BroadcastsInDim ⟨3, ![R, 1, 1]⟩ (![] : Fin 0 → Fin 3))
    (hb1 : (⟨1, ![1]⟩ : Shape).BroadcastsInDim ⟨3, ![1, 1, 1]⟩ (![2] : Fin 1 → Fin 3))
    (hb111 : (⟨3, ![1, 1, 1]⟩ : Shape).BroadcastsInDim ⟨3, ![R, 1, 1]⟩ (![0, 1, 2] : Fin 3 → Fin 3))
    (hred : (⟨3, ![R, 1, 1]⟩ : Shape).ReducesTo [2] ⟨2, ![R, 1]⟩) (hS : 0 < (⟨0, ![]⟩ : Shape).numel)
    (wrapw hiw : BitVec 32) (i : IVec ⟨2, ![R, 1]⟩ 32) : IVec ⟨2, ![R, 1]⟩ 1 :=
  Host.reduce IntOp.andi
    (andi
      (cmpi .sge (startIdx hb0 hsc wrapw i) (broadcastInDim ⟨3, ![R, 1, 1]⟩ ![] hb3 (constantI ⟨0, ![]⟩ 32 0#32)))
      (cmpi .sle (startIdx hb0 hsc wrapw i)
        (broadcastInDim ⟨3, ![R, 1, 1]⟩ ![0, 1, 2] hb111
          (broadcastInDim ⟨3, ![1, 1, 1]⟩ ![2] hb1 (constantI ⟨1, ![1]⟩ 32 hiw)))))
    (constantI ⟨0, ![]⟩ 1 1#1) hred hS

/-- THE CHAIN: the per-row gather of x at the wrapped indices where the mask holds, the fill word elsewhere. -/
def take {F : FTy → Type} [FloatOps F] (d : GatherDims ⟨2, ![R, C]⟩ ⟨3, ![R, 1, 1]⟩ ⟨2, ![R, 1]⟩)
    (hb0 : (⟨0, ![]⟩ : Shape).BroadcastsInDim ⟨2, ![R, 1]⟩ (![] : Fin 0 → Fin 2))
    (hsc : (⟨2, ![R, 1]⟩ : Shape).ShapeCasts ⟨3, ![R, 1, 1]⟩)
    (hb3 : (⟨0, ![]⟩ : Shape).BroadcastsInDim ⟨3, ![R, 1, 1]⟩ (![] : Fin 0 → Fin 3))
    (hb1 : (⟨1, ![1]⟩ : Shape).BroadcastsInDim ⟨3, ![1, 1, 1]⟩ (![2] : Fin 1 → Fin 3))
    (hb111 : (⟨3, ![1, 1, 1]⟩ : Shape).BroadcastsInDim ⟨3, ![R, 1, 1]⟩ (![0, 1, 2] : Fin 3 → Fin 3))
    (hred : (⟨3, ![R, 1, 1]⟩ : Shape).ReducesTo [2] ⟨2, ![R, 1]⟩) (hS : 0 < (⟨0, ![]⟩ : Shape).numel)
    (wrapw hiw nanw : BitVec 32) (x : FVec F ⟨2, ![R, C]⟩ .f32) (i : IVec ⟨2, ![R, 1]⟩ 32) :
    FVec F ⟨2, ![R, 1]⟩ .f32 :=
  select (inRange hb0 hsc hb3 hb1 hb111 hred hS wrapw hiw i)
    (Host.gather d x (startIdx hb0 hsc wrapw i))
    (broadcastInDim ⟨2, ![R, 1]⟩ ![] hb0 (constant ⟨0, ![]⟩ .f32 nanw))

end Chain

section Reading

variable {R C : ℕ}

/-- THE CHAIN AT A ROW, at the ideal instance: row n of the result is the operand's entry (n, j) or the fill word's
    value, and which of the two (keep) and which column (j) do not depend on the operand. The six field equalities are
    the gather's printed dimension numbers. -/
theorem take_apply (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (hb0 : (⟨0, ![]⟩ : Shape).BroadcastsInDim ⟨2, ![R, 1]⟩ (![] : Fin 0 → Fin 2))
    (hsc : (⟨2, ![R, 1]⟩ : Shape).ShapeCasts ⟨3, ![R, 1, 1]⟩)
    (hb3 : (⟨0, ![]⟩ : Shape).BroadcastsInDim ⟨3, ![R, 1, 1]⟩ (![] : Fin 0 → Fin 3))
    (hb1 : (⟨1, ![1]⟩ : Shape).BroadcastsInDim ⟨3, ![1, 1, 1]⟩ (![2] : Fin 1 → Fin 3))
    (hb111 : (⟨3, ![1, 1, 1]⟩ : Shape).BroadcastsInDim ⟨3, ![R, 1, 1]⟩ (![0, 1, 2] : Fin 3 → Fin 3))
    (hred : (⟨3, ![R, 1, 1]⟩ : Shape).ReducesTo [2] ⟨2, ![R, 1]⟩) (hS : 0 < (⟨0, ![]⟩ : Shape).numel)
    (wrapw hiw nanw : BitVec 32) (i : IVec ⟨2, ![R, 1]⟩ 32) (n : Fin R) :
    ∃ (keep : Bool) (j : Fin C), ∀ x : FVec Ideal ⟨2, ![R, C]⟩ .f32,
      take (F := Ideal) d hb0 hsc hb3 hb1 hb111 hred hS wrapw hiw nanw x i (ix2 n (0 : Fin 1))
        = if keep then x (ix2 n j) else Ideal.ofBits .f32 nanw := by
  obtain ⟨j, hj⟩ := gather_along_row d hoff hcoll hob hsb hsim hivd (startIdx hb0 hsc wrapw i) n
  refine ⟨decide (inRange hb0 hsc hb3 hb1 hb111 hred hS wrapw hiw i (ix2 n (0 : Fin 1)) = 1), j, fun x => ?_⟩
  show Scalar.select (inRange hb0 hsc hb3 hb1 hb111 hred hS wrapw hiw i (ix2 n (0 : Fin 1)))
    (Host.gather d x (startIdx hb0 hsc wrapw i) (ix2 n (0 : Fin 1))) (Ideal.ofBits .f32 nanw) = _
  rw [hj x]
  unfold Scalar.select
  by_cases h : inRange hb0 hsc hb3 hb1 hb111 hred hS wrapw hiw i (ix2 n (0 : Fin 1)) = 1
  · rw [if_pos h, decide_eq_true h, if_pos rfl]
  · rw [if_neg h, decide_eq_false h, if_neg Bool.false_ne_true]

/-- The chain at a row with both choices named: the mask bit of row n decides, and the column kept is the wrapped
    start index of row n read signed and clamped into [0, C - 1]. -/
theorem take_apply_col (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (hb0 : (⟨0, ![]⟩ : Shape).BroadcastsInDim ⟨2, ![R, 1]⟩ (![] : Fin 0 → Fin 2))
    (hsc : (⟨2, ![R, 1]⟩ : Shape).ShapeCasts ⟨3, ![R, 1, 1]⟩)
    (hb3 : (⟨0, ![]⟩ : Shape).BroadcastsInDim ⟨3, ![R, 1, 1]⟩ (![] : Fin 0 → Fin 3))
    (hb1 : (⟨1, ![1]⟩ : Shape).BroadcastsInDim ⟨3, ![1, 1, 1]⟩ (![2] : Fin 1 → Fin 3))
    (hb111 : (⟨3, ![1, 1, 1]⟩ : Shape).BroadcastsInDim ⟨3, ![R, 1, 1]⟩ (![0, 1, 2] : Fin 3 → Fin 3))
    (hred : (⟨3, ![R, 1, 1]⟩ : Shape).ReducesTo [2] ⟨2, ![R, 1]⟩) (hS : 0 < (⟨0, ![]⟩ : Shape).numel)
    (wrapw hiw nanw : BitVec 32) (hC : 0 < C) (x : FVec Ideal ⟨2, ![R, C]⟩ .f32) (i : IVec ⟨2, ![R, 1]⟩ 32) (n : Fin R) :
    take (F := Ideal) d hb0 hsc hb3 hb1 hb111 hred hS wrapw hiw nanw x i (ix2 n (0 : Fin 1))
      = if inRange hb0 hsc hb3 hb1 hb111 hred hS wrapw hiw i (ix2 n (0 : Fin 1)) = 1#1
        then x (ix2 n ⟨min (startIdx hb0 hsc wrapw i (rowIdx n)).toInt.toNat (C - 1), by omega⟩)
        else Ideal.ofBits .f32 nanw := by
  show Scalar.select (inRange hb0 hsc hb3 hb1 hb111 hred hS wrapw hiw i (ix2 n (0 : Fin 1)))
    (Host.gather d x (startIdx hb0 hsc wrapw i) (ix2 n (0 : Fin 1))) (Ideal.ofBits .f32 nanw) = _
  rw [gather_along_apply d hoff hcoll hob hsb hsim hivd hC x (startIdx hb0 hsc wrapw i) n]
  rfl

end Reading

end Cert.LibTakeAlong
-- ==== Proof.RefCe.lean ====
/-
  The reference's cross-entropy term, read at the ideal values.

  The reference takes, row by row, the log-softmax of a matrix x : [8192, 32000], keeps in each row the entry at that
  row's target column, and returns minus the mean of the kept entries. Its log-softmax is the stable one: with
  M_n = max(-∞, max_k x(n, k)) the shifted entries are x(n, k) - M_n and the result is
  (x(n, j) - M_n) - log (0 + ∑_k exp (x(n, k) - M_n)). Where every entry of x is finite, M_n is finite, every term is a
  real, and the shift cancels: the result is the real number x(n, j) - log ∑_k exp x(n, k). Nothing about M_n being a
  maximum is used, only that it is finite.
-/
import proofs.«406017_j9732395892833_3_alg».proof.Proof.RefStages
import proofs.«406017_j9732395892833_3_alg».proof.Proof.LibLogSumExp
import proofs.«406017_j9732395892833_3_alg».proof.Proof.LibTakeAlong
import Idealize.ShloMosaic.PureOps.Reduce
import Idealize.ShloMosaic.PureOps.Ideal.Laws
import Idealize.ShloMosaic.Lib.ValueIdx
import Mathlib.Data.EReal.Basic

noncomputable section

namespace Cert.ReferenceIdeal.RefValue

open Cert.ReferenceIdeal Cert.ReferenceIdeal.ReadP Idealize.ShloMosaic Idealize.ShloMosaic.ValueIdx
open Cert.ReferenceIdeal.Gen Cert.LibLogSumExp

/-- Row n's log-sum-exp over the reals. -/
def lseRowR (x : S8192x32000.Idx → EReal) (n : Fin 8192) : ℝ :=
  Real.log (∑ j : Fin 32000, Real.exp (x (ix2 n j)).toReal)

/-! ## Finite values -/

/-- The f32 pattern of -∞ is the bottom of the extended reals. -/
theorem ofBits_neg_inf : Ideal.ofBits .f32 0xFF800000#32 = (⊥ : EReal) := by simp [Ideal.ofBits, Ideal.ieee]

/-- A finite value minus a real is the real difference. -/
theorem sub_coe_of_real (y : EReal) (hy : ∃ s : ℝ, y = (s : EReal)) (a : ℝ) :
    y - (a : EReal) = ((y.toReal - a : ℝ) : EReal) := by
  obtain ⟨s, rfl⟩ := hy
  rw [EReal.toReal_coe, EReal.coe_sub]

/-- The exponential of a finite value minus a real is the real exponential of the real difference. -/
theorem exp_sub_coe_of_real (y : EReal) (hy : ∃ s : ℝ, y = (s : EReal)) (a : ℝ) :
    Ideal.exp (y - (a : EReal)) = ((Real.exp (y.toReal - a) : ℝ) : EReal) := by
  rw [sub_coe_of_real y hy a, exp_coe]

/-! ## The row maximum -/

/-- The columns are the one axis the row maximum folds over. -/
theorem reduces_rows : S8192x32000.Reduces [1] S8192 := by decide

/-- The row maximum of a matrix of finite entries is finite: it is the fold of max from -∞ over the row. -/
theorem rowmax_real (x0 : (⟨S8192x32000, .f32⟩ : BufTy).Contents (Elt Ideal)) (hX : ∀ i, ∃ r : ℝ, x0 i = (r : EReal))
    (i : S8192.Idx) : ∃ m : ℝ, val_main_call0_v0 (F := Ideal) x0 i = (m : EReal) := by
  have h := Host.reduce_eq_fold_single (α := Ideal .f32) (s := S8192x32000) (t := S8192) (a := 1)
    FloatOps.maximumf x0 (val_main_call0_cst (F := Ideal)) reducesTo_S8192x32000_S8192_d1 reduces_rows h_S_ i
  haveI : Nonempty (Fin (S8192x32000.size 1)) := ⟨⟨0, by decide⟩⟩
  obtain ⟨m, hm⟩ := fold_max_bot_real (x0 ∘ reduces_rows.lift i) (fun k => hX _)
  refine ⟨m, h.trans ?_⟩
  rw [← hm, val_main_call0_cst_apply, Ideal.ofBits_def, ofBits_neg_inf]
  rfl

/-- The shift the reference subtracts in row n, max(-∞, row maximum), is finite. -/
theorem shift_real (x0 : (⟨S8192x32000, .f32⟩ : BufTy).Contents (Elt Ideal)) (hX : ∀ i, ∃ r : ℝ, x0 i = (r : EReal))
    (n : Fin 8192) : ∃ a : ℝ, val_main_call0_v2 (F := Ideal) x0 (ix1 n) = (a : EReal) := by
  obtain ⟨m, hm⟩ := rowmax_real x0 hX (ix1 n)
  refine ⟨m, ?_⟩
  rw [val_main_call0_v2_apply, hm, val_main_call0_v1_apply, val_main_call0_cst_0_apply, Ideal.ofBits_def, ofBits_neg_inf,
    Ideal.maximumf_def]
  exact max_eq_right bot_le

/-! ## The log-softmax at an entry -/

/-- Entry (n, j) of the reference's log-softmax of a matrix of finite entries is the real x(n, j) minus row n's
    log-sum-exp. -/
theorem logp_apply (x0 : (⟨S8192x32000, .f32⟩ : BufTy).Contents (Elt Ideal)) (hX : ∀ i, ∃ r : ℝ, x0 i = (r : EReal))
    (n : Fin 8192) (j : Fin 32000) :
    val_main_v0 (F := Ideal) x0 (ix2 n j) = (((x0 (ix2 n j)).toReal - lseRowR x0 n : ℝ) : EReal) := by
  obtain ⟨a, ha⟩ := shift_real x0 hX n
  -- every entry of row n is shifted by the same real a
  have h4 : ∀ k : Fin 32000, val_main_call0_v4 (F := Ideal) x0 (ix2 n k) = (a : EReal) := fun k => by
    rw [val_main_call0_v4_apply, val_main_call0_v3_apply, ← ha]
    exact congrArg (val_main_call0_v2 (F := Ideal) x0) (funext fun c => match c with | ⟨0, _⟩ => rfl)
  -- the exponentials of the shifted entries are real exponentials
  have h6 : ∀ k : Fin 32000, val_main_call0_v6 (F := Ideal) x0 (ix2 n k)
      = ((Real.exp ((x0 (ix2 n k)).toReal - a) : ℝ) : EReal) := fun k => by
    rw [val_main_call0_v6_apply, val_main_call0_v5_apply, h4 k, Ideal.hostUnary_exp_def, Ideal.subf_def,
      exp_sub_coe_of_real _ (hX _) a]
  -- their sum over the row, from the zero initial value
  have h7 : val_main_call0_v7 (F := Ideal) x0 (ix1 n)
      = ((∑ k : Fin 32000, Real.exp ((x0 (ix2 n k)).toReal - a) : ℝ) : EReal) := by
    rw [val_main_call0_v7_apply, val_main_call0_cst_1_apply, Ideal.ofBits_def, Ideal.ofBits_zero_f32, zero_add, coe_sum]
    refine Finset.sum_congr rfl fun k _ => ?_
    rw [← h6 k]
    exact congrArg (val_main_call0_v6 (F := Ideal) x0) (funext fun c => match c with | ⟨0, _⟩ => rfl | ⟨1, _⟩ => rfl)
  -- the logarithm of the sum, broadcast back along the row
  have h10 : val_main_call0_v10 (F := Ideal) x0 (ix2 n j) = Ideal.log (val_main_call0_v7 (F := Ideal) x0 (ix1 n)) := by
    rw [val_main_call0_v10_apply, val_main_call0_v9_apply, val_main_call0_v8_apply, Ideal.hostUnary_log_def]
    exact congrArg (fun q => Ideal.log (val_main_call0_v7 (F := Ideal) x0 q)) (funext fun c => match c with | ⟨0, _⟩ => rfl)
  rw [val_main_v0_apply, val_main_call0_v5_apply, h4 j, h10, h7, Ideal.subf_def, Ideal.subf_def,
    sub_coe_of_real _ (hX _) a, EReal.coe_sub]
  exact logp_shifted (fun k : Fin 32000 => (x0 (ix2 n k)).toReal) (x0 (ix2 n j)).toReal a

/-! ## The kept entries -/

/-- The reference's per-row take is the general per-row take with a fill, at this program's shapes and words (wrap
    32000, upper bound 31999, fill 0x7FC00000), applied to the log-softmax and the targets column: the two are the
    same chain of host operations, operation for operation. -/
theorem take_eq (x0 : (⟨S8192x32000, .f32⟩ : BufTy).Contents (Elt Ideal)) (x3 : (⟨S8192, .i32⟩ : BufTy).Contents (Elt Ideal)) :
    val_main_v2 (F := Ideal) x0 x3
      = Cert.LibTakeAlong.take (F := Ideal) gather_S8192x32000_S8192x1x1_S8192x1_n_1_0_0_1_2_11
          bcast_S_S8192x1 shapeCasts_S8192x1_S8192x1x1 bcast_S_S8192x1x1 bcast_S1_S1x1x1_2 bcast_S1x1x1_S8192x1x1_0_1_2
          reducesTo_S8192x1x1_S8192x1_d2 h_S_ 32000#32 31999#32 0x7FC00000#32
          (val_main_v0 (F := Ideal) x0) (val_main_v1 (F := Ideal) x3) := by
  unfold val_main_v2 val_main_call1_v12 val_main_call1_v13 val_main_call1_v14 val_main_call1_cst val_main_call1_v11
    val_main_call1_v7 val_main_call1_v10 val_main_call1_v6 val_main_call1_v9 val_main_call1_v8 val_main_call1_c_1
    val_main_call1_c_2 val_main_call1_c_3 val_main_call1_v5 val_main_call1_v4 val_main_call1_v1 val_main_call1_v3
    val_main_call1_v0 val_main_call1_v2 val_main_call1_c val_main_call1_c_0
  unfold Cert.LibTakeAlong.take Cert.LibTakeAlong.inRange Cert.LibTakeAlong.startIdx Cert.LibTakeAlong.wrapIdx
  rfl

/-! ## The mean and the sign -/

/-- The reference's cross-entropy term: minus the quotient by 8192.0 of the sum, from zero, of the kept entries. -/
theorem ce_apply (x0 : (⟨S8192x32000, .f32⟩ : BufTy).Contents (Elt Ideal)) (x3 : (⟨S8192, .i32⟩ : BufTy).Contents (Elt Ideal))
    (i : S_.Idx) :
    val_main_v5 (F := Ideal) x0 x3 i
      = -(Ideal.div (0 + ∑ y : S8192x1.Idx, val_main_v2 (F := Ideal) x0 x3 y) (Ideal.ofBits .f32 0x46000000#32)) := by
  rw [val_main_v5_apply, val_main_v4_apply, val_main_v3_apply, val_main_cst_apply, val_main_cst_0_apply,
    Ideal.hostNegf_def, Ideal.negf_def, Ideal.hostDivf_def, Ideal.ofBits_def, Ideal.ofBits_def, Ideal.ofBits_zero_f32]

end Cert.ReferenceIdeal.RefValue

end
-- ==== Proof.BridgeMath.lean ====
/-
  The small extended-real facts that join the two programs' means. A row of the first loss is, in the kernel,
  (row's log-sum-exp) − (target logit), and in the reference the target's log-probability, (target logit) − (row's
  log-sum-exp), which the reference then averages and negates: row by row one is the negation of the other — also where the
  target is out of range and both programs put the not-a-number word in the logit's place, since that word reads as −∞,
  a real minus −∞ is +∞, and the negation of −∞ is +∞. A mean of negated rows is the negated mean as long as no row is
  +∞ (then no partial sum meets +∞ and −(x + y) = −x − y applies at every step).
-/
import proofs.«406017_j9732395892833_3_alg».proof.Proof.LibGatherAlong
import Idealize.ShloMosaic.PureOps.Ideal.Laws

noncomputable section

namespace Cert.BridgeMath

open Idealize.ShloMosaic Cert.LibGatherAlong

/-- The not-a-number word reads as −∞. -/
theorem nan_eq_bot : Ideal.ofBits .f32 0x7FC00000#32 = (⊥ : EReal) := by simp [Ideal.ofBits, Ideal.ieee]

/-- The word of 8192.0 reads as the real 8192. -/
theorem w8192 : Ideal.ofBits .f32 0x46000000#32 = ((8192 : ℝ) : EReal) := by
  simp [Ideal.ofBits, Ideal.ieee, -EReal.coe_mul]; norm_num

/-- Where the target is kept: (log-sum-exp) − (logit) is the negation of (logit) − (log-sum-exp). -/
theorem row_keep (l r : ℝ) : (l : EReal) - (r : EReal) = -(((r - l : ℝ)) : EReal) := by
  rw [← EReal.coe_sub, ← EReal.coe_neg]; congr 1; ring

/-- Where the target is out of range: a real minus the fill word is the negation of the fill word. -/
theorem row_fill (l : ℝ) : (l : EReal) - Ideal.ofBits .f32 0x7FC00000#32 = -(Ideal.ofBits .f32 0x7FC00000#32) := by
  rw [nan_eq_bot, EReal.coe_sub_bot, EReal.neg_bot]

/-- The mean of rows that are the negations of rows none of which is +∞, over any finite index type. -/
theorem mean_neg {ι : Type*} [Fintype ι] (a b : ι → EReal) (hrow : ∀ n, a n = -(b n)) (hb : ∀ n, b n ≠ ⊤) (c : ℝ) (hc : 0 < c) :
    Ideal.div (0 + ∑ n, a n) (c : EReal) = -(Ideal.div (0 + ∑ n, b n) (c : EReal)) := by
  have hsum : ∑ n, a n = -(∑ n, b n) := by
    rw [← neg_sum_of_ne_top Finset.univ b fun n _ => hb n]
    exact Finset.sum_congr rfl fun n _ => hrow n
  rw [Ideal.div_coe hc.ne', Ideal.div_coe hc.ne', hsum, zero_add, zero_add, EReal.neg_mul]

end Cert.BridgeMath

end
-- ==== Proof.CeBridge.lean ====
/-
  The first loss is the same in both programs. In row n the kernel has (the row's log-sum-exp) − (the target's logit) and
  the reference the target's log-probability, (the target's logit) − (the row's log-sum-exp); where the target is out of
  range both have the fill word in the logit's place. Which of the two happens, and at which column the logit is read,
  is decided by the targets alone and is the same in both programs, since both run the same chain of operations on the
  same targets. So every kernel row is the negation of the reference's row, no reference row is +∞, and the mean of the
  negated rows is the negated mean.
-/
import proofs.«406017_j9732395892833_3_alg».proof.Proof.KiCe
import proofs.«406017_j9732395892833_3_alg».proof.Proof.RefCe
import proofs.«406017_j9732395892833_3_alg».proof.Proof.BridgeMath
import proofs.«406017_j9732395892833_3_alg».proof.Proof.LibTakeAlong

noncomputable section

namespace Cert.Bridge

open Idealize.ShloMosaic Idealize.ShloMosaic.TcCoe Idealize.ShloMosaic.ValueIdx Idealize.SL.Sem
open Cert.LibTakeAlong Cert.LibGatherAlong

variable (m : (ℓ : Loc Cert.KernelIdeal.nD Cert.KernelIdeal.τ Cert.KernelIdeal.sig) → Buf (Elt Ideal) ℓ) (c : Dev Cert.KernelIdeal.nD)

/-- The launch's logits and targets as functions on their literal shapes. -/
abbrev logitArr : FVec Ideal Cert.KernelIdeal.S8192x32000 .f32 := m ((c : Thread Cert.KernelIdeal.nD Cert.KernelIdeal.τ).loc Cert.KernelIdeal.main_arg0)
abbrev tgtArr : IVec Cert.KernelIdeal.S8192 32 := m ((c : Thread Cert.KernelIdeal.nD Cert.KernelIdeal.τ).loc Cert.KernelIdeal.main_arg3)

/-- The targets as a column: the index column both programs hand to the shared chain. -/
abbrev tgtColIdx : IVec Cert.KernelIdeal.S8192x1 32 :=
  broadcastInDim Cert.KernelIdeal.S8192x1 ![0] Cert.KernelIdeal.Facts₀.bcast_S8192_S8192x1_0 (tgtArr m c)

/-- Whether row n's wrapped target is a valid column, and the column at which the logit is read. -/
abbrev keepBit (n : Fin 8192) : BitVec 1 :=
  inRange Cert.KernelIdeal.Facts₀.bcast_S_S8192x1 Cert.KernelIdeal.Facts₀.shapeCasts_S8192x1_S8192x1x1 Cert.KernelIdeal.Facts₀.bcast_S_S8192x1x1
    Cert.KernelIdeal.Facts₀.bcast_S1_S1x1x1_2 Cert.KernelIdeal.Facts₀.bcast_S1x1x1_S8192x1x1_0_1_2 Cert.KernelIdeal.Facts₀.reducesTo_S8192x1x1_S8192x1_d2
    Cert.KernelIdeal.Facts₀.h_S_ 32000#32 31999#32 (tgtColIdx m c) (ix2 n (0 : Fin 1))
abbrev tgtColumn (n : Fin 8192) : Fin 32000 :=
  ⟨min (startIdx Cert.KernelIdeal.Facts₀.bcast_S_S8192x1 Cert.KernelIdeal.Facts₀.shapeCasts_S8192x1_S8192x1x1 32000#32 (tgtColIdx m c) (rowIdx n)).toInt.toNat (32000 - 1), by omega⟩

/-- The kernel's column of target logits at row n. -/
theorem tgtCol_apply (n : Fin 8192) :
    Cert.KernelIdeal.Fr.tgtCol m c (ix2 n (0 : Fin 1))
      = if keepBit m c n = 1#1 then logitArr m c (ix2 n (tgtColumn m c n)) else Ideal.ofBits .f32 0x7FC00000#32 :=
  take_apply_col Cert.KernelIdeal.gather_S8192x32000_S8192x1x1_S8192x1_n_1_0_0_1_2_11 rfl rfl rfl rfl rfl rfl Cert.KernelIdeal.Facts₀.bcast_S_S8192x1 Cert.KernelIdeal.Facts₀.shapeCasts_S8192x1_S8192x1x1 Cert.KernelIdeal.Facts₀.bcast_S_S8192x1x1 Cert.KernelIdeal.Facts₀.bcast_S1_S1x1x1_2 Cert.KernelIdeal.Facts₀.bcast_S1x1x1_S8192x1x1_0_1_2 Cert.KernelIdeal.Facts₀.reducesTo_S8192x1x1_S8192x1_d2 Cert.KernelIdeal.Facts₀.h_S_ 32000#32 31999#32 0x7FC00000#32 (by norm_num) (logitArr m c) (tgtColIdx m c) n

/-- The reference's column of target log-probabilities at row n: the same decision and the same column. -/
theorem refTake_apply (n : Fin 8192) :
    Cert.ReferenceIdeal.ReadP.val_main_v2 (F := Ideal) (logitArr m c) (tgtArr m c) (ix2 n (0 : Fin 1))
      = if keepBit m c n = 1#1 then Cert.ReferenceIdeal.ReadP.val_main_v0 (F := Ideal) (logitArr m c) (ix2 n (tgtColumn m c n)) else Ideal.ofBits .f32 0x7FC00000#32 := by
  rw [Cert.ReferenceIdeal.RefValue.take_eq]
  exact take_apply_col _ rfl rfl rfl rfl rfl rfl _ _ _ _ _ _ _ 32000#32 31999#32 0x7FC00000#32 (by norm_num) _ _ n

/-- THE FIRST LOSS AGREES, given that the first region's column holds each row's real log-sum-exp. -/
theorem ce_eq (hX : ∀ i, ∃ r : ℝ, logitArr m c i = (r : EReal))
    (hlse : ∀ n : Fin 8192, Cert.KernelIdeal.Fr.lseCol m c (ix2 n (0 : Fin 1)) = ((Cert.ReferenceIdeal.RefValue.lseRowR (logitArr m c) n : ℝ) : EReal))
    (i : Cert.KernelIdeal.S_.Idx) :
    (Cert.KernelIdeal.Fr.W6 (F := Ideal) m c (Proc.devRef .tc Cert.KernelIdeal.main_v5) : FVec Ideal Cert.KernelIdeal.S_ .f32) i
      = Cert.ReferenceIdeal.ReadP.val_main_v5 (F := Ideal) (logitArr m c) (tgtArr m c) i := by
  rw [Cert.KernelIdeal.Fr.ce_kernel_apply, Cert.ReferenceIdeal.RefValue.ce_apply, Cert.BridgeMath.w8192]
  refine Cert.BridgeMath.mean_neg _ _ (fun y => ?_) (fun y => ?_) 8192 (by norm_num)
  · obtain ⟨n, u, rfl⟩ : ∃ (n : Fin 8192) (u : Fin 1), y = ix2 n u := ⟨y 0, y 1, eq_ix2 y⟩
    obtain rfl : u = 0 := Subsingleton.elim _ _
    rw [tgtCol_apply, refTake_apply, hlse]
    by_cases hk : keepBit m c n = 1#1
    · rw [if_pos hk, if_pos hk, Cert.ReferenceIdeal.RefValue.logp_apply _ hX]
      obtain ⟨r, hr⟩ := hX (ix2 n (tgtColumn m c n))
      rw [hr, EReal.toReal_coe]
      exact Cert.BridgeMath.row_keep _ r
    · rw [if_neg hk, if_neg hk]
      exact Cert.BridgeMath.row_fill _
  · obtain ⟨n, u, rfl⟩ : ∃ (n : Fin 8192) (u : Fin 1), y = ix2 n u := ⟨y 0, y 1, eq_ix2 y⟩
    obtain rfl : u = 0 := Subsingleton.elim _ _
    rw [refTake_apply]
    by_cases hk : keepBit m c n = 1#1
    · rw [if_pos hk, Cert.ReferenceIdeal.RefValue.logp_apply _ hX]; exact EReal.coe_ne_top _
    · rw [if_neg hk, Cert.BridgeMath.nan_eq_bot]; exact bot_ne_top

end Cert.Bridge

end
-- ==== Proof.LibPlainMatmul.lean ====
/-
  A plain matrix product read at one entry, on the extended reals.

  For the dimension numbers of an M×K by K×N product (left operand contracted on its second axis, right
  operand on its first, no batch axes), a `tpu.matmul` into the zero accumulator has at entry (a, b) the value
  ∑ₖ l(a, k) · r(k, b): the contraction index has one axis of extent K, so the sum over it is the sum over
  k : Fin K, and the two operand indices at (a, b) and k are (a, k) and (k, b).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

/-- The left operand's index at output (a, b) and contraction coordinate k is (a, k). -/
theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

/-- The right operand's index at output (a, b) and contraction coordinate k is (k, b). -/
theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- ENTRY (a, b) OF A PLAIN PRODUCT into the zero accumulator: ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.ProtoSpec.lean ====
/-
  The prototype term of one feature row, as a function of the features and the prototypes alone. For feature row n
  and prototype q the expansion of the squared distance is  ‖f_n‖² + ‖p_q‖² − 2 · ⟨f_n, p_q⟩ ; the row's value is the sum
  over the 1024 prototypes of exp(−that). Both programs take the logarithm of this sum (the kernel then negates each row,
  the reference negates the mean). The factor 2 stays the word the programs carry.
-/
import Idealize.ShloMosaic.PureOps.Ideal
import Idealize.ShloMosaic.Lib.ValueIdx

noncomputable section

namespace Cert.ProtoSpec

open Idealize.ShloMosaic Idealize.ShloMosaic.ValueIdx

/-- ‖f_n‖² + ‖p_q‖² − 2 · ⟨f_n, p_q⟩ on the extended reals. -/
def d2 (fe : (⟨2, ![8192, 256]⟩ : Shape).Idx → EReal) (p : (⟨2, ![1024, 256]⟩ : Shape).Idx → EReal) (n : Fin 8192) (q : Fin 1024) : EReal :=
  ((∑ d : Fin 256, fe (ix2 n d) * fe (ix2 n d)) + (∑ d : Fin 256, p (ix2 q d) * p (ix2 q d)))
    - Ideal.ofBits .f32 0x40000000#32 * (∑ d : Fin 256, fe (ix2 n d) * p (ix2 q d))

/-- The sum over the prototypes of exp(−d2). -/
def expSum (fe : (⟨2, ![8192, 256]⟩ : Shape).Idx → EReal) (p : (⟨2, ![1024, 256]⟩ : Shape).Idx → EReal) (n : Fin 8192) : EReal :=
  ∑ q : Fin 1024, Ideal.exp (-(d2 fe p n q))

end Cert.ProtoSpec

end
-- ==== Proof.KiR1Value.lean ====
/-
  The second region's output array, read as one function of the arrays the region finds.

  At every grid point the body stores, for each of the 1024 feature rows f of its block, the value
      0 − log ∑_q exp (0 − ((∑_d f_d · f_d + ‖p_q‖²) − 2 · ∑_d f_d · p_{q,d}))
  over the 1024 prototypes p_q: the cross term is a matrix product of the bf16-narrowed operands (the narrowing is the
  identity on the extended reals, and the product into the zero accumulator is the exact sum over d), the squared norm of
  f is a lane sum from the zero word, and the prototypes' squared norms are read from the row the region is given.
  Here: the layout and reduction readings at an index, the stored value at a row of the blocks (`pay1_apply`), the row's
  term over the arrays (`protoRowK`) and its reading as minus the logarithm of the sum over the prototypes of
  exp (−squared distance) when the row of norms holds the prototypes' squared norms (`protoRowK_spec`), each input block
  as rows of its array (the feature block at point t is rows 1024 t … 1024 t + 1023; the table and the norms are whole),
  what a point writes back as its block of the array of row terms (`flushed1_3_eq`), the cover of the 8192 rows by the
  eight blocks (row n lies in block n / 1024), and the array after the region (`arrAt_main_v9`). No finiteness of the
  inputs is used: every step is a reading of an operation at an index, a reindexing, or 0 − x = −x.
-/
import proofs.«406017_j9732395892833_3_alg».proof.Proof.KiR1Frame
import proofs.«406017_j9732395892833_3_alg».proof.Proof.LibPlainMatmul
import proofs.«406017_j9732395892833_3_alg».proof.Proof.LibKeepdims
import proofs.«406017_j9732395892833_3_alg».proof.Proof.ProtoSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## Layout and reduction readings -/

/-- A row sum: the lane reduction of an [a, b] array along its second axis, from the zero word, reads at row `i` the sum
    of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  show ∑ k : Fin b, src (h.lift (ix1 i) k) = _
  refine Finset.sum_congr rfl fun k _ => congrArg src ?_
  funext c
  refine Fin.ext ?_
  match c with
  | ⟨0, _⟩ => rfl
  | ⟨1, _⟩ => rfl

/-- The row sum kept as a column [a, 1]: at (i, u) it is the sum of row `i`. -/
theorem rowSumCol_apply {a b : ℕ} (src : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ)
    (hc : (⟨1, ![a]⟩ : Shape).ShapeCasts ⟨2, ![a, 1]⟩) (i : Fin a) (u : Fin 1) :
    shapeCast ⟨2, ![a, 1]⟩ (multiReduction (F := Ideal) .add [1] ⟨1, ![a]⟩ src 0x00000000#32 h hφ hacc) hc (ix2 i u)
      = ∑ k : Fin b, src (ix2 i k) :=
  (Cert.LibKeepdims.shapeCast_a_a1_apply _ hc i u).trans (rowSum_apply src h hφ hacc i)

/-- The cross term: entry (r, q) of the product of the feature block with the transposed prototype table, both narrowed
    to bf16 (the identity on the extended reals), into the zero accumulator, is ∑_d f(r, d) · p(q, d). -/
theorem cross_apply (x0 x1 : Vec Ideal S1024x256 .f32) (r q : Fin 1024) :
    matmul dot_S1024x256_S256x1024_S1024x1024_1_0_0_1_n_n none (truncf .bf16 x0 bitsLt_bf16_f32)
        (transpose S256x1024 [1, 0] (truncf .bf16 x1 bitsLt_bf16_f32) transposes_S1024x256_p1_0_S256x1024)
        (constant (F := Ideal) S1024x1024 .f32 0x00000000#32) (ix2 r q)
      = ∑ d : Fin 256, x0 (ix2 r d) * x1 (ix2 q d) := by
  have hD : dot_S1024x256_S256x1024_S1024x1024_1_0_0_1_n_n = DotDims.plain 1024 256 1024 := rfl
  rw [hD]
  refine (Cert.LibPlainMatmul.matmul_zero_apply 1024 256 1024 none _ _ r q).trans ?_
  refine Finset.sum_congr rfl fun d _ => ?_
  rw [transpose_ix2_apply]
  rfl

/-- The exponential of a vector reads at an index the exponential of the entry. -/
theorem exp_apply {s : Shape} (a : FVec Ideal s .f32) (i : s.Idx) : exp a i = Ideal.exp (a i) := rfl
/-- The logarithm of a vector reads at an index the logarithm of the entry. -/
theorem log_apply {s : Shape} (a : FVec Ideal s .f32) (i : s.Idx) : log a i = Ideal.log (a i) := rfl

/-! ## The body's value at a row of its blocks -/

/-- One row of the body's value over its three loaded blocks: with f the row's features, minus the logarithm of
    ∑_q exp (−((‖f‖² + ‖p_q‖²) − 2 · ⟨f, p_q⟩)). -/
def rowK (x0 x1 : S1024x256.Idx → EReal) (x2 : S1x1024.Idx → EReal) (r : Fin 1024) : EReal :=
  0 - Ideal.log (∑ q : Fin 1024, Ideal.exp (0 - (((∑ d : Fin 256, x0 (ix2 r d) * x0 (ix2 r d)) + x2 (ix2 (0 : Fin 1) q))
    - Ideal.ofBits .f32 0x40000000#32 * ∑ d : Fin 256, x0 (ix2 r d) * x1 (ix2 q d))))

/-- The stored value at (r, u) is row `r`'s term. -/
theorem pay1_apply (x0 x1 : Vec Ideal S1024x256 .f32) (x2 : Vec Ideal S1x1024 .f32) (r : Fin 1024) (u : Fin 1) :
    k1_pay1 x0 x1 x2 (ix2 r u) = rowK x0 x1 x2 r := by
  unfold k1_pay1 rowK
  simp only [subf_apply, log_apply, broadcast_apply]
  refine Eq.trans (congrArg (fun z => FloatOps.ofBits (F := Ideal) FTy.f32 0x00000000#32 - Ideal.log z) (rowSumCol_apply _ _ _ _ _ r u)) ?_
  simp only [exp_apply, subf_apply, addf_apply, mulf_apply, broadcast_apply,
    Cert.LibKeepdims.broadcastTo_a1_ab_apply, broadcastTo_1b_ab_apply, shapeCast_self,
    Ideal.ofBits_def, Ideal.ofBits_zero_f32]
  refine congrArg (fun z => (0 : EReal) - Ideal.log z) (Finset.sum_congr rfl fun q _ => ?_)
  refine congrArg (fun z => Ideal.exp ((0 : EReal) - z)) ?_
  exact congrArg₂ (fun a b : EReal => a - b)
    (congrArg (fun z : EReal => z + x2 (ix2 (0 : Fin 1) q)) (rowSumCol_apply (mulf x0 x0) _ _ _ _ r (0 : Fin 1)))
    (congrArg (fun z : EReal => Ideal.ofBits .f32 0x40000000#32 * z) (cross_apply x0 x1 r q))

/-! ## The prototype term of one feature row, over the arrays -/

/-- One row of the prototype term as the kernel computes it. -/
def protoRowK (fe : S8192x256.Idx → EReal) (p : S1024x256.Idx → EReal) (p2 : S1x1024.Idx → EReal) (n : Fin 8192) : EReal :=
  0 - Ideal.log (∑ q : Fin 1024, Ideal.exp (0 - (((∑ d : Fin 256, fe (ix2 n d) * fe (ix2 n d)) + p2 (ix2 (0 : Fin 1) q))
    - Ideal.ofBits .f32 0x40000000#32 * ∑ d : Fin 256, fe (ix2 n d) * p (ix2 q d))))

/-- A block row's term is the array row's term when the block's row is the array's row, and the table and the norms are
    the arrays'. -/
theorem rowK_eq_protoRowK (x0 x1 : S1024x256.Idx → EReal) (x2 : S1x1024.Idx → EReal) (fe : S8192x256.Idx → EReal)
    (p : S1024x256.Idx → EReal) (p2 : S1x1024.Idx → EReal) (r : Fin 1024) (n : Fin 8192)
    (h0 : ∀ d : Fin 256, x0 (ix2 r d) = fe (ix2 n d)) (h1 : ∀ (q : Fin 1024) (d : Fin 256), x1 (ix2 q d) = p (ix2 q d))
    (h2 : ∀ q : Fin 1024, x2 (ix2 (0 : Fin 1) q) = p2 (ix2 (0 : Fin 1) q)) :
    rowK x0 x1 x2 r = protoRowK fe p p2 n := by
  unfold rowK protoRowK
  simp only [h0, h1, h2]

/-- When the row of norms holds the prototypes' squared norms, the row's term is minus the logarithm of the sum over
    the prototypes of exp (−(‖f‖² + ‖p_q‖² − 2 · ⟨f, p_q⟩)): subtracting from zero is negating. -/
theorem protoRowK_spec (fe : S8192x256.Idx → EReal) (p : S1024x256.Idx → EReal) (p2 : S1x1024.Idx → EReal)
    (hp2 : ∀ q : Fin 1024, p2 (ix2 (0 : Fin 1) q) = ∑ d : Fin 256, p (ix2 q d) * p (ix2 q d)) (n : Fin 8192) :
    protoRowK fe p p2 n = -(Ideal.log (Cert.ProtoSpec.expSum fe p n)) := by
  unfold protoRowK Cert.ProtoSpec.expSum Cert.ProtoSpec.d2
  simp only [hp2, zero_sub]

/-- The stored value of a point's blocks, at an index of the block, is the array row's term. -/
theorem pay1_eq_protoRowK (x0 x1 : Vec Ideal S1024x256 .f32) (x2 : Vec Ideal S1x1024 .f32) (fe : S8192x256.Idx → EReal)
    (p : S1024x256.Idx → EReal) (p2 : S1x1024.Idx → EReal) (y : S1024x1.Idx) (n : Fin 8192)
    (h0 : ∀ d : Fin 256, x0 (ix2 ⟨(y 0).val, idx2_lt0 y⟩ d) = fe (ix2 n d))
    (h1 : ∀ (q : Fin 1024) (d : Fin 256), x1 (ix2 q d) = p (ix2 q d))
    (h2 : ∀ q : Fin 1024, x2 (ix2 (0 : Fin 1) q) = p2 (ix2 (0 : Fin 1) q)) :
    k1_pay1 x0 x1 x2 y = protoRowK fe p p2 n := by
  obtain ⟨r, u, rfl⟩ : ∃ (r : Fin 1024) (u : Fin 1), y = ix2 r u := ⟨y 0, y 1, eq_ix2 y⟩
  rw [pay1_apply]
  exact rowK_eq_protoRowK x0 x1 x2 fe p p2 r n h0 h1 h2

/-! ## From the blocks to the array -/

/-- The zero offsets, as a constant function. -/
theorem hz1 : (![0, 0] : Fin 2 → Nat) = fun _ => 0 := funext fun a => by fin_cases a <;> rfl

/-- The printed index maps, decided over the grid: the feature window and the output window are at block row `t`, the
    table and the norms at block zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Arr
variable (V : (c : Dev nD) → (b : Ref sig .tc) → Buf (Elt Ideal) ((c : Thread nD τ).loc b))

/-- The feature window's block at point `t` is rows 1024 t … 1024 t + 1023 of the feature array. -/
theorem iblk1_0_apply (c : Dev nD) (t : Fin cfg1.N) (r : Fin 1024) (d : Fin 256) (n : Fin 8192) (hn : n.val = 1024 * t.val + r.val) :
    (iblk1 V c 0 t : Vec Ideal S1024x256 .f32) (ix2 r d) = (V c main_arg2 : S8192x256.Idx → EReal) (ix2 n d) := by
  obtain ⟨e0, e1, -⟩ := idx_facts1 t
  unfold iblk1
  rw [View.read_apply]
  show V c main_arg2 _ = V c main_arg2 _
  congr 1
  funext a
  apply Fin.ext
  match a with
  | ⟨0, _⟩ => show win1_0.index t (0 : Fin 2) * 1024 + 1 * r.val = n.val; rw [e0, hn]; omega
  | ⟨1, _⟩ => show win1_0.index t (1 : Fin 2) * 256 + 1 * d.val = d.val; rw [e1]; omega

/-- The prototype window's block at every point is the whole table. -/
theorem iblk1_1_apply (c : Dev nD) (t : Fin cfg1.N) (q : Fin 1024) (d : Fin 256) :
    (iblk1 V c 1 t : Vec Ideal S1024x256 .f32) (ix2 q d) = (V c main_arg1 : S1024x256.Idx → EReal) (ix2 q d) := by
  obtain ⟨-, -, e0, e1, -⟩ := idx_facts1 t
  unfold iblk1
  rw [View.read_apply]
  show V c main_arg1 _ = V c main_arg1 _
  congr 1
  funext a
  apply Fin.ext
  match a with
  | ⟨0, _⟩ => show win1_1.index t (0 : Fin 2) * 1024 + 1 * q.val = q.val; rw [e0]; omega
  | ⟨1, _⟩ => show win1_1.index t (1 : Fin 2) * 256 + 1 * d.val = d.val; rw [e1]; omega

/-- The norms window's block at every point is the whole row of norms. -/
theorem iblk1_2_apply (c : Dev nD) (t : Fin cfg1.N) (q : Fin 1024) :
    (iblk1 V c 2 t : Vec Ideal S1x1024 .f32) (ix2 (0 : Fin 1) q) = (V c main_v8 : S1x1024.Idx → EReal) (ix2 (0 : Fin 1) q) := by
  obtain ⟨-, -, -, -, e0, e1, -⟩ := idx_facts1 t
  unfold iblk1
  rw [View.read_apply]
  show V c main_v8 _ = V c main_v8 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * q.val = q.val; rw [e1]; omega

/-- What point `t` writes back is block `t` of the array of row terms. -/
theorem flushed1_3_eq (c : Dev nD) (t : Fin cfg1.N) :
    (dat1 (F := Ideal) V c).flushed 3 t = ((cfg1.win 3).blk t).view.read (Elt Ideal)
      (fun y : S8192x1.Idx => protoRowK (V c main_arg2) (V c main_arg1) (V c main_v8) ⟨(y 0).val, ValueIdx.idx2_lt0 y⟩) := by
  show (cfg1.win 3).cut (grid1.coords t) ((dat1 (F := Ideal) V c).after 3 t) = _
  rw [after1_3]
  unfold out1_3
  rw [View.canon_unit_zero hz1]
  simp only [View.ld_unit_zero (S := S1024x256) hz1, View.ld_unit_zero (S := S1x1024) hz1]
  obtain ⟨-, -, -, -, -, -, e0, e1⟩ := idx_facts1 t
  funext j
  have hj : (j 0).val < 1024 := (j 0).isLt
  have ht : t.val < 8 := lt_of_lt_of_eq t.isLt (show cfg1.N = 8 from N_1)
  have hn : (((cfg1.win 3).blk t).view.emb j (0 : Fin 2)).val = 1024 * t.val + (j 0).val := by
    show win1_3.index t (0 : Fin 2) * 1024 + 1 * (j 0).val = _
    rw [e0]; omega
  show k1_pay1 (iblk1 V c 0 t) (iblk1 V c 1 t) (iblk1 V c 2 t) j
    = protoRowK (V c main_arg2) (V c main_arg1) (V c main_v8) ⟨(((cfg1.win 3).blk t).view.emb j (0 : Fin 2)).val, _⟩
  exact pay1_eq_protoRowK (iblk1 V c 0 t) (iblk1 V c 1 t) (iblk1 V c 2 t) (V c main_arg2) (V c main_arg1) (V c main_v8) j _
    (fun d => iblk1_0_apply V c t ⟨(j 0).val, hj⟩ d _ hn) (fun q d => iblk1_1_apply V c t q d) (fun q => iblk1_2_apply V c t q)

/-- An index of the output array is in point `t`'s block iff each coordinate is in the block's range on its axis. -/
theorem mem_blk1_3 (t : Fin cfg1.N) (i : S8192x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v9).slice (win1_3.rect t)).set ↔ _
  rw [View.set_slice_whole, Rect.mem_set_unit]
  exact Iff.rfl

/-- The blocks cover the array: row `n` is in the block of point `n / 1024`. -/
theorem cover1_3_arr (i : S8192x1.Idx) : ∃ t : Fin cfg1.N, (cfg1.win 3).flush t = true ∧ i ∈ ((cfg1.win 3).blk t).view.set := by
  have hi0 : (i 0).val < 8192 := idx2_lt0 i
  have hi1 : (i 1).val < 1 := idx2_lt1 i
  have hN : grid1.N = 8 := N_1
  refine ⟨⟨(i 0).val / 1024, by show (i 0).val / 1024 < grid1.N; rw [hN]; omega⟩, flush1_3 _, ?_⟩
  rw [mem_blk1_3]
  obtain ⟨-, -, -, -, -, -, e0, e1⟩ := idx_facts1 ⟨(i 0).val / 1024, by show (i 0).val / 1024 < grid1.N; rw [hN]; omega⟩
  intro a
  match a with
  | ⟨0, _⟩ =>
    show win1_3.index _ (0 : Fin 2) * 1024 ≤ (i 0).val ∧ (i 0).val < win1_3.index _ (0 : Fin 2) * 1024 + 1024
    rw [e0]; show (i 0).val / 1024 * 1024 ≤ (i 0).val ∧ (i 0).val < (i 0).val / 1024 * 1024 + 1024; omega
  | ⟨1, _⟩ =>
    show win1_3.index _ (1 : Fin 2) * 1 ≤ (i 1).val ∧ (i 1).val < win1_3.index _ (1 : Fin 2) * 1 + 1
    rw [e1]; omega

/-- The output array after the region, as a column of extended reals. -/
abbrev outCol (c : Dev nD) : FVec Ideal S8192x1 .f32 := (dat1 (F := Ideal) V c).arrAt 3 cfg1.N

/-- The output array after the region: at row `n` the prototype term of feature row `n`. -/
theorem arrAt_main_v9 (c : Dev nD) :
    outCol V c = fun y => protoRowK (V c main_arg2) (V c main_arg1) (V c main_v8) ⟨(y 0).val, ValueIdx.idx2_lt0 y⟩ :=
  (dat1 (F := Ideal) V c).arrAt_eq_of_cover 3 _ (fun t _ => flushed1_3_eq V c t) cover1_3_arr

/-- The same at an index. -/
theorem outCol_apply (c : Dev nD) (y : S8192x1.Idx) :
    outCol V c y = protoRowK (V c main_arg2) (V c main_arg1) (V c main_v8) ⟨(y 0).val, ValueIdx.idx2_lt0 y⟩ :=
  congrFun (arrAt_main_v9 V c) y

end Arr

end Cert.KernelIdeal.Fr

end
-- ==== Proof.KiProto.lean ====
/-
  The second region's inputs and output in the kernel's program, at the extended reals: the row of squared prototype
  norms it is handed is, at prototype q, the sum over the 256 coordinates of p(q, d)²; its output column is, at feature row
  n, minus the logarithm of the sum over the prototypes of exp(−(‖f_n‖² + ‖p_q‖² − 2⟨f_n, p_q⟩)).
-/
import proofs.«406017_j9732395892833_3_alg».proof.Proof.KiCe
import proofs.«406017_j9732395892833_3_alg».proof.Proof.KiR1Value
import proofs.«406017_j9732395892833_3_alg».proof.Proof.ProtoSpec
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The launch's prototypes and features as functions on their literal shapes. -/
abbrev protoArr (c : Dev nD) : FVec Ideal S1024x256 .f32 := m ((c : Thread nD τ).loc main_arg1)
abbrev featArr (c : Dev nD) : FVec Ideal S8192x256 .f32 := m ((c : Thread nD τ).loc main_arg2)
/-- The row of squared prototype norms the second region finds. -/
abbrev p2Row (c : Dev nD) : FVec Ideal S1x1024 .f32 := VE4 (F := Ideal) m c main_v8

/-- A host sum along the second axis of a [1024, 256] array, from zero, at row q. -/
theorem rowSum1024_apply (y0 : FVec Ideal S1024x256 .f32) (q : Fin 1024) :
    (Host.reduceAdd y0 (constant (F := Ideal) S_ .f32 0x00000000#32) reducesTo_S1024x256_S1024_d1 h_S_ : FVec Ideal S1024 .f32) (ix1 q)
      = ∑ d : Fin 256, y0 (ix2 q d) := by
  simp only [Host.reduceAdd, Ideal.hostReduceAdd_def]
  rw [Ideal.hostReduceAdd_single reducesTo_S1024x256_S1024_d1 (by decide)]
  rw [constant_apply, Ideal.ofBits_zero_f32, zero_add]
  refine Finset.sum_congr rfl fun d _ => ?_
  exact congrArg y0 (funext fun a => Fin.ext (by match a with | ⟨0, _⟩ => rfl | ⟨1, _⟩ => rfl))

/-- Its entry at prototype q: the sum of the squares of the prototype's coordinates. -/
theorem p2Row_apply (c : Dev nD) (q : Fin 1024) :
    p2Row m c (ix2 (0 : Fin 1) q) = ∑ d : Fin 256, protoArr m c (ix2 q d) * protoArr m c (ix2 q d) := by
  have e : p2Row m c = broadcastInDim S1x1024 ![1] bcast_S1024_S1x1024_1
      (Host.reduceAdd (mulf (protoArr m c) (protoArr m c)) (constant (F := Ideal) S_ .f32 0x00000000#32) reducesTo_S1024x256_S1024_d1 h_S_) := by
    show W4 m c (Proc.devRef .tc main_v8) = _
    rw [W4_main_v8, W3_main_arg1]
  rw [e, broadcastInDim_apply _ bcast_S1024_S1x1024_1 _ (ix2 (0 : Fin 1) q) (ix1 q) (fun a => match a with
    | ⟨0, _⟩ => by show q.val = if (1024 : Nat) = 1 then 0 else q.val; rw [if_neg (by decide)]), rowSum1024_apply]
  rfl

/-- The second region's column at feature row n, in the specification's terms. -/
theorem protoCol_apply (c : Dev nD) (n : Fin 8192) :
    protoCol m c (ix2 n (0 : Fin 1)) = -(Ideal.log (Cert.ProtoSpec.expSum (featArr m c) (protoArr m c) n)) := by
  show outCol (VE4 m) c (ix2 n (0 : Fin 1)) = _
  rw [outCol_apply, VE4_main_arg2 m c, VE4_main_arg1 m c]
  exact protoRowK_spec (featArr m c) (protoArr m c) (p2Row m c) (p2Row_apply m c) n

end Cert.KernelIdeal.Fr

end
-- ==== Proof.LibIdxSum.lean ====
/-
  Three re-indexings of a sum over an index type by its one free coordinate: a sum over the positions of a column
  [R, 1] or of a vector [R] is the sum over the R rows, and a sum over the positions of a row [1, C] is the sum over
  the C columns. Each index type is in bijection with its free coordinate's range; the unit axis contributes the one
  coordinate 0.
-/
import Idealize.ShloMosaic.Lib.ValueIdx
import Mathlib.Algebra.BigOperators.Group.Finset.Basic
import Mathlib.Algebra.BigOperators.Fin

namespace Cert.LibIdxSum

open Idealize.ShloMosaic Idealize.ShloMosaic.ValueIdx
open scoped BigOperators

variable {M : Type*} [AddCommMonoid M]

/-- A sum over the positions of a column [R, 1] is the sum over its rows, each at column 0. -/
theorem sum_col {R : ℕ} (f : (⟨2, ![R, 1]⟩ : Shape).Idx → M) :
    ∑ y : (⟨2, ![R, 1]⟩ : Shape).Idx, f y = ∑ n : Fin R, f (ix2 n (0 : Fin 1)) := by
  rw [sum_idx2]
  exact Finset.sum_congr rfl fun n _ => Fin.sum_univ_one fun b : Fin 1 => f (ix2 n b)

/-- A sum over the positions of a row [1, C] is the sum over its columns, each at row 0. -/
theorem sum_row {C : ℕ} (f : (⟨2, ![1, C]⟩ : Shape).Idx → M) :
    ∑ y : (⟨2, ![1, C]⟩ : Shape).Idx, f y = ∑ q : Fin C, f (ix2 (0 : Fin 1) q) := by
  rw [sum_idx2]
  exact Fin.sum_univ_one fun a : Fin 1 => ∑ q : Fin C, f (ix2 a q)

/-- A rank-1 index set is its coordinate's range. -/
def idxEquiv1 {R : ℕ} : Fin R ≃ (⟨1, ![R]⟩ : Shape).Idx where
  toFun n := ix1 n
  invFun y := y 0
  left_inv _ := rfl
  right_inv y := (eq_ix1 y).symm

/-- A sum over the positions of a vector [R] is the sum over its coordinate. -/
theorem sum_vec {R : ℕ} (f : (⟨1, ![R]⟩ : Shape).Idx → M) :
    ∑ y : (⟨1, ![R]⟩ : Shape).Idx, f y = ∑ n : Fin R, f (ix1 n) :=
  (Fintype.sum_equiv idxEquiv1 (fun n => f (ix1 n)) f fun _ => rfl).symm

end Cert.LibIdxSum
-- ==== Proof.RefProto.lean ====
/-
  The reference's prototype term, read at the ideal values.

  For features f : [8192, 256] and prototypes p : [1024, 256] the reference forms, for feature row n and prototype q,
  ‖f_n‖² + ‖p_q‖² − 2 · ⟨f_n, p_q⟩ — the two squared norms as row sums of the squared entries spread over the
  [8192, 1024] rectangle, the inner products as one matrix product of f with p transposed — negates it, exponentiates,
  sums over the prototypes and takes the logarithm, row by row; the term is minus the quotient by 8192.0 of the sum of
  the rows' logarithms. Every sum starts from the zero word, which is the extended real 0; the factor 2.0 and the
  divisor 8192.0 stay the words the program carries.
-/
import proofs.«406017_j9732395892833_3_alg».proof.Proof.RefStages
import proofs.«406017_j9732395892833_3_alg».proof.Proof.ProtoSpec
import proofs.«406017_j9732395892833_3_alg».proof.Proof.LibIdxSum
import Idealize.ShloMosaic.PureOps.Ideal.Laws
import Idealize.ShloMosaic.Lib.ValueIdx

noncomputable section

namespace Cert.ReferenceIdeal.RefValue

open Cert.ReferenceIdeal Cert.ReferenceIdeal.ReadP Idealize.ShloMosaic Idealize.ShloMosaic.ValueIdx
open Cert.ReferenceIdeal.Gen

/-! ## The squared norms -/

/-- Feature row n's squared norm: the sum over the row of the squared entries. -/
theorem featNorm_apply (x2 : (⟨S8192x256, .f32⟩ : BufTy).Contents (Elt Ideal)) (n : Fin 8192) :
    val_main_v7 (F := Ideal) x2 (ix1 n) = ∑ d : Fin 256, x2 (ix2 n d) * x2 (ix2 n d) := by
  rw [val_main_v7_apply, val_main_cst_1_apply, Ideal.ofBits_def, Ideal.ofBits_zero_f32, zero_add]
  refine Finset.sum_congr rfl fun k _ => ?_
  have e : idx_main_v7 (ix1 n) k = ix2 n k :=
    funext fun a => Fin.ext (by match a with | ⟨0, _⟩ => rfl | ⟨1, _⟩ => rfl)
  rw [e, val_main_v6_apply, Ideal.mulf_def]

/-- Prototype q's squared norm. -/
theorem protoNorm_apply (x1 : (⟨S1024x256, .f32⟩ : BufTy).Contents (Elt Ideal)) (q : Fin 1024) :
    val_main_v10 (F := Ideal) x1 (ix1 q) = ∑ d : Fin 256, x1 (ix2 q d) * x1 (ix2 q d) := by
  rw [val_main_v10_apply, val_main_cst_2_apply, Ideal.ofBits_def, Ideal.ofBits_zero_f32, zero_add]
  refine Finset.sum_congr rfl fun k _ => ?_
  have e : idx_main_v10 (ix1 q) k = ix2 q k :=
    funext fun a => Fin.ext (by match a with | ⟨0, _⟩ => rfl | ⟨1, _⟩ => rfl)
  rw [e, val_main_v9_apply, Ideal.mulf_def]

/-- The two squared norms spread over the rectangle and added: entry (n, q) is ‖f_n‖² + ‖p_q‖². -/
theorem normSum_apply (x1 : (⟨S1024x256, .f32⟩ : BufTy).Contents (Elt Ideal)) (x2 : (⟨S8192x256, .f32⟩ : BufTy).Contents (Elt Ideal))
    (n : Fin 8192) (q : Fin 1024) :
    val_main_v14 (F := Ideal) x1 x2 (ix2 n q)
      = (∑ d : Fin 256, x2 (ix2 n d) * x2 (ix2 n d)) + (∑ d : Fin 256, x1 (ix2 q d) * x1 (ix2 q d)) := by
  have e8 : idx_main_v8 (idx_main_v12 (ix2 n q)) = ix1 n :=
    funext fun a => Fin.ext (by match a with | ⟨0, _⟩ => rfl)
  have e11 : idx_main_v11 (idx_main_v13 (ix2 n q)) = ix1 q :=
    funext fun a => Fin.ext (by match a with | ⟨0, _⟩ => rfl)
  rw [val_main_v14_apply, val_main_v12_apply, val_main_v8_apply, val_main_v13_apply, val_main_v11_apply, e8, e11,
    featNorm_apply, protoNorm_apply, Ideal.addf_def]

/-! ## The inner products -/

/-- Entry (n, q) of the product of the features with the transposed prototypes is ⟨f_n, p_q⟩. -/
theorem inner_apply (x1 : (⟨S1024x256, .f32⟩ : BufTy).Contents (Elt Ideal)) (x2 : (⟨S8192x256, .f32⟩ : BufTy).Contents (Elt Ideal))
    (n : Fin 8192) (q : Fin 1024) :
    val_main_v16 (F := Ideal) x1 x2 (ix2 n q) = ∑ d : Fin 256, x2 (ix2 n d) * x1 (ix2 q d) := by
  rw [val_main_v16_apply]
  refine Finset.sum_congr rfl fun k _ => ?_
  have el : lidx_main_v16 (ix2 n q) k = ix2 n k :=
    funext fun a => Fin.ext (by match a with | ⟨0, _⟩ => rfl | ⟨1, _⟩ => rfl)
  have er : idx_main_v15 (ridx_main_v16 (ix2 n q) k) = ix2 q k :=
    funext fun a => Fin.ext (by match a with | ⟨0, _⟩ => rfl | ⟨1, _⟩ => rfl)
  rw [el, val_main_v15_apply, er]

/-! ## The row's logarithm -/

/-- Entry (n, q) of the exponentials: exp of minus the expanded squared distance. -/
theorem expNeg_apply (x1 : (⟨S1024x256, .f32⟩ : BufTy).Contents (Elt Ideal)) (x2 : (⟨S8192x256, .f32⟩ : BufTy).Contents (Elt Ideal))
    (n : Fin 8192) (q : Fin 1024) :
    val_main_v21 (F := Ideal) x1 x2 (ix2 n q) = Ideal.exp (-(Cert.ProtoSpec.d2 x2 x1 n q)) := by
  rw [val_main_v21_apply, val_main_v20_apply, val_main_v19_apply, val_main_v18_apply, val_main_v17_apply,
    val_main_cst_3_apply, normSum_apply, inner_apply, Ideal.hostUnary_exp_def, Ideal.hostNegf_def, Ideal.negf_def,
    Ideal.subf_def, Ideal.mulf_def, Ideal.ofBits_def]
  rfl

/-- THE ROW: the reference's logarithm for feature row n is the logarithm of the specification's sum of
    exponentials. -/
theorem proto_row_ref (x1 : (⟨S1024x256, .f32⟩ : BufTy).Contents (Elt Ideal)) (x2 : (⟨S8192x256, .f32⟩ : BufTy).Contents (Elt Ideal))
    (n : Fin 8192) :
    val_main_v23 (F := Ideal) x1 x2 (ix1 n) = Ideal.log (Cert.ProtoSpec.expSum x2 x1 n) := by
  rw [val_main_v23_apply, val_main_v22_apply, val_main_cst_4_apply, Ideal.hostUnary_log_def, Ideal.ofBits_def,
    Ideal.ofBits_zero_f32, zero_add]
  refine congrArg Ideal.log (Finset.sum_congr rfl fun k _ => ?_)
  have e : idx_main_v22 (ix1 n) k = ix2 n k :=
    funext fun a => Fin.ext (by match a with | ⟨0, _⟩ => rfl | ⟨1, _⟩ => rfl)
  rw [e, expNeg_apply]

/-! ## The mean and the sign -/

/-- The reference's prototype term: minus the quotient by 8192.0 of the sum, from zero, of the rows' logarithms. -/
theorem proto_apply (x1 : (⟨S1024x256, .f32⟩ : BufTy).Contents (Elt Ideal)) (x2 : (⟨S8192x256, .f32⟩ : BufTy).Contents (Elt Ideal))
    (i : S_.Idx) :
    val_main_v26 (F := Ideal) x1 x2 i
      = -(Ideal.div (0 + ∑ n : Fin 8192, val_main_v23 (F := Ideal) x1 x2 (ix1 n)) (Ideal.ofBits .f32 0x46000000#32)) := by
  rw [val_main_v26_apply, val_main_v25_apply, val_main_v24_apply, val_main_cst_5_apply, val_main_cst_6_apply,
    Ideal.hostNegf_def, Ideal.negf_def, Ideal.hostDivf_def, Ideal.ofBits_def, Ideal.ofBits_def, Ideal.ofBits_zero_f32,
    Cert.LibIdxSum.sum_vec]

end Cert.ReferenceIdeal.RefValue

end
-- ==== Proof.ProtoBridge.lean ====
/-
  The second loss is the same in both programs. Row by row the kernel stores minus the logarithm of the sum over the
  prototypes of exp(−(‖f‖² + ‖p‖² − 2⟨f, p⟩)) and takes the mean; the reference takes the mean of the logarithms and negates
  it. With finite features and prototypes every such sum is a real number, so its logarithm is never +∞, and the mean of
  the negated rows is the negated mean.
-/
import proofs.«406017_j9732395892833_3_alg».proof.Proof.KiProto
import proofs.«406017_j9732395892833_3_alg».proof.Proof.RefProto
import proofs.«406017_j9732395892833_3_alg».proof.Proof.BridgeMath
import proofs.«406017_j9732395892833_3_alg».proof.Proof.LibIdxSum
import proofs.«406017_j9732395892833_3_alg».proof.Proof.LibLogSumExp

noncomputable section

namespace Cert.Bridge

open Idealize.ShloMosaic Idealize.ShloMosaic.TcCoe Idealize.ShloMosaic.ValueIdx Idealize.SL.Sem
open Cert.ProtoSpec

/-- The word of 2.0 reads as the real 2. -/
theorem w2 : Ideal.ofBits .f32 0x40000000#32 = ((2 : ℝ) : EReal) := by
  simp [Ideal.ofBits, Ideal.ieee, -EReal.coe_mul]; norm_num

/-- With real features and prototypes the sum over the prototypes is a real number. -/
theorem expSum_real (fe : (⟨2, ![8192, 256]⟩ : Shape).Idx → EReal) (p : (⟨2, ![1024, 256]⟩ : Shape).Idx → EReal)
    (hfe : ∀ i, ∃ r : ℝ, fe i = (r : EReal)) (hp : ∀ i, ∃ r : ℝ, p i = (r : EReal)) (n : Fin 8192) :
    ∃ r : ℝ, expSum fe p n = (r : EReal) := by
  choose fr hfr using hfe
  choose pr hpr using hp
  refine ⟨∑ q : Fin 1024, Real.exp (-(((∑ d : Fin 256, fr (ix2 n d) * fr (ix2 n d)) + ∑ d : Fin 256, pr (ix2 q d) * pr (ix2 q d))
      - 2 * ∑ d : Fin 256, fr (ix2 n d) * pr (ix2 q d))), ?_⟩
  unfold expSum d2
  rw [Cert.LibLogSumExp.coe_sum]
  refine Finset.sum_congr rfl fun q _ => ?_
  simp only [hfr, hpr, w2, ← EReal.coe_mul, ← Cert.LibLogSumExp.coe_sum, ← EReal.coe_add, ← EReal.coe_sub, ← EReal.coe_neg,
    Cert.LibLogSumExp.exp_coe]

/-- The logarithm of a real number is never +∞. -/
theorem log_coe_ne_top (r : ℝ) : Ideal.log (r : EReal) ≠ ⊤ := by
  show (if r ≤ 0 then (⊥ : EReal) else ((Real.log r : ℝ) : EReal)) ≠ ⊤
  split
  · exact bot_ne_top
  · exact EReal.coe_ne_top _

/-- THE SECOND LOSS AGREES: what the kernel's program leaves in its second result is the reference's staged value, for
    features and prototypes that are real numbers. -/
theorem proto_eq (m : (ℓ : Loc Cert.KernelIdeal.nD Cert.KernelIdeal.τ Cert.KernelIdeal.sig) → Buf (Elt Ideal) ℓ) (c : Dev Cert.KernelIdeal.nD)
    (hfe : ∀ i, ∃ r : ℝ, Cert.KernelIdeal.Fr.featArr m c i = (r : EReal))
    (hp : ∀ i, ∃ r : ℝ, Cert.KernelIdeal.Fr.protoArr m c i = (r : EReal)) (i : Cert.KernelIdeal.S_.Idx) :
    (Cert.KernelIdeal.Fr.W6 (F := Ideal) m c (Proc.devRef .tc Cert.KernelIdeal.main_v11) : FVec Ideal Cert.KernelIdeal.S_ .f32) i
      = Cert.ReferenceIdeal.ReadP.val_main_v26 (F := Ideal) (Cert.KernelIdeal.Fr.protoArr m c) (Cert.KernelIdeal.Fr.featArr m c) i := by
  rw [Cert.KernelIdeal.Fr.proto_kernel_apply, Cert.ReferenceIdeal.RefValue.proto_apply, Cert.BridgeMath.w8192, Cert.LibIdxSum.sum_col]
  refine Cert.BridgeMath.mean_neg _ _ (fun n => ?_) (fun n => ?_) 8192 (by norm_num)
  · rw [Cert.KernelIdeal.Fr.protoCol_apply, Cert.ReferenceIdeal.RefValue.proto_row_ref]
  · rw [Cert.ReferenceIdeal.RefValue.proto_row_ref]
    obtain ⟨r, hr⟩ := expSum_real _ _ hfe hp n
    rw [hr]; exact log_coe_ne_top r

end Cert.Bridge

end
-- ==== Proof.TotalBridge.lean ====
/-
  The total agrees: both programs form 1.0 · (first loss) + 0.001 · (second loss) with the same two words, so the totals
  are equal once the two losses are.
-/
import proofs.«406017_j9732395892833_3_alg».proof.Proof.CeBridge
import proofs.«406017_j9732395892833_3_alg».proof.Proof.ProtoBridge

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (c : Dev Cert.KernelIdeal.nD)

theorem total_eq (hX : ∀ i, ∃ r : ℝ, logitArr m c i = (r : EReal))
    (hlse : ∀ n : Fin 8192, Cert.KernelIdeal.Fr.lseCol m c (ix2 n (0 : Fin 1)) = ((Cert.ReferenceIdeal.RefValue.lseRowR (logitArr m c) n : ℝ) : EReal))
    (hfe : ∀ i, ∃ r : ℝ, Cert.KernelIdeal.Fr.featArr m c i = (r : EReal))
    (hp : ∀ i, ∃ r : ℝ, Cert.KernelIdeal.Fr.protoArr m c i = (r : EReal)) (i : Cert.KernelIdeal.S_.Idx) :
    (Cert.KernelIdeal.Fr.W6 (F := Ideal) m c (Proc.devRef .tc Cert.KernelIdeal.main_v14) : FVec Ideal Cert.KernelIdeal.S_ .f32) i
      = Cert.ReferenceIdeal.ReadP.val_main_v29 (F := Ideal) (logitArr m c) (Cert.KernelIdeal.Fr.protoArr m c) (Cert.KernelIdeal.Fr.featArr m c) (tgtArr m c) i := by
  rw [Cert.KernelIdeal.Fr.total_kernel_apply, ce_eq m c hX hlse i, proto_eq m c hfe hp i]
  rfl

end Cert.Bridge

end
-- ==== Proof.Finite.lean ====
/-
  From the precondition to real numbers. The precondition says, of each of the three float inputs, that every entry's
  absolute value is strictly below +∞. On the extended reals an absolute value is the larger of x and -x, so both
  infinities fail that test, and an entry that passes it is the coercion of a real number.
-/
import proofs.«406017_j9732395892833_3_alg».proof.Pre_finite_inputs
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll
import Idealize.ShloMosaic.Lib.Affine

noncomputable section

namespace Cert.Finite

open Idealize.ShloMosaic Idealize.ShloMosaic.ValueIdx Cert.Pre_finite_inputs

instance : Subsingleton S_.Idx := ⟨fun a b => funext fun d => d.elim0⟩

/-- An extended real whose absolute value is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One input's test read at an entry. -/
theorem real_of_test {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  refine real_of_abs_lt_top (a i) ?_
  rw [cmpf_apply, broadcastInDim_apply _ hb _ i (fun d => d.elim0) (fun d => d.elim0), constant_apply] at h
  have htop : Ideal.ofBits .f32 0x7F800000#32 = (⊤ : EReal) := by simp [Ideal.ofBits, Ideal.ieee]
  rw [htop] at h
  by_contra hn
  have : FloatOps.cmpf (F := Ideal) .olt (Host.absf a i) (⊤ : EReal) = 0#1 := by
    show BitVec.ofBool (decide (max (a i) (-(a i)) < ⊤)) = 0#1
    rw [decide_eq_false hn]; rfl
  rw [this] at h
  exact absurd h (by decide)

variable [Facts]

/-- Under the precondition every entry of the logits, of the prototypes and of the features is a real number. -/
theorem finite_of_pre (a0 : FVec Ideal S8192x32000 .f32) (a1 : FVec Ideal S1024x256 .f32) (a2 : FVec Ideal S8192x256 .f32) (a3 : IVec S8192 32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.mp h0
  obtain ⟨h0', h1⟩ := IntOp.andi_eq_one.mp h01
  exact ⟨fun i => real_of_test a0 _ i (Host.reduce_andi_all _ _ _ _ _ h0' i),
    fun i => real_of_test a1 _ i (Host.reduce_andi_all _ _ _ _ _ h1 i),
    fun i => real_of_test a2 _ i (Host.reduce_andi_all _ _ _ _ _ h2 i)⟩

end Cert.Finite

end
-- ==== Proof.lean ====
/-
  The certificate of the streamed cross-entropy + prototype loss against its jnp reference.

  The kernel's program is two pallas_calls among stretches of host operations. The first streams each row's log-sum-exp
  over a 16 × 5 grid of 512 × 6400 blocks of the logits, keeping a running shift and a running sum of exponentials in
  scratch between the five column blocks of a row block; the host then gathers each row's target logit, subtracts, and
  averages. The second computes, for each block of 1024 feature rows, minus the logarithm of the sum over the 1024
  prototypes of exp(−(‖f‖² + ‖p‖² − 2⟨f, p⟩)); the host averages that column and forms 1.0 · first + 0.001 · second.

  The three frames: both printed programs of the kernel run through the launch theorem for several regions, each region a
  record of its layout, its body obligation (the first region's by three control cases over a carried scratch, the second
  region's by one store) and the entailments around "every buffer at the current contents"; the reference's frame is its
  run with the results dropped. The idealization rewrote nothing, so 'preserves' is trivial.

  The equivalence over the extended reals, under finite float inputs: (i) the running shift need not be the maximum for
  the streamed sum to be the row's sum at that shift, and a shift cancels in (shift + log of the shifted sum), so the first
  region's column is each row's real log-sum-exp, and the reference's log-softmax entry is (logit − that); (ii) both programs
  pick the target's entry by one and the same chain of operations on the same targets, so in every row either both keep the
  entry of one and the same column or both put the not-a-number word, which reads as −∞: the kernel's row is the negation of
  the reference's in both cases, no reference row is +∞, and the mean of negated rows is the negated mean; (iii) the
  prototype rows agree term by term, their logarithms are never +∞, and again the mean of the negated rows is the negated
  mean; (iv) the totals are the same two words times equal losses.
-/
import proofs.«406017_j9732395892833_3_alg».proof.Defs
import proofs.«406017_j9732395892833_3_alg».proof.Proof.Gen.Kernel
import proofs.«406017_j9732395892833_3_alg».proof.Proof.Gen.KernelIdeal
import proofs.«406017_j9732395892833_3_alg».proof.Proof.Gen.ReferenceIdeal
import proofs.«406017_j9732395892833_3_alg».proof.Proof.Gen.Pre_finite_inputs
import proofs.«406017_j9732395892833_3_alg».proof.Proof.KbRun
import proofs.«406017_j9732395892833_3_alg».proof.Proof.KiRun
import proofs.«406017_j9732395892833_3_alg».proof.Proof.KiR0Value
import proofs.«406017_j9732395892833_3_alg».proof.Proof.TotalBridge
import proofs.«406017_j9732395892833_3_alg».proof.Proof.Finite
import proofs.«406017_j9732395892833_3_alg».proof.Proof.RefRunP
import proofs.«406017_j9732395892833_3_alg».proof.Proof.RefStages

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.ValueP.run (F := Ideal) m ρ)

/-- The reference's composed total is its last stage. -/
theorem res_total_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v29 m c
      = Cert.ReferenceIdeal.ReadP.val_main_v29 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) := by
  unfold Cert.ReferenceIdeal.ValueP.res_main_v29; rfl

/-- Over finite inputs the first region's column holds each row's real log-sum-exp. -/
theorem lse_rows (m : (ℓ : Loc Cert.KernelIdeal.nD Cert.KernelIdeal.τ Cert.KernelIdeal.sig) → Buf (Elt Ideal) ℓ) (c : Dev Cert.KernelIdeal.nD)
    (hX : ∀ i, ∃ r : ℝ, Cert.Bridge.logitArr m c i = (r : EReal)) (n : Fin 8192) :
    Cert.KernelIdeal.Fr.lseCol m c (ix2 n (0 : Fin 1)) = ((Cert.ReferenceIdeal.RefValue.lseRowR (Cert.Bridge.logitArr m c) n : ℝ) : EReal) :=
  congrFun (Cert.KernelIdeal.Fr.arrAt_main_v0 (Cert.KernelIdeal.Fr.VE0 m) c hX) (ix2 n (0 : Fin 1))

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.W6 m c (Proc.devRef .tc Cert.KernelIdeal.main_v14), fun c => Cert.KernelIdeal.Fr.W6 m c (Proc.devRef .tc Cert.KernelIdeal.main_v5),
    fun c => Cert.KernelIdeal.Fr.W6 m c (Proc.devRef .tc Cert.KernelIdeal.main_v11), ?_, ?_⟩
  · exact (θ_run Cert.KernelIdeal.defs _ _).mono (fun r h c =>
      ⟨h c _ (Cert.KernelIdeal.Fr.mem_uc Cert.KernelIdeal.main_v14 (by decide)), h c _ (Cert.KernelIdeal.Fr.mem_uc Cert.KernelIdeal.main_v5 (by decide)),
       h c _ (Cert.KernelIdeal.Fr.mem_uc Cert.KernelIdeal.main_v11 (by decide)),
       (h c _ (Cert.KernelIdeal.Fr.mem_uc Cert.KernelIdeal.main_arg0 (by decide))).trans (Cert.KernelIdeal.Fr.W6_main_arg0 m c),
       (h c _ (Cert.KernelIdeal.Fr.mem_uc Cert.KernelIdeal.main_arg1 (by decide))).trans (Cert.KernelIdeal.Fr.W6_main_arg1 m c),
       (h c _ (Cert.KernelIdeal.Fr.mem_uc Cert.KernelIdeal.main_arg2 (by decide))).trans (Cert.KernelIdeal.Fr.W6_main_arg2 m c),
       (h c _ (Cert.KernelIdeal.Fr.mem_uc Cert.KernelIdeal.main_arg3 (by decide))).trans (Cert.KernelIdeal.Fr.W6_main_arg3 m c)⟩)
      (Cert.KernelIdeal.Fr.run_all m ρ)
  · refine (θ_run Cert.ReferenceIdeal.defs _ _).mono (fun r h c => ?_) (Cert.ReferenceIdeal.ValueP.run (F := Ideal) m' ρ')
    obtain ⟨h29, h5, h26, ha0, ha1, ha2, ha3⟩ := h c
    obtain ⟨e0, e1, e2, e3⟩ := hagree c
    obtain ⟨hX, hP, hFe⟩ := Cert.Finite.finite_of_pre _ _ _ _ (hpre c)
    have hlse := lse_rows m c hX
    refine ⟨h29.trans ?_, h5.trans ?_, h26.trans ?_, ha0, ha1, ha2, ha3⟩
    · rw [res_total_eq, e0, e1, e2, e3]
      exact funext fun i => (Cert.Bridge.total_eq m c hX hlse hFe hP i).symm
    · rw [Cert.ReferenceIdeal.ReadP.val_main_v5_eq, e0, e3]
      exact funext fun i => (Cert.Bridge.ce_eq m c hX hlse i).symm
    · rw [Cert.ReferenceIdeal.ReadP.val_main_v26_eq, e1, e2]
      exact funext fun i => (Cert.Bridge.proto_eq m c hFe hP i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
